-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S1024x512 : Shape := ⟨2, ![1024, 512]⟩
abbrev S1x512 : Shape := ⟨2, ![1, 512]⟩
abbrev S16x1x512 : Shape := ⟨3, ![16, 1, 512]⟩
abbrev S_ : Shape := ⟨0, ![]⟩
abbrev S16 : Shape := ⟨1, ![16]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S1024x512, .f32⟩
  | .local _ .vmem, ⟨2, _⟩ => ⟨S16x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v70 : BitVec 32 := Scalar.addi v2 c1_i32_65
  let c16_i32_66 : BitVec 32 := 16#32
  let v71 : BitVec 32 := Scalar.remsi v70 c16_i32_66
  let c1_i32_71 : BitVec 32 := 1#32
  let v72 : BitVec 32 := Scalar.muli v71 c1_i32_71
  let v73 : BitVec 32 := Scalar.addi c0_i32_72 v72
  v73.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v82 : BitVec 32 := Scalar.addi v2 c2_i32_77
  let c16_i32_78 : BitVec 32 := 16#32
  let v83 : BitVec 32 := Scalar.remsi v82 c16_i32_78
  let c1_i32_83 : BitVec 32 := 1#32
  let v84 : BitVec 32 := Scalar.muli v83 c1_i32_83
  let v85 : BitVec 32 := Scalar.addi c0_i32_84 v84
  v85.toNat
def k0_dev18 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v94 : BitVec 32 := Scalar.addi v2 c3_i32_89
  let c16_i32_90 : BitVec 32 := 16#32
  let v95 : BitVec 32 := Scalar.remsi v94 c16_i32_90
  let c1_i32_95 : BitVec 32 := 1#32
  let v96 : BitVec 32 := Scalar.muli v95 c1_i32_95
  let v97 : BitVec 32 := Scalar.addi c0_i32_96 v96
  v97.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v106 : BitVec 32 := Scalar.addi v2 c4_i32_101
  let c16_i32_102 : BitVec 32 := 16#32
  let v107 : BitVec 32 := Scalar.remsi v106 c16_i32_102
  let c1_i32_107 : BitVec 32 := 1#32
  let v108 : BitVec 32 := Scalar.muli v107 c1_i32_107
  let v109 : BitVec 32 := Scalar.addi c0_i32_108 v108
  v109.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v118 : BitVec 32 := Scalar.addi v2 c5_i32_113
  let c16_i32_114 : BitVec 32 := 16#32
  let v119 : BitVec 32 := Scalar.remsi v118 c16_i32_114
  let c1_i32_119 : BitVec 32 := 1#32
  let v120 : BitVec 32 := Scalar.muli v119 c1_i32_119
  let v121 : BitVec 32 := Scalar.addi c0_i32_120 v120
  v121.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v130 : BitVec 32 := Scalar.addi v2 c6_i32_125
  let c16_i32_126 : BitVec 32 := 16#32
  let v131 : BitVec 32 := Scalar.remsi v130 c16_i32_126
  let c1_i32_131 : BitVec 32 := 1#32
  let v132 : BitVec 32 := Scalar.muli v131 c1_i32_131
  let v133 : BitVec 32 := Scalar.addi c0_i32_132 v132
  v133.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v142 : BitVec 32 := Scalar.addi v2 c7_i32_137
  let c16_i32_138 : BitVec 32 := 16#32
  let v143 : BitVec 32 := Scalar.remsi v142 c16_i32_138
  let c1_i32_143 : BitVec 32 := 1#32
  let v144 : BitVec 32 := Scalar.muli v143 c1_i32_143
  let v145 : BitVec 32 := Scalar.addi c0_i32_144 v144
  v145.toNat
def k0_dev23 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v154 : BitVec 32 := Scalar.addi v2 c8_i32_149
  let c16_i32_150 : BitVec 32 := 16#32
  let v155 : BitVec 32 := Scalar.remsi v154 c16_i32_150
  let c1_i32_155 : BitVec 32 := 1#32
  let v156 : BitVec 32 := Scalar.muli v155 c1_i32_155
  let v157 : BitVec 32 := Scalar.addi c0_i32_156 v156
  v157.toNat
def k0_dev24 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v166 : BitVec 32 := Scalar.addi v2 c9_i32_161
  let c16_i32_162 : BitVec 32 := 16#32
  let v167 : BitVec 32 := Scalar.remsi v166 c16_i32_162
  let c1_i32_167 : BitVec 32 := 1#32
  let v168 : BitVec 32 := Scalar.muli v167 c1_i32_167
  let v169 : BitVec 32 := Scalar.addi c0_i32_168 v168
  v169.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v178 : BitVec 32 := Scalar.addi v2 c10_i32_173
  let c16_i32_174 : BitVec 32 := 16#32
  let v179 : BitVec 32 := Scalar.remsi v178 c16_i32_174
  let c1_i32_179 : BitVec 32 := 1#32
  let v180 : BitVec 32 := Scalar.muli v179 c1_i32_179
  let v181 : BitVec 32 := Scalar.addi c0_i32_180 v180
  v181.toNat
def k0_dev26 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v190 : BitVec 32 := Scalar.addi v2 c11_i32_185
  let c16_i32_186 : BitVec 32 := 16#32
  let v191 : BitVec 32 := Scalar.remsi v190 c16_i32_186
  let c1_i32_191 : BitVec 32 := 1#32
  let v192 : BitVec 32 := Scalar.muli v191 c1_i32_191
  let v193 : BitVec 32 := Scalar.addi c0_i32_192 v192
  v193.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v202 : BitVec 32 := Scalar.addi v2 c12_i32_197
  let c16_i32_198 : BitVec 32 := 16#32
  let v203 : BitVec 32 := Scalar.remsi v202 c16_i32_198
  let c1_i32_203 : BitVec 32 := 1#32
  let v204 : BitVec 32 := Scalar.muli v203 c1_i32_203
  let v205 : BitVec 32 := Scalar.addi c0_i32_204 v204
  v205.toNat
def k0_dev28 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_209 : BitVec 32 := 13#32
  let v214 : BitVec 32 := Scalar.addi v2 c13_i32_209
  let c16_i32_210 : BitVec 32 := 16#32
  let v215 : BitVec 32 := Scalar.remsi v214 c16_i32_210
  let c1_i32_215 : BitVec 32 := 1#32
  let v216 : BitVec 32 := Scalar.muli v215 c1_i32_215
  let v217 : BitVec 32 := Scalar.addi c0_i32_216 v216
  v217.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v226 : BitVec 32 := Scalar.addi v2 c14_i32_221
  let c16_i32_222 : BitVec 32 := 16#32
  let v227 : BitVec 32 := Scalar.remsi v226 c16_i32_222
  let c1_i32_227 : BitVec 32 := 1#32
  let v228 : BitVec 32 := Scalar.muli v227 c1_i32_227
  let v229 : BitVec 32 := Scalar.addi c0_i32_228 v228
  v229.toNat
def k0_dev30 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v238 : BitVec 32 := Scalar.addi v2 c15_i32_233
  let c16_i32_234 : BitVec 32 := 16#32
  let v239 : BitVec 32 := Scalar.remsi v238 c16_i32_234
  let c1_i32_239 : BitVec 32 := 1#32
  let v240 : BitVec 32 := Scalar.muli v239 c1_i32_239
  let v241 : BitVec 32 := Scalar.addi c0_i32_240 v240
  v241.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  inb_S16x1x512_S1x1x512_0_0_0 : ∀ a, (![0, 0, 0] : Fin 3 → Nat) a + S1x1x512.size a ≤ S16x1x512.size a
  h_S1x1x512 : 0 < S1x1x512.numel
  shapeCasts_S1x1x512_S1x512 : S1x1x512.ShapeCasts S1x512
  shapeCasts_S1x512_S1x1x512 : S1x512.ShapeCasts S1x1x512
  hamt_15 : (15#32 : BitVec 32).msb = false
  inb_S16_S1_1 : ∀ a, (![1] : Fin 1 → Nat) a + S1.size a ≤ S16.size a
  squeezes_S1_S_ : S1.Squeezes S_
  inb_S16x1x512_S1x1x512_1_0_0 : ∀ a, (![1, 0, 0] : Fin 3 → Nat) a + S1x1x512.size a ≤ S16x1x512.size a
  squeezes_S1x1x512_S1x512 : S1x1x512.Squeezes S1x512
  inb_S16_S1_2 : ∀ a, (![2] : Fin 1 → Nat) a + S1.size a ≤ S16.size a
  inb_S16x1x512_S1x1x512_2_0_0 : ∀ a, (![2, 0, 0] : Fin 3 → Nat) a + S1x1x512.size a ≤ S16x1x512.size a
  inb_S16_S1_3 : ∀ a, (![3] : Fin 1 → Nat) a + S1.size a ≤ S16.size a
  inb_S16x1x512_S1x1x512_3_0_0 : ∀ a, (![3, 0, 0] : Fin 3 → Nat) a + S1x1x512.size a ≤ S16x1x512.size a
  inb_S16_S1_4 : ∀ a, (![4] : Fin 1 → Nat) a + S1.size a ≤ S16.size a
  inb_S16x1x512_S1x1x512_4_0_0 : ∀ a, (![4, 0, 0] : Fin 3 → Nat) a + S1x1x512.size a ≤ S16x1x512.size a
  inb_S16_S1_5 : ∀ a, (![5] : Fin 1 → Nat) a + S1.size a ≤ S16.size a
  inb_S16x1x512_S1x1x512_5_0_0 : ∀ a, (![5, 0, 0] : Fin 3 → Nat) a + S1x1x512.size a ≤ S16x1x512.size a
  inb_S16_S1_6 : ∀ a, (![6] : Fin 1 → Nat) a + S1.size a ≤ S16.size a
  inb_S16x1x512_S1x1x512_6_0_0 : ∀ a, (![6, 0, 0] : Fin 3 → Nat) a + S1x1x512.size a ≤ S16x1x512.size a
  inb_S16_S1_7 : ∀ a, (![7] : Fin 1 → Nat) a + S1.size a ≤ S16.size a
  inb_S16x1x512_S1x1x512_7_0_0 : ∀ a, (![7, 0, 0] : Fin 3 → Nat) a + S1x1x512.size a ≤ S16x1x512.size a
  inb_S16_S1_8 : ∀ a, (![8] : Fin 1 → Nat) a + S1.size a ≤ S16.size a
  inb_S16x1x512_S1x1x512_8_0_0 : ∀ a, (![8, 0, 0] : Fin 3 → Nat) a + S1x1x512.size a ≤ S16x1x512.size a
  inb_S16_S1_9 : ∀ a, (![9] : Fin 1 → Nat) a + S1.size a ≤ S16.size a
  inb_S16x1x512_S1x1x512_9_0_0 : ∀ a, (![9, 0, 0] : Fin 3 → Nat) a + S1x1x512.size a ≤ S16x1x512.size a
  inb_S16_S1_10 : ∀ a, (![10] : Fin 1 → Nat) a + S1.size a ≤ S16.size a
  inb_S16x1x512_S1x1x512_10_0_0 : ∀ a, (![10, 0, 0] : Fin 3 → Nat) a + S1x1x512.size a ≤ S16x1x512.size a
  inb_S16_S1_11 : ∀ a, (![11] : Fin 1 → Nat) a + S1.size a ≤ S16.size a
  inb_S16x1x512_S1x1x512_11_0_0 : ∀ a, (![11, 0, 0] : Fin 3 → Nat) a + S1x1x512.size a ≤ S16x1x512.size a
  inb_S16_S1_12 : ∀ a, (![12] : Fin 1 → Nat) a + S1.size a ≤ S16.size a
  inb_S16x1x512_S1x1x512_12_0_0 : ∀ a, (![12, 0, 0] : Fin 3 → Nat) a + S1x1x512.size a ≤ S16x1x512.size a
  inb_S16_S1_13 : ∀ a, (![13] : Fin 1 → Nat) a + S1.size a ≤ S16.size a
  inb_S16x1x512_S1x1x512_13_0_0 : ∀ a, (![13, 0, 0] : Fin 3 → Nat) a + S1x1x512.size a ≤ S16x1x512.size a
  inb_S16_S1_14 : ∀ a, (![14] : Fin 1 → Nat) a + S1.size a ≤ S16.size a
  inb_S16x1x512_S1x1x512_14_0_0 : ∀ a, (![14, 0, 0] : Fin 3 → Nat) a + S1x1x512.size a ≤ S16x1x512.size a
  inb_S16_S1_15 : ∀ a, (![15] : Fin 1 → Nat) a + S1.size a ≤ S16.size a
  inb_S16x1x512_S1x1x512_15_0_0 : ∀ a, (![15, 0, 0] : Fin 3 → Nat) a + S1x1x512.size a ≤ S16x1x512.size a
  inb_S16x1x512_S16x1x512_0_0_0 : ∀ a, (![0, 0, 0] : Fin 3 → Nat) a + S16x1x512.size a ≤ S16x1x512.size a
  h_S16x1x512 : 0 < S16x1x512.numel
  reduces_S16x1x512_S1x512 : S16x1x512.Reduces [0] S1x512
  inb_S1x512_S1x512_0_0 : ∀ a, (![0, 0] : Fin 2 → Nat) a + S1x512.size a ≤ S1x512.size a
  h_S1x512 : 0 < S1x512.numel
  hcc0_scratch2 : 1 + S_.numel ≤ 34
  hcc0_scratch3 : 2 + S16.numel ≤ 34
  hcc0_scratch4 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole

variable [Facts₀]

abbrev cc0_scratch2 : DmaSems sig S_ := SemArray.consecutive 1 S_ hcc0_scratch2
abbrev cc0_scratch3 : DmaSems sig S16 := SemArray.consecutive 2 S16 hcc0_scratch3
abbrev cc0_scratch4 : DmaSems sig S16 := SemArray.consecutive 18 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Protocol.lean ====
/-
  An all-reduce by maximum over sixteen devices on a ring of offsets. Device `c` holds rows
  [1024 c, 1024 c + 1024) of a [16384, 512] array. It takes the column maxima of its own block into
  slot 0 of a [16, 1, 512] scratch buffer, copies that slot into slot `d` of device `c + d`
  (mod 16) for every offset `d = 1 … 15`, and so receives in its own slot `d` the column maxima of
  device `c - d`; the maximum over the sixteen slots is the column maxima of the whole array.

  Before any copy a device must know that its target is inside the kernel: every device signals
  the barrier semaphore of each of the other fifteen and waits for fifteen units on its own.

  This module fixes the vocabulary of the protocol: the ring of offsets, the semaphore cells
  (one barrier cell of fifteen duties, one cell for the local copy, and per offset one send and
  one receive cell of one duty each), what each landing hands to the cell's owner, what each
  device owes at launch, and the levels that order the waits.
-/
import proofs.«900905_g7700000000000906_dist_max_ax0_shard0_i_m1024_n512_v7x_i16_f32_1_alg».proof.Proof.Gen.KernelIdeal.Frame
import proofs.«900905_g7700000000000906_dist_max_ax0_shard0_i_m1024_n512_v7x_i16_f32_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

/-! ## The resource algebra: the pipeline's copy, and the ring's with duty names `Fin 16` -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of offsets -/

/-- The device `d` places further round the ring. -/
def rot (c : Dev nD) (d : Fin 16) : Dev nD := ⟨(c.val + d.val) % 16, Nat.mod_lt _ (by decide)⟩
/-- The opposite offset: `rot (rot c d) (neg d) = c`. -/
def neg (d : Fin 16) : Fin 16 := ⟨(16 - d.val) % 16, Nat.mod_lt _ (by decide)⟩

theorem rot_rot_neg (c : Dev nD) (d : Fin 16) : rot (rot c d) (neg d) = c := by revert c d; decide +kernel
theorem rot_neg_rot (c : Dev nD) (d : Fin 16) : rot (rot c (neg d)) d = c := by revert c d; decide +kernel
theorem neg_neg (d : Fin 16) : neg (neg d) = d := by revert d; decide
theorem neg_ne_zero {d : Fin 16} (h : d ≠ 0) : neg d ≠ 0 := by revert d; decide
theorem rot_zero (c : Dev nD) : rot c 0 = c := by revert c; decide
theorem rot_left_injective (d : Fin 16) : Function.Injective fun c : Dev nD => rot c d := by revert d; decide +kernel
theorem rot_ne_self (c : Dev nD) {d : Fin 16} (h : d ≠ 0) : rot c d ≠ c := by revert c d; decide +kernel
theorem rot_val (c : Dev nD) (d : Fin 16) : (rot c d).val = (c.val + d.val) % 16 := rfl

/-- Shifting every device by one offset permutes the devices. -/
def rotEquiv (d : Fin 16) : Dev nD ≃ Dev nD := ⟨fun c => rot c d, fun c => rot c (neg d), fun c => rot_rot_neg c d, fun c => rot_neg_rot c d⟩
/-- Negation permutes the offsets. -/
def negEquiv : Fin 16 ≃ Fin 16 := ⟨neg, neg, neg_neg, neg_neg⟩

/-! ## The semaphores and their cells -/

theorem inbS (d : Fin 16) : ∀ a, (![d.val] : Fin 1 → Nat) a + S1.size a ≤ S16.size a := by
  intro a; fin_cases a; simp [S1, S16] <;> omega

/-- The barrier semaphore of collective id 0 (the runtime's, not scoped); the semaphore of the local
    copy; the send and the receive semaphore of offset `d`. -/
abbrev barS : Sem sig := (SemArray.scalar (sig.barrier 0 rfl) : Sems sig S_).sem
abbrev copyS : DmaSems sig S_ := cc0_scratch2
def sendS (d : Fin 16) : DmaSems sig S_ := (cc0_scratch3.slice (Rect.unit (s := S16) ![d.val] S1.size (inbS d))).squeeze S_ Facts₀.squeezes_S1_S_
def recvS (d : Fin 16) : DmaSems sig S_ := (cc0_scratch4.slice (Rect.unit (s := S16) ![d.val] S1.size (inbS d))).squeeze S_ Facts₀.squeezes_S1_S_

theorem copyS_sem : copyS.sem = (1 : DmaSem sig) := by decide
theorem sendS_sem (d : Fin 16) : (sendS d).sem = (⟨2 + d.val, by have := d.isLt; show 2 + d.val < 34; omega⟩ : DmaSem sig) := by revert d; decide
theorem recvS_sem (d : Fin 16) : (recvS d).sem = (⟨18 + d.val, by have := d.isLt; show 18 + d.val < 34; omega⟩ : DmaSem sig) := by revert d; decide

abbrev barCell (c : Dev nD) : GSem nD τ sig := ((c : Thread nD τ), .reg barS)
abbrev copyCell (c : Dev nD) : GSem nD τ sig := ((c : Thread nD τ), .dma copyS.sem)
abbrev sendCell (c : Dev nD) (d : Fin 16) : GSem nD τ sig := ((c : Thread nD τ), .dma (sendS d).sem)
abbrev recvCell (c : Dev nD) (d : Fin 16) : GSem nD τ sig := ((c : Thread nD τ), .dma (recvS d).sem)

/-- What a semaphore is for. -/
inductive Role where
  | bar | copy | send (d : Fin 16) | recv (d : Fin 16) | idle
deriving DecidableEq

/-- The role of a cell's semaphore, read off its index: the DMA pool holds the copy's semaphore at 1, the
    send semaphores at 2 … 17 and the receive semaphores at 18 … 33; offset 0 of either array is never used. -/
def roleOf : SemLoc sig → Role
  | .reg s => if s = barS then .bar else .idle
  | .dma q =>
    if q.val = 1 then .copy
    else if h : 3 ≤ q.val ∧ q.val ≤ 17 then .send ⟨q.val - 2, by omega⟩
    else if h : 19 ≤ q.val ∧ q.val ≤ 33 then .recv ⟨q.val - 18, by omega⟩
    else .idle

theorem role_bar : roleOf (.reg barS : SemLoc sig) = .bar := by decide
theorem role_copy : roleOf (.dma copyS.sem : SemLoc sig) = .copy := by decide
theorem role_send {d : Fin 16} (h : d ≠ 0) : roleOf (.dma (sendS d).sem : SemLoc sig) = .send d := by revert d; decide
theorem role_recv {d : Fin 16} (h : d ≠ 0) : roleOf (.dma (recvS d).sem : SemLoc sig) = .recv d := by revert d; decide
theorem role_send0 : roleOf (.dma (sendS 0).sem : SemLoc sig) = .idle := by decide
theorem role_recv0 : roleOf (.dma (recvS 0).sem : SemLoc sig) = .idle := by decide

/-! ## The buffers -/

theorem inbM (d : Fin 16) : ∀ a, (![d.val, 0, 0] : Fin 3 → Nat) a + S1x1x512.size a ≤ S16x1x512.size a := by
  intro a; fin_cases a <;> simp [S1x1x512, S16x1x512] <;> omega

/-- The HBM block, its VMEM copy, the sixteen-slot buffer, the result's staging buffer. -/
abbrev xM : Memref sig .tc .hbm S1024x512 .f32 := Memref.whole main_arg0
abbrev xvM : Memref sig .tc .vmem S1024x512 .f32 := Memref.whole cc0_scratch0
abbrev commM : Memref sig .tc .vmem S16x1x512 .f32 := Memref.whole cc0_scratch1
abbrev outM : Memref sig .tc .vmem S1x512 .f32 := Memref.whole cc0_stg0_0
/-- Slot `d` of the sixteen-slot buffer, as a [1, 512] view. -/
@[reducible] def slotM (d : Fin 16) : Memref sig .tc .vmem S1x512 .f32 :=
  (commM.slice (Rect.unit (s := S16x1x512) ![d.val, 0, 0] S1x1x512.size (inbM d)) (fun _ => rfl)).squeeze S1x512 Facts₀.squeezes_S1x1x512_S1x512

/-- One slot's DMA credit; the block's. -/
abbrev N : ℕ := (slotM 0).view.dmaCredit
abbrev Nx : ℕ := (xvM : Memref sig .tc .vmem S1024x512 .f32).view.dmaCredit
theorem N_pos : 0 < N := View.dmaCredit_pos _ (by decide)
theorem Nx_pos : 0 < Nx := View.dmaCredit_pos _ (by decide)
theorem slot_credit (d : Fin 16) : (slotM d).view.dmaCredit = N := rfl

/-! ## Contents -/

/-- Device `c`'s block of the input. -/
def xin (c : Dev nD) : Vec F S1024x512 .f32 := m ((c : Thread nD τ).loc main_arg0)
/-- Its column maxima, as the kernel stores them into slot 0. -/
def bmax (c : Dev nD) : FVec F S1x1x512 .f32 := Gen.k0_pay1 (xin m c)
/-- What the sixteen-slot buffer of device `c` holds once every copy has landed: slot `d` the column maxima of the
    device `d` places before `c`. -/
def commFinal (c : Dev nD) : Buf (Elt F) ((c : Thread nD τ).loc cc0_scratch1) :=
  fun i => bmax m (rot c (neg (show Fin 16 from i 0))) (ValueIdx.ix3 (0 : Fin 1) (0 : Fin 1) (show Fin 512 from i 2))
/-- The result: the maximum over the sixteen slots. -/
def outAt (c : Dev nD) : (cc0_stg0_0 : Ref sig .tc).ty.Contents (Elt F) := Gen.k0_pay2 (commFinal m c)

/-! ## Holdings -/

/-- The read shares of slot 0: one per offset, lent to that offset's copy while it is in flight, and what is kept for
    the kernel's own load. -/
abbrev tok (d : Fin 16) : PosShare TreeShare := Transfers.shareTok fullShare 16 d
abbrev keep : PosShare TreeShare := Transfers.shareDrop fullShare 16

/-- Slot `d` of device `c`'s sixteen-slot buffer, held at share `q` at contents `f`. -/
def slotPts (c : Dev nD) (d : Fin 16) (q : PosShare TreeShare) (f : Buf (Elt F) ((c : Thread nD τ).loc cc0_scratch1)) : sProp 𝕄 :=
  (slotM d).view.loc (c : Thread nD τ) ↦[(slotM d).view.set]{q} f
/-- The block's VMEM copy, whole. -/
def xvPts (c : Dev nD) (f : Buf (Elt F) ((c : Thread nD τ).loc cc0_scratch0)) : sProp 𝕄 :=
  (xvM : Memref sig .tc .vmem S1024x512 .f32).view.loc (c : Thread nD τ) ↦[(xvM : Memref sig .tc .vmem S1024x512 .f32).view.set]{fullShare} f
/-- The block in HBM, whole, as launched. -/
def xPts (c : Dev nD) : sProp 𝕄 :=
  (xM : Memref sig .tc .hbm S1024x512 .f32).view.loc (c : Thread nD τ) ↦[(xM : Memref sig .tc .hbm S1024x512 .f32).view.set]{fullShare} m ((c : Thread nD τ).loc main_arg0)

instance slotPts_storable (c : Dev nD) (d : Fin 16) (q) (f) : BI.Storable (upEmb : UEmb _ 𝕄) (slotPts (F := F) c d q f) := by unfold slotPts; infer_instance
instance xvPts_storable (c : Dev nD) (f) : BI.Storable (upEmb : UEmb _ 𝕄) (xvPts (F := F) c f) := by unfold xvPts; infer_instance
instance xPts_storable (c : Dev nD) : BI.Storable (upEmb : UEmb _ 𝕄) (xPts (F := F) m c) := by unfold xPts; infer_instance

/-! ## The schedule: one round -/

/-- Duty `dn` of device `o`'s barrier cell is paid by the device `dn` places before it, `p = rot o (neg dn)`, whose
    `dn`-th signal it is. It hands `o` the slot of `p` that `o` will copy into — slot `neg dn`, since `p` is
    `neg dn` places after `o` — and that `p` has reached round 0 of that slot's receive cell. -/
def barPay (o : Dev nD) (dn : Fin 16) : sProp 𝕄 :=
  iprop((∃ f, slotPts (rot o (neg dn)) (neg dn) fullShare f) ∗ reached ER (recvCell (rot o (neg dn)) (neg dn)) 0)
/-- The local copy's landing: the VMEM copy holding the block, and the block back. -/
def copyPay (c : Dev nD) : sProp 𝕄 := iprop(xvPts c (xin m c) ∗ xPts m c)
/-- The send cell of offset `d`: that offset's read share of slot 0 back. -/
def sendPay (c : Dev nD) (d : Fin 16) : sProp 𝕄 := slotPts c 0 (tok d) (commFinal m c)
/-- The receive cell of offset `d`: slot `d` holding the column maxima of the device `d` places before. -/
def recvPay (c : Dev nD) (d : Fin 16) : sProp 𝕄 := slotPts c d fullShare (commFinal m c)

def Rd : Rounds.Schedule (GSem nD τ sig) (Fin 16) 𝕄 where
  duties g r :=
    if r = 0 ∧ g.1.2 = .tc then
      (match roleOf g.2 with
        | .bar => Finset.univ.erase 0
        | .copy => {0}
        | .send _ => {0}
        | .recv _ => {0}
        | .idle => ∅)
    else ∅
  unitless _ := False
  amount g _ _ := match roleOf g.2 with
    | .bar => 1
    | .copy => Nx
    | .send _ => N
    | .recv _ => N
    | .idle => N
  payload g _ dn := match roleOf g.2 with
    | .bar => barPay g.1.1 dn
    | .copy => copyPay m g.1.1
    | .send d => sendPay m g.1.1 d
    | .recv d => recvPay m g.1.1 d
    | .idle => iprop(emp)
  amount_pos g _ _ _ := by
    cases roleOf g.2 <;> first | exact Nat.one_pos | exact Nx_pos | exact N_pos

instance Rd_payload_storable (g : GSem nD τ sig) (r : ℕ) (dn : Fin 16) :
    BI.Storable (upEmb : UEmb _ 𝕄) ((Rd (F := F) m).payload g r dn) := by
  show BI.Storable upEmb (match roleOf g.2 with
    | .bar => barPay g.1.1 dn
    | .copy => copyPay m g.1.1
    | .send d => sendPay m g.1.1 d
    | .recv d => recvPay m g.1.1 d
    | .idle => iprop(emp))
  unfold barPay copyPay sendPay recvPay
  split <;> infer_instance

section Sched
variable (c : Dev nD)

theorem duties_bar : (Rd (F := F) m).duties (barCell c) 0 = Finset.univ.erase 0 := by
  dsimp only [Rd]; rw [if_pos ⟨rfl, rfl⟩, role_bar]
theorem duties_copy : (Rd (F := F) m).duties (copyCell c) 0 = {0} := by
  dsimp only [Rd]; rw [if_pos ⟨rfl, rfl⟩, role_copy]
theorem duties_send {d : Fin 16} (h : d ≠ 0) : (Rd (F := F) m).duties (sendCell c d) 0 = {0} := by
  dsimp only [Rd]; rw [if_pos ⟨rfl, rfl⟩, role_send h]
theorem duties_recv {d : Fin 16} (h : d ≠ 0) : (Rd (F := F) m).duties (recvCell c d) 0 = {0} := by
  dsimp only [Rd]; rw [if_pos ⟨rfl, rfl⟩, role_recv h]
theorem duties_send0 (r : ℕ) : (Rd (F := F) m).duties (sendCell c 0) r = ∅ := by
  dsimp only [Rd]; split
  · rw [role_send0]
  · rfl
theorem duties_recv0 (r : ℕ) : (Rd (F := F) m).duties (recvCell c 0) r = ∅ := by
  dsimp only [Rd]; split
  · rw [role_recv0]
  · rfl
theorem duties_later (g : GSem nD τ sig) : ∀ r, 1 ≤ r → (Rd (F := F) m).duties g r = ∅ :=
  fun r hr => by dsimp only [Rd]; rw [if_neg fun h => by omega]

theorem amount_bar (dn : Fin 16) : (Rd (F := F) m).amount (barCell c) 0 dn = 1 := by dsimp only [Rd]; rw [role_bar]
theorem amount_copy (dn : Fin 16) : (Rd (F := F) m).amount (copyCell c) 0 dn = Nx := by dsimp only [Rd]; rw [role_copy]
theorem amount_send {d : Fin 16} (h : d ≠ 0) (dn : Fin 16) : (Rd (F := F) m).amount (sendCell c d) 0 dn = N := by dsimp only [Rd]; rw [role_send h]
theorem amount_recv {d : Fin 16} (h : d ≠ 0) (dn : Fin 16) : (Rd (F := F) m).amount (recvCell c d) 0 dn = N := by dsimp only [Rd]; rw [role_recv h]

theorem expect_bar : (Rd (F := F) m).expect (barCell c) 0 = 15 := by
  unfold Schedule.expect Schedule.amountOf
  rw [duties_bar, Finset.sum_congr rfl fun d _ => amount_bar m c d, Finset.sum_const, smul_eq_mul, mul_one]
  decide
theorem expect_of_singleton {g : GSem nD τ sig} {d0 : Fin 16} (hd : (Rd (F := F) m).duties g 0 = {d0}) :
    (Rd (F := F) m).expect g 0 = (Rd (F := F) m).amount g 0 d0 := by
  unfold Schedule.expect Schedule.amountOf; rw [hd, Finset.sum_singleton]
theorem expect_copy : (Rd (F := F) m).expect (copyCell c) 0 = Nx :=
  (expect_of_singleton m (duties_copy m c)).trans (amount_copy m c 0)
theorem expect_send {d : Fin 16} (h : d ≠ 0) : (Rd (F := F) m).expect (sendCell c d) 0 = N :=
  (expect_of_singleton m (duties_send m c h)).trans (amount_send m c h 0)
theorem expect_recv {d : Fin 16} (h : d ≠ 0) : (Rd (F := F) m).expect (recvCell c d) 0 = N :=
  (expect_of_singleton m (duties_recv m c h)).trans (amount_recv m c h 0)

theorem payload_bar (dn : Fin 16) : (Rd (F := F) m).payload (barCell c) 0 dn = barPay c dn := by dsimp only [Rd]; rw [role_bar]
theorem payload_copy (dn : Fin 16) : (Rd (F := F) m).payload (copyCell c) 0 dn = copyPay m c := by dsimp only [Rd]; rw [role_copy]
theorem payload_send {d : Fin 16} (h : d ≠ 0) (dn : Fin 16) : (Rd (F := F) m).payload (sendCell c d) 0 dn = sendPay m c d := by
  dsimp only [Rd]; rw [role_send h]
theorem payload_recv {d : Fin 16} (h : d ≠ 0) (dn : Fin 16) : (Rd (F := F) m).payload (recvCell c d) 0 dn = recvPay m c d := by
  dsimp only [Rd]; rw [role_recv h]

/-- The rest of a round none of whose duties has been taken. -/
theorem rest_bar : bigSep ((Rd (F := F) m).duties (barCell c) 0 \ ∅) (fun dn => (Rd (F := F) m).payload (barCell c) 0 dn)
    = bigSep (Finset.univ.erase (0 : Fin 16)) (fun dn => barPay (F := F) c dn) := by
  rw [Finset.sdiff_empty, duties_bar]; exact bigSep_congr fun dn _ => payload_bar m c dn
theorem rest_copy : bigSep ((Rd (F := F) m).duties (copyCell c) 0 \ ∅) (fun dn => (Rd (F := F) m).payload (copyCell c) 0 dn) = copyPay m c := by
  rw [Finset.sdiff_empty, duties_copy, bigSep_singleton, payload_copy]
theorem rest_send {d : Fin 16} (h : d ≠ 0) :
    bigSep ((Rd (F := F) m).duties (sendCell c d) 0 \ ∅) (fun dn => (Rd (F := F) m).payload (sendCell c d) 0 dn) = sendPay m c d := by
  rw [Finset.sdiff_empty, duties_send m c h, bigSep_singleton, payload_send m c h]
theorem rest_recv {d : Fin 16} (h : d ≠ 0) :
    bigSep ((Rd (F := F) m).duties (recvCell c d) 0 \ ∅) (fun dn => (Rd (F := F) m).payload (recvCell c d) 0 dn) = recvPay m c d := by
  rw [Finset.sdiff_empty, duties_recv m c h, bigSep_singleton, payload_recv m c h]

end Sched

/-! ## What each device owes at launch; the levels -/

/-- The offsets after `j`: those whose signal (or copy) is still to come once the first `j` are done. -/
def above (j : ℕ) : Finset (Fin 16) := Finset.univ.filter fun d => j < d.val

theorem above_pred {j : Fin 16} (h : j ≠ 0) : above (j.val - 1) = insert j (above j.val) := by revert j; decide
theorem not_mem_above_self (j : Fin 16) : j ∉ above j.val := by revert j; decide
theorem above_15 : above 15 = ∅ := by decide
theorem above_0 : above 0 = Finset.univ.erase 0 := by decide
theorem ne_zero_of_mem_above {j : ℕ} {d : Fin 16} (h : d ∈ above j) : d ≠ 0 := by
  rintro rfl; simp [above] at h

/-- After `j` copies: the credit of slot `d` of the device `d` places on, for every later offset `d`. -/
def owedRecv (c : Dev nD) (j : ℕ) : CellTallies nD τ sig Unit := ∑ d ∈ above j, tallyAt (recvCell (rot c d) d) () N
/-- After `j` signals: one unit of the barrier cell of the device `d` places on, for every later offset `d`. -/
def owedBar (c : Dev nD) (j : ℕ) : CellTallies nD τ sig Unit := ∑ d ∈ above j, tallyAt (barCell (rot c d)) () 1
/-- At launch: all of both. -/
def O₀ (c : Dev nD) : CellTallies nD τ sig Unit := owedRecv c 0 + owedBar c 0

theorem owedBar_peel (c : Dev nD) {j : Fin 16} (h : j ≠ 0) :
    owedBar c (j.val - 1) = owedBar c j.val + tallyAt (barCell (rot c j)) () 1 := by
  unfold owedBar; rw [above_pred h, Finset.sum_insert (not_mem_above_self j), add_comm]
theorem owedRecv_peel (c : Dev nD) {j : Fin 16} (h : j ≠ 0) :
    owedRecv c (j.val - 1) = owedRecv c j.val + tallyAt (recvCell (rot c j) j) () N := by
  unfold owedRecv; rw [above_pred h, Finset.sum_insert (not_mem_above_self j), add_comm]
theorem owedBar_15 (c : Dev nD) : owedBar c 15 = 0 := by unfold owedBar; rw [above_15, Finset.sum_empty]
theorem owedRecv_15 (c : Dev nD) : owedRecv c 15 = 0 := by unfold owedRecv; rw [above_15, Finset.sum_empty]

def L (g : GSem nD τ sig) : Finset Unit := if g.1.2 = .tc then {()} else ∅
/-- Barrier cells at 1, receive cells at 2, everything else (staging, the local copy, the send cells) at 0: a device waits
    on its barrier owing only receive credit, and on everything else at level 0 or owing nothing. -/
def lv (g : GSem nD τ sig) (_ : Unit) : ℕ := match roleOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c : Dev nD) {d : Fin 16} (h : d ≠ 0) : lv (recvCell c d) () = 2 := by unfold lv; rw [role_recv h]
theorem lv_copy (c : Dev nD) : lv (copyCell c) () = 0 := by unfold lv; rw [role_copy]
theorem lv_send (c : Dev nD) {d : Fin 16} (h : d ≠ 0) : lv (sendCell c d) () = 0 := by unfold lv; rw [role_send h]

theorem owedRecv_pos {c : Dev nD} {j : ℕ} {g : GSem nD τ sig} {u : Unit} (h : 0 < owedRecv c j g u) :
    ∃ d ∈ above j, g = recvCell (rot c d) d := by
  obtain ⟨d, hd, hp⟩ := Pipeline.sum_pos_exists h
  refine ⟨d, hd, ?_⟩
  rw [tallyAt_apply] at hp
  by_contra hn
  rw [if_neg (fun h' => hn h'.1)] at hp
  exact Nat.lt_irrefl 0 hp
theorem owedBar_pos {c : Dev nD} {j : ℕ} {g : GSem nD τ sig} {u : Unit} (h : 0 < owedBar c j g u) :
    ∃ d ∈ above j, g = barCell (rot c d) := by
  obtain ⟨d, hd, hp⟩ := Pipeline.sum_pos_exists h
  refine ⟨d, hd, ?_⟩
  rw [tallyAt_apply] at hp
  by_contra hn
  rw [if_neg (fun h' => hn h'.1)] at hp
  exact Nat.lt_irrefl 0 hp

/-- A wait on cell `sm` of device `c` while it owes `O`, every cell of which sits strictly above `sm`. -/
theorem mayWait_of_above (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨by cases u; unfold L; rw [if_pos (h g () hg).1]; exact Finset.mem_singleton_self _, by cases u; exact (h g () hg).2⟩)

/-- Owing receive credit only, a device may wait on any of its cells below the receive level. -/
theorem mayWait_owedRecv (c : Dev nD) (sm : SemLoc sig) (j : ℕ) (hsm : lv ((c : Thread nD τ), sm) () < 2) :
    (levAts L lv : sProp 𝕄) ⊢ MayWait (c : Thread nD τ) sm () (owedRecv c j) :=
  mayWait_of_above c sm _ fun g u hg => by
    obtain ⟨d, hd, rfl⟩ := owedRecv_pos hg
    exact ⟨rfl, by rw [lv_recv _ (ne_zero_of_mem_above hd)]; exact hsm⟩

/-- Owing anything it owes at launch or later, a device may wait on any of its cells at level 0. -/
theorem mayWait_O₀ (c : Dev nD) (sm : SemLoc sig) (hsm : lv ((c : Thread nD τ), sm) () = 0) :
    (levAts L lv : sProp 𝕄) ⊢ MayWait (c : Thread nD τ) sm () (O₀ c) :=
  mayWait_of_above c sm _ fun g u hg => by
    rcases Pipeline.add_pos_cases hg with hg | hg
    · obtain ⟨d, hd, rfl⟩ := owedRecv_pos hg
      exact ⟨rfl, by rw [lv_recv _ (ne_zero_of_mem_above hd), hsm]; decide⟩
    · obtain ⟨d, hd, rfl⟩ := owedBar_pos hg
      exact ⟨rfl, by rw [lv_bar, hsm]; decide⟩

/-! ## Every cell of the program, by device and index -/

/-- Index 0 is the barrier semaphore; index `k ≥ 1` is DMA semaphore `k` (1 the local copy's, 2 + d the send semaphore and
    18 + d the receive semaphore of offset `d`). DMA semaphore 0 is the result window's staging semaphore, the pipeline's. -/
abbrev csem (k : Fin 34) : SemLoc sig := if k = 0 then .reg barS else .dma (show DmaSem sig from k)
abbrev kcell (ck : Dev nD × Fin 34) : GSem nD τ sig := ((ck.1 : Thread nD τ), csem ck.2)
/-- The kernel's own (scoped) semaphores: the thirty-three DMA semaphores of its scratch operands. -/
abbrev osem (k : Fin 33) : SemLoc sig := .dma (show DmaSem sig from k.succ)

abbrev sendIx (d : Fin 16) : Fin 34 := ⟨2 + d.val, by omega⟩
abbrev recvIx (d : Fin 16) : Fin 34 := ⟨18 + d.val, by omega⟩

theorem kcell_bar (c : Dev nD) : kcell (c, 0) = barCell c := rfl
theorem kcell_copy (c : Dev nD) : kcell (c, 1) = copyCell c := by
  show ((c : Thread nD τ), csem 1) = _; rw [show csem 1 = SemLoc.dma copyS.sem from by decide]
theorem kcell_send (c : Dev nD) (d : Fin 16) : kcell (c, sendIx d) = sendCell c d := by
  show ((c : Thread nD τ), csem (sendIx d)) = _; rw [show csem (sendIx d) = SemLoc.dma (sendS d).sem from by revert d; decide]
theorem kcell_recv (c : Dev nD) (d : Fin 16) : kcell (c, recvIx d) = recvCell c d := by
  show ((c : Thread nD τ), csem (recvIx d)) = _; rw [show csem (recvIx d) = SemLoc.dma (recvS d).sem from by revert d; decide]

/-- The cells' invariants under the names `K` the launch allocated them at, and that every cell's round 0 is reached:
    persistent, so every device holds them all. -/
def records (K : Dev nD × Fin 34 → ℕ) : sProp 𝕄 :=
  iprop((bigSep Finset.univ fun ck : Dev nD × Fin 34 => cellInv ER (Rd m) (K ck) (kcell ck))
    ∗ bigSep Finset.univ fun ck : Dev nD × Fin 34 => reached ER (kcell ck) 0)

instance records_persistent (K : Dev nD × Fin 34 → ℕ) : BI.Persistent (records (F := F) m K) := by unfold records; infer_instance

theorem invs_at (K : Dev nD × Fin 34 → ℕ) (ck : Dev nD × Fin 34) :
    (bigSep Finset.univ fun ck : Dev nD × Fin 34 => (cellInv ER (Rd m) (K ck) (kcell ck) : sProp 𝕄)) ⊢ cellInv ER (Rd m) (K ck) (kcell ck) :=
  bigSep_elim (Finset.mem_univ ck)
theorem reacheds_at (ck : Dev nD × Fin 34) :
    (bigSep Finset.univ fun ck : Dev nD × Fin 34 => (reached ER (kcell ck) 0 : sProp 𝕄)) ⊢ reached ER (kcell ck) 0 :=
  bigSep_elim (Finset.mem_univ ck)
theorem inv_at (K : Dev nD × Fin 34 → ℕ) (ck : Dev nD × Fin 34) : records (F := F) m K ⊢ cellInv ER (Rd m) (K ck) (kcell ck) := by
  unfold records; iintro ⟨HI, -⟩; iapply (invs_at m K ck); iexact HI
theorem reached_at (K : Dev nD × Fin 34 → ℕ) (ck : Dev nD × Fin 34) : records (F := F) m K ⊢ reached ER (kcell ck) 0 := by
  unfold records; iintro ⟨-, HR⟩; iapply (reacheds_at (F := F) ck); iexact HR

/-- What device `c` alone holds of the ring's ghost state: its position at the start of each of its cells; the token of the
    local copy's duty; and per offset `d` the tokens of the three duties it pays — duty `d` of the barrier cell of the device
    `d` places on, its own send cell's, and the receive cell's of slot `d` there. -/
def linear (c : Dev nD) : sProp 𝕄 :=
  iprop(atPos ER (barCell c) 0 ∅ 0 ∗ atPos ER (copyCell c) 0 ∅ 0 ∗ dutyTok ER (copyCell c) 0 0
    ∗ (bigSep Finset.univ fun d : Fin 16 => iprop(atPos ER (sendCell c d) 0 ∅ 0 ∗ atPos ER (recvCell c d) 0 ∅ 0))
    ∗ bigSep (Finset.univ.erase (0 : Fin 16)) fun d =>
        iprop(dutyTok ER (barCell (rot c d)) 0 d ∗ dutyTok ER (sendCell c d) 0 0 ∗ dutyTok ER (recvCell (rot c d) d) 0 0))

def ghost (K : Dev nD × Fin 34 → ℕ) (c : Dev nD) : sProp 𝕄 := iprop(records m K ∗ linear c)

/-- What device `c`'s body starts from: that at some names; the launch credit of its barrier cell (fifteen units) and of
    each receive cell; the level facts. -/
def start (c : Dev nD) : sProp 𝕄 :=
  iprop((∃ K, ghost m K c) ∗ cred (tallyAt (barCell c) () 15)
    ∗ (bigSep (Finset.univ.erase (0 : Fin 16)) fun d => cred (tallyAt (recvCell c d) () N)) ∗ levAts L lv)

/-- The sixteen-slot buffer, whole. -/
def commPts (c : Dev nD) (f : Buf (Elt F) ((c : Thread nD τ).loc cc0_scratch1)) : sProp 𝕄 :=
  ((c : Thread nD τ).loc cc0_scratch1) ↦{fullShare} f

/-- Before the point: the start, the block in HBM as launched, the two scratch buffers at whatever they hold. -/
def Φ₀ (c : Dev nD) : sProp 𝕄 := iprop(start m c ∗ xPts m c ∗ (∃ f, xvPts c f) ∗ (∃ f, commPts c f))
/-- After it: the same three buffers, and every semaphore of the kernel's own at zero, its cell closed. -/
def Φ₁ (c : Dev nD) : sProp 𝕄 :=
  iprop(xPts m c ∗ (∃ f, xvPts c f) ∗ (∃ f, commPts c f) ∗ semVal (copyCell c) 0
    ∗ bigSep Finset.univ fun d : Fin 16 => iprop(semVal (sendCell c d) 0 ∗ semVal (recvCell c d) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Coll

end
-- ==== Proof.Frags.lean ====
/-
  The kernel body as a composition of stretches: the fifteen barrier signals, the local stretch (the copy of the
  block into VMEM, its wait, the column maxima stored into slot 0), the barrier wait, the fifteen copies, the fifteen
  receive waits, the final stretch (the maximum over the slots stored into the result), the fifteen send waits.
  The four unrolled stretches are defined by recursion over the list of offsets, so that one induction proves each.
-/
import proofs.«900905_g7700000000000906_dist_max_ax0_shard0_i_m1024_n512_v7x_i16_f32_1_alg».proof.Proof.Protocol

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- Programs of the kernel's body. -/
abbrev P (F : FTy → Type) [FloatOps F] (α : Type) : Type 1 := Prog (TpuEff nD τ sig (Elt F) Λ₀ .tc) α

/-- The weakest precondition of a stretch on device `c`. -/
abbrev WP (c : Dev nD) {α : Type} (p : P F α) (Q : α → sProp 𝕄) : sProp 𝕄 :=
  wp frame (wpE (defs₀ (F := F)) 𝒱₀ (c : Thread nD τ) none) Set.univ p Q

/-- Owing `O`, whatever waits are on record. -/
def owesE (c : Dev nD) (O : CellTallies nD τ sig Unit) : sProp 𝕄 := iprop(∃ W, owes (c : Thread nD τ) O W)

/-- Splitting the head off an iterated conjunction, in the form the proof mode destructs. -/
theorem bigSep_cons {I : Type} [DecidableEq I] {s : Finset I} {i : I} (hi : i ∉ s) (Φ : I → sProp 𝕄) :
    bigSep (insert i s) Φ = iprop(Φ i ∗ bigSep s Φ) := bigSep_insert hi

/-- The offsets, in the order the kernel unrolls them. -/
abbrev offs : List (Fin 16) := [1, 2, 3, 4, 5, 6, 7, 8, 9, 10, 11, 12, 13, 14, 15]

variable {α : Type}

/-- One unit to the barrier semaphore of the device `d` places on, for each offset of the list. -/
def sigsP (c : Dev nD) : List (Fin 16) → P F α → P F α
  | [], k => k
  | d :: ds, k => Prog.op (.semSignal ((rot c d : Dev nD) : Thread nD τ) barS 1) fun _ => sigsP c ds k

theorem slot_wordExact (d : Fin 16) : (slotM d).view.WordExact := (View.wordExact_bits rfl).reshape _ _

/-- The devices the fifteen copies address, as the kernel computes them (entry 0 is not used). -/
def sendDev (c : Dev nD) : Fin 16 → Dev nD :=
  ![c, ⟨k0_dev16 c, Facts₀.k0_dev16_lt c⟩, ⟨k0_dev17 c, Facts₀.k0_dev17_lt c⟩, ⟨k0_dev18 c, Facts₀.k0_dev18_lt c⟩, ⟨k0_dev19 c, Facts₀.k0_dev19_lt c⟩,
    ⟨k0_dev20 c, Facts₀.k0_dev20_lt c⟩, ⟨k0_dev21 c, Facts₀.k0_dev21_lt c⟩, ⟨k0_dev22 c, Facts₀.k0_dev22_lt c⟩, ⟨k0_dev23 c, Facts₀.k0_dev23_lt c⟩,
    ⟨k0_dev24 c, Facts₀.k0_dev24_lt c⟩, ⟨k0_dev25 c, Facts₀.k0_dev25_lt c⟩, ⟨k0_dev26 c, Facts₀.k0_dev26_lt c⟩, ⟨k0_dev27 c, Facts₀.k0_dev27_lt c⟩,
    ⟨k0_dev28 c, Facts₀.k0_dev28_lt c⟩, ⟨k0_dev29 c, Facts₀.k0_dev29_lt c⟩, ⟨k0_dev30 c, Facts₀.k0_dev30_lt c⟩]

/-- They are the devices `d` places on. -/
theorem sendDev_eq (c : Dev nD) : sendDev c = rot c := by
  funext d
  fin_cases d <;> apply Fin.ext <;>
    simp [sendDev, rot_val, Gen.k0_dev16_eq c, Gen.k0_dev17_eq c, Gen.k0_dev18_eq c, Gen.k0_dev19_eq c, Gen.k0_dev20_eq c, Gen.k0_dev21_eq c,
      Gen.k0_dev22_eq c, Gen.k0_dev23_eq c, Gen.k0_dev24_eq c, Gen.k0_dev25_eq c, Gen.k0_dev26_eq c, Gen.k0_dev27_eq c, Gen.k0_dev28_eq c,
      Gen.k0_dev29_eq c, Gen.k0_dev30_eq c] <;>
    exact (Nat.mod_eq_of_lt c.isLt).symm

/-- Slot 0 copied into slot `d` of the device `dv d`, for each offset of the list. -/
def sendsP (dv : Fin 16 → Dev nD) : List (Fin 16) → P F α → P F α
  | [], k => k
  | d :: ds, k =>
    Prog.op (.enqueueDma (slotM 0) (.remote (Dev.tc (dv d)) (slotM d) (.dma (sendS d).sem) rfl) (.dma (recvS d).sem)
      (slot_wordExact 0) (slot_wordExact d) ⟨⟨rfl, Or.inl rfl⟩, trivial⟩) fun _ => sendsP dv ds k

/-- The wait for the copy into slot `d`, for each offset of the list. -/
def recvWaitsP : List (Fin 16) → P F α → P F α
  | [], k => k
  | d :: ds, k => Prog.op (.waitDma2 (recvS d).sem (slotM 0) (slotM d) (slot_wordExact 0) (slot_wordExact d)) fun _ => recvWaitsP ds k

/-- The wait for the copy out of slot 0 at offset `d` to have read its source, for each offset of the list. -/
def sendWaitsP : List (Fin 16) → P F α → P F α
  | [], k => k
  | d :: ds, k => Prog.op (.waitDma2 (sendS d).sem (slotM d) (slotM 0) (slot_wordExact d) (slot_wordExact 0)) fun _ => sendWaitsP ds k

/-- The local stretch: the block copied into VMEM and waited for, loaded; slot 0 loaded (the value is not used) and
    stored with the block's column maxima. -/
def localP (k : P F α) : P F α :=
  Prog.op (.enqueueDma xM (.here xvM) (.dma copyS.sem) (Memref.isWhole_whole _).wordExact (Memref.isWhole_whole _).wordExact ⟨Or.inl rfl, trivial⟩) fun _ =>
  Prog.op (.waitDma2 copyS.sem xM xvM (Memref.isWhole_whole _).wordExact (Memref.isWhole_whole _).wordExact) fun _ =>
  Prog.op (.load xvM (Rect.unit (s := S1024x512) ![0, 0] S1024x512.size Facts₀.inb_S1024x512_S1024x512_0_0).toLoadRect (View.loadsAt_vmem Facts₀.h_S1024x512)) fun v =>
  Prog.op (.load commM (Rect.unit (s := S16x1x512) ![0, 0, 0] S1x1x512.size Facts₀.inb_S16x1x512_S1x1x512_0_0_0).toLoadRect (View.loadsAt_vmem Facts₀.h_S1x1x512)) fun _ =>
  Prog.op (.store commM (Rect.unit (s := S16x1x512) ![0, 0, 0] S1x1x512.size Facts₀.inb_S16x1x512_S1x1x512_0_0_0) (Gen.k0_pay1 v) Finset.univ
    (View.stores_vmem_bits_univ Facts₀.h_S1x1x512 rfl) (.inl rfl)) fun _ => k

/-- The barrier wait: fifteen units. -/
def barWaitP (k : P F α) : P F α := Prog.op (.semWait barS 15) fun _ => k

/-- The final stretch: all sixteen slots loaded; the result's staging buffer loaded (the value is not used) and stored
    with the maximum over the slots. -/
def finalP (k : P F α) : P F α :=
  Prog.op (.load commM (Rect.unit (s := S16x1x512) ![0, 0, 0] S16x1x512.size Facts₀.inb_S16x1x512_S16x1x512_0_0_0).toLoadRect (View.loadsAt_vmem Facts₀.h_S16x1x512)) fun v =>
  Prog.op (.load outM (Rect.unit (s := S1x512) ![0, 0] S1x512.size Facts₀.inb_S1x512_S1x512_0_0).toLoadRect (View.loadsAt_vmem Facts₀.h_S1x512)) fun _ =>
  Prog.op (.store outM (Rect.unit (s := S1x512) ![0, 0] S1x512.size Facts₀.inb_S1x512_S1x512_0_0) (Gen.k0_pay2 v) Finset.univ
    (View.stores_vmem_bits_univ Facts₀.h_S1x512 rfl) (.inl rfl)) fun _ => k

/-- The whole body on device `c`. -/
def bodyP (c : Dev nD) : P F PUnit :=
  sigsP c offs (localP (barWaitP (sendsP (sendDev c) offs (recvWaitsP offs (finalP (sendWaitsP offs (Prog.ret ⟨⟩)))))))

set_option maxRecDepth 65536 in
set_option maxHeartbeats 2000000 in
/-- The printed body, on the buffers the pipeline calls it with, is that composition. -/
theorem body_eq (c : Dev nD) (Kt : PUnit → sProp 𝕄) :
    wp frame (wpE (defs₀ (F := F)) 𝒱₀ (c : Thread nD τ) none) Set.univ
      (cc0_body (Memref.whole main_arg0) (Memref.isWhole_whole _) (Memref.whole cc0_stg0_0) (Memref.isWhole_whole _)
        (Memref.whole cc0_scratch0) (Memref.isWhole_whole _) (Memref.whole cc0_scratch1) (Memref.isWhole_whole _) cc0_scratch2 cc0_scratch3 cc0_scratch4) Kt
    = WP c (bodyP (F := F) c) Kt := by
  simp only [Gen.cc0_body_eq_skeleton]; unfold Gen.cc0_body_skel
  simp only [Gen.k0_part1_eq_skeleton, Gen.k0_part2_eq_skeleton, Gen.k0_part3_eq_skeleton, Gen.k0_part4_eq_skeleton, Gen.k0_part5_eq_skeleton,
    Gen.k0_part6_eq_skeleton, Gen.k0_part7_eq_skeleton, Gen.k0_part8_eq_skeleton, Gen.k0_part9_eq_skeleton, Gen.k0_part10_eq_skeleton,
    Gen.k0_part11_eq_skeleton, Gen.k0_part12_eq_skeleton, Gen.k0_part13_eq_skeleton, Gen.k0_part14_eq_skeleton, Gen.k0_part15_eq_skeleton,
    Gen.k0_part16_eq_skeleton, Gen.k0_part17_eq_skeleton, Gen.k0_part18_eq_skeleton]
  unfold Gen.k0_part1_skel Gen.k0_part2_skel Gen.k0_part3_skel Gen.k0_part4_skel Gen.k0_part5_skel Gen.k0_part6_skel Gen.k0_part7_skel Gen.k0_part8_skel Gen.k0_part9_skel
    Gen.k0_part10_skel Gen.k0_part11_skel Gen.k0_part12_skel Gen.k0_part13_skel Gen.k0_part14_skel Gen.k0_part15_skel Gen.k0_part16_skel Gen.k0_part17_skel Gen.k0_part18_skel
  simp only [semSignalWord, semWaitWord, Prog.lift, Prog.bind_op, Prog.bind_ret, Prog.pure_eq_ret, wp_deviceId]
  simp only [Gen.k0_dev1_eq c, Gen.k0_dev2_eq c, Gen.k0_dev3_eq c, Gen.k0_dev4_eq c, Gen.k0_dev5_eq c, Gen.k0_dev6_eq c, Gen.k0_dev7_eq c, Gen.k0_dev8_eq c,
    Gen.k0_dev9_eq c, Gen.k0_dev10_eq c, Gen.k0_dev11_eq c, Gen.k0_dev12_eq c, Gen.k0_dev13_eq c, Gen.k0_dev14_eq c, Gen.k0_dev15_eq c, Gen.k0_dev16_eq c,
    Gen.k0_dev17_eq c, Gen.k0_dev18_eq c, Gen.k0_dev19_eq c, Gen.k0_dev20_eq c, Gen.k0_dev21_eq c, Gen.k0_dev22_eq c, Gen.k0_dev23_eq c, Gen.k0_dev24_eq c,
    Gen.k0_dev25_eq c, Gen.k0_dev26_eq c, Gen.k0_dev27_eq c, Gen.k0_dev28_eq c, Gen.k0_dev29_eq c, Gen.k0_dev30_eq c]
  rfl

end Cert.KernelIdeal.Coll

end
-- ==== Proof.Regroup.lean ====
/-
  Regroupings the body's stretches are joined with: the list of offsets against the set of the nonzero ones, a family
  over the nonzero offsets read at the opposite offset, what a device owes at launch as sums over the list, and the
  closing of the kernel's own semaphores: each cell's owner, past the cell's one round (the two cells of offset 0
  have none), takes the counter back at zero.
-/
import proofs.«900905_g7700000000000906_dist_max_ax0_shard0_i_m1024_n512_v7x_i16_f32_1_alg».proof.Proof.Frags

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## The offsets -/

theorem offs_toFinset : offs.toFinset = Finset.univ.erase (0 : Fin 16) := by decide
theorem offs_nodup : offs.Nodup := by decide
theorem offs_ne_zero : ∀ d ∈ offs, d ≠ 0 := by decide

/-- The opposite offset permutes the nonzero offsets. -/
theorem bigSep_erase0_neg (Φ : Fin 16 → sProp 𝕄) :
    bigSep (Finset.univ.erase (0 : Fin 16)) (fun d => Φ (neg d)) = bigSep (Finset.univ.erase (0 : Fin 16)) Φ := by
  have h : (Finset.univ.erase (0 : Fin 16)).map negEquiv.toEmbedding = Finset.univ.erase 0 := by decide
  calc bigSep (Finset.univ.erase (0 : Fin 16)) (fun d => Φ (neg d))
      = bigSep ((Finset.univ.erase (0 : Fin 16)).map negEquiv.toEmbedding) Φ := (bigSep_map negEquiv.toEmbedding).symm
    _ = bigSep (Finset.univ.erase (0 : Fin 16)) Φ := by rw [h]

theorem owedBar_offs (c : Dev nD) : (∑ d ∈ offs.toFinset, tallyAt (barCell (rot c d)) () 1) = owedBar c 0 := by
  unfold owedBar; rw [offs_toFinset, above_0]
theorem owedRecv_offs (c : Dev nD) : (∑ d ∈ offs.toFinset, tallyAt (recvCell (rot c d) d) () N) = owedRecv c 0 := by
  unfold owedRecv; rw [offs_toFinset, above_0]

/-! ## Closing the kernel's own cells -/

/-- The owner of a cell, at a round from which no round has a duty and having taken nothing of it, takes the counter
    back at zero. -/
theorem close_at (K : Dev nD × Fin 34 → ℕ) (ck : Dev nD × Fin 34) {R : ℕ} (hR : ∀ r, R ≤ r → (Rd (F := F) m).duties (kcell ck) r = ∅) :
    iprop(records m K ∗ atPos ER (kcell ck) R ∅ 0) ⊢ (|={Set.univ}=> semVal (kcell ck) 0 : sProp 𝕄) := by
  iintro ⟨#HR, Hat⟩
  iapply (Rounds.cell_close ER (Rd m) (κ := K ck) (Es := Set.univ) (Set.mem_univ _) (fun h => h) hR)
  isplitr
  · iapply (inv_at m K ck); iexact HR
  iexact Hat

theorem close_copy (K : Dev nD × Fin 34 → ℕ) (c : Dev nD) :
    iprop(records m K ∗ atPos ER (copyCell c) 1 ∅ 0) ⊢ (|={Set.univ}=> semVal (copyCell c) 0 : sProp 𝕄) := by
  rw [← kcell_copy c]; exact close_at m K (c, 1) (duties_later m _)
theorem close_send (K : Dev nD × Fin 34 → ℕ) (c : Dev nD) (d : Fin 16) :
    iprop(records m K ∗ atPos ER (sendCell c d) 1 ∅ 0) ⊢ (|={Set.univ}=> semVal (sendCell c d) 0 : sProp 𝕄) := by
  rw [← kcell_send c d]; exact close_at m K (c, sendIx d) (duties_later m _)
theorem close_recv (K : Dev nD × Fin 34 → ℕ) (c : Dev nD) (d : Fin 16) :
    iprop(records m K ∗ atPos ER (recvCell c d) 1 ∅ 0) ⊢ (|={Set.univ}=> semVal (recvCell c d) 0 : sProp 𝕄) := by
  rw [← kcell_recv c d]; exact close_at m K (c, recvIx d) (duties_later m _)
theorem close_send0 (K : Dev nD × Fin 34 → ℕ) (c : Dev nD) :
    iprop(records m K ∗ atPos ER (sendCell c 0) 0 ∅ 0) ⊢ (|={Set.univ}=> semVal (sendCell c 0) 0 : sProp 𝕄) := by
  have h := close_at m K (c, sendIx 0) (R := 0) (by rw [kcell_send]; exact fun r _ => duties_send0 m c r)
  rw [kcell_send] at h; exact h
theorem close_recv0 (K : Dev nD × Fin 34 → ℕ) (c : Dev nD) :
    iprop(records m K ∗ atPos ER (recvCell c 0) 0 ∅ 0) ⊢ (|={Set.univ}=> semVal (recvCell c 0) 0 : sProp 𝕄) := by
  have h := close_at m K (c, recvIx 0) (R := 0) (by rw [kcell_recv]; exact fun r _ => duties_recv0 m c r)
  rw [kcell_recv] at h; exact h

/-- The counters of one device's cells: offset 0 put back among the others. -/
theorem sems_join (c : Dev nD) :
    iprop(semVal (copyCell c) 0 ∗ semVal (sendCell c 0) 0 ∗ semVal (recvCell c 0) 0
        ∗ (bigSep (Finset.univ.erase (0 : Fin 16)) fun d => semVal (sendCell c d) 0)
        ∗ (bigSep (Finset.univ.erase (0 : Fin 16)) fun d => semVal (recvCell c d) 0))
      ⊢ (iprop(semVal (copyCell c) 0 ∗ bigSep Finset.univ fun d : Fin 16 => iprop(semVal (sendCell c d) 0 ∗ semVal (recvCell c d) 0)) : sProp 𝕄) := by
  rw [bigSep_sep', bigSep_univ_at (fun d : Fin 16 => (semVal (sendCell c d) 0 : sProp 𝕄)) 0,
    bigSep_univ_at (fun d : Fin 16 => (semVal (recvCell c d) 0 : sProp 𝕄)) 0]
  iintro ⟨HC, HS0, HR0, HS, HR⟩
  isplitl [HC]; · iexact HC
  isplitl [HS0 HS]
  · isplitl [HS0] <;> iassumption
  isplitl [HR0] <;> iassumption

/-- Every semaphore of the kernel's own closes once its one round is consumed (the two cells of offset 0 have no round
    at all). -/
theorem close_cells (K : Dev nD × Fin 34 → ℕ) (c : Dev nD) :
    iprop(records m K ∗ atPos ER (copyCell c) 1 ∅ 0 ∗ atPos ER (sendCell c 0) 0 ∅ 0 ∗ atPos ER (recvCell c 0) 0 ∅ 0
        ∗ (bigSep (Finset.univ.erase (0 : Fin 16)) fun d => atPos ER (sendCell c d) 1 ∅ 0)
        ∗ (bigSep (Finset.univ.erase (0 : Fin 16)) fun d => atPos ER (recvCell c d) 1 ∅ 0))
      ⊢ (|={Set.univ}=> iprop(semVal (copyCell c) 0 ∗ bigSep Finset.univ fun d : Fin 16 => iprop(semVal (sendCell c d) 0 ∗ semVal (recvCell c d) 0)) : sProp 𝕄) := by
  have hS : iprop(records m K ∗ bigSep (Finset.univ.erase (0 : Fin 16)) fun d => atPos ER (sendCell c d) 1 ∅ 0)
      ⊢ (|={Set.univ}=> bigSep (Finset.univ.erase (0 : Fin 16)) fun d => semVal (sendCell c d) 0 : sProp 𝕄) :=
    (bigSep_with_persistent (R := records m K) fun d _ => close_send m K c d).trans (bigSep_fupd _ _)
  have hR : iprop(records m K ∗ bigSep (Finset.univ.erase (0 : Fin 16)) fun d => atPos ER (recvCell c d) 1 ∅ 0)
      ⊢ (|={Set.univ}=> bigSep (Finset.univ.erase (0 : Fin 16)) fun d => semVal (recvCell c d) 0 : sProp 𝕄) :=
    (bigSep_with_persistent (R := records m K) fun d _ => close_recv m K c d).trans (bigSep_fupd _ _)
  iintro ⟨#HR, HaC, HaS0, HaR0, HaS, HaR⟩
  imod (close_copy m K c) $$ [HaC] with HvC
  · isplitr; · iexact HR
    iexact HaC
  imod (close_send0 m K c) $$ [HaS0] with HvS0
  · isplitr; · iexact HR
    iexact HaS0
  imod (close_recv0 m K c) $$ [HaR0] with HvR0
  · isplitr; · iexact HR
    iexact HaR0
  imod hS $$ [HaS] with HvS
  · isplitr; · iexact HR
    iexact HaS
  imod hR $$ [HaR] with HvR
  · isplitr; · iexact HR
    iexact HaR
  imodintro
  iapply (sems_join (F := F) c)
  isplitl [HvC]; · iexact HvC
  isplitl [HvS0]; · iexact HvS0
  isplitl [HvR0]; · iexact HvR0
  isplitl [HvS]; · iexact HvS
  iexact HvR

/-- info: 'Cert.KernelIdeal.Coll.close_cells' depends on axioms: [propext, Classical.choice, Quot.sound] -/
#guard_msgs in #print axioms close_cells

end Cert.KernelIdeal.Coll

end
-- ==== Proof.Sigs.lean ====
/-
  The fifteen barrier signals, and the barrier wait.
  Signal `d` of device `c` pays duty `d` of the barrier cell of the device `d` places on: it hands over `c`'s own
  slot `neg d` (the one that device will copy into) and that `c` has reached round 0 of that slot's receive cell.
  The wait for fifteen units takes the whole round: one such slot from each of the other fifteen devices.
-/
import proofs.«900905_g7700000000000906_dist_max_ax0_shard0_i_m1024_n512_v7x_i16_f32_1_alg».proof.Proof.Frags

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-- The signals of the offsets `ds`, paying one unit each off what the device owes. -/
theorem wp_sigs (K : Dev nD × Fin 34 → ℕ) (c : Dev nD) (Q : α → sProp 𝕄) :
    ∀ (ds : List (Fin 16)) (hnd : ds.Nodup) (h0 : ∀ d ∈ ds, d ≠ 0) (O : CellTallies nD τ sig Unit) (k : P F α),
    iprop(records m K ∗ owesE c (O + ∑ d ∈ ds.toFinset, tallyAt (barCell (rot c d)) () 1)
        ∗ (bigSep ds.toFinset fun d => iprop(dutyTok ER (barCell (rot c d)) 0 d ∗ ∃ f, slotPts c (neg d) fullShare f))
        ∗ (owesE c O -∗ WP c k Q))
      ⊢ WP c (sigsP c ds k) Q
  | [], _, _, O, k => by
    simp only [sigsP, List.toFinset_nil, Finset.sum_empty, add_zero, bigSep_empty]
    iintro ⟨-, HO, -, Hk⟩
    iapply Hk; iexact HO
  | d :: ds, hnd, h0, O, k => by
    have hd : d ∉ ds.toFinset := by rw [List.mem_toFinset]; exact (List.nodup_cons.mp hnd).1
    have hd0 : d ≠ 0 := h0 d (List.mem_cons_self ..)
    simp only [sigsP]
    rw [List.toFinset_cons, Finset.sum_insert hd, bigSep_cons hd]
    unfold owesE
    iintro ⟨#HR, ⟨%W, HO⟩, ⟨⟨Htok, ⟨%f, Hslot⟩⟩, Hrest⟩, Hk⟩
    iapply (Rounds.wp_signal 𝒱₀ ER (Rd m) (c : Thread nD τ) none (dst := ((rot c d : Dev nD) : Thread nD τ)) (κ := K (rot c d, 0)) (d := d)
        (by rw [duties_bar]; exact Finset.mem_erase.mpr ⟨hd0, Finset.mem_univ _⟩) (amount_bar m (rot c d) d) ()
        (O + ∑ x ∈ ds.toFinset, tallyAt (barCell (rot c x)) () 1)
        (O₀ := O + (tallyAt (barCell (rot c d)) () 1 + ∑ x ∈ ds.toFinset, tallyAt (barCell (rot c x)) () 1))
        (by rw [add_comm (tallyAt (barCell (rot c d)) () 1), add_assoc])) $$ [HO Htok Hslot]
    · isplitr; · iapply (inv_at m K (rot c d, 0)); iexact HR
      isplitl [HO]; · iexact HO
      isplitl [Htok]; · iexact Htok
      isplitl [Hslot]
      · rw [payload_bar]; unfold barPay; rw [rot_rot_neg]
        isplitl [Hslot]; · iexists f; iexact Hslot
        rw [← kcell_recv c (neg d)]
        iapply (reached_at m K (c, recvIx (neg d))); iexact HR
      · iapply (reached_at m K (rot c d, 0)); iexact HR
    iintro HO
    iapply (wp_sigs K c Q ds (List.nodup_cons.mp hnd).2 (fun x hx => h0 x (List.mem_cons_of_mem _ hx)) O k)
    isplitr; · iexact HR
    isplitl [HO]; · unfold owesE; iexists W; iexact HO
    isplitl [Hrest]; · iexact Hrest
    iexact Hk

/-- The barrier wait, owing receive credit only: the fifteen duties' payloads come with it. -/
theorem wp_barWait (K : Dev nD × Fin 34 → ℕ) (c : Dev nD) (Q : α → sProp 𝕄) (k : P F α) :
    iprop(records m K ∗ cred (tallyAt (barCell c) () 15) ∗ owesE c (owedRecv c 0) ∗ levAts L lv ∗ atPos ER (barCell c) 0 ∅ 0
        ∗ ((owesE c (owedRecv c 0) ∗ atPos ER (barCell c) 1 ∅ 0 ∗ bigSep (Finset.univ.erase (0 : Fin 16)) (fun dn => barPay (F := F) c dn))
            -∗ WP c k Q))
      ⊢ WP c (barWaitP k) Q := by
  unfold barWaitP owesE
  iintro ⟨#HR, Hc, ⟨%W, HO⟩, #Hlev, Hat, Hk⟩
  iapply (Rounds.wp_wait_rest_token 𝒱₀ ER (Rd m) (c : Thread nD τ) none (κ := K (c, 0))
      (wpE_semWait_eq 𝒱₀ (c : Thread nD τ) none Set.univ) (Set.mem_univ _) () (O := owedRecv c 0) (W := W) (R := 0) (m := 0) (T := ∅)
      (by rw [expect_bar])) $$ [Hc HO Hat]
  · isplitr; · iapply (inv_at m K (c, 0)); iexact HR
    isplitl [Hc]; · iexact Hc
    isplitl [HO]; · iexact HO
    isplitr; · iapply (mayWait_owedRecv c (.reg barS) 0 (by rw [lv_bar]; decide)); iexact Hlev
    iexact Hat
  iintro ⟨HO, Hat, -, Hpay⟩
  iapply Hk
  isplitl [HO]; · iexists _; iexact HO
  isplitl [Hat]; · iexact Hat
  rw [← rest_bar m c]; iexact Hpay

end Cert.KernelIdeal.Coll

end
-- ==== Proof.Xfers.lean ====
/-
  The three unrolled transfer stretches.
  Copy `d` of device `c` reads slot 0 under that offset's read share and writes slot `d` of the device `d` places on:
  it pays the one duty of its own send cell (the read share comes back) and the one duty of that device's receive
  cell of offset `d` (slot `d` there, holding `c`'s column maxima, which is that device's final slot `d`).
  A receive wait takes the whole round of its cell: the slot, at its final contents. A send wait likewise: the
  read share of slot 0.
-/
import proofs.«900905_g7700000000000906_dist_max_ax0_shard0_i_m1024_n512_v7x_i16_f32_1_alg».proof.Proof.Protocol
import proofs.«900905_g7700000000000906_dist_max_ax0_shard0_i_m1024_n512_v7x_i16_f32_1_alg».proof.Proof.Frags

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-- Owing `O` is owing it under some record of waits. -/
theorem owesE_open (c : Dev nD) (O : CellTallies nD τ sig Unit) :
    owesE (F := F) c O ⊢ iprop(∃ W, owes (c : Thread nD τ) O W) := by unfold owesE; exact BI.Entails.refl _
theorem owesE_of (c : Dev nD) (O : CellTallies nD τ sig Unit) (W : Waits sig Unit) :
    (owes (c : Thread nD τ) O W : sProp 𝕄) ⊢ owesE (F := F) c O := by unfold owesE; iintro H; iexists W; iexact H

/-- The rest of a receive cell's round is slot `d` at its final contents. -/
theorem recv_rest (c : Dev nD) {d : Fin 16} (h : d ≠ 0) :
    bigSep ((Rd (F := F) m).duties (recvCell c d) 0 \ ∅) (fun dn => (Rd (F := F) m).payload (recvCell c d) 0 dn)
      ⊢ slotPts c d fullShare (commFinal m c) := by
  rw [rest_recv m c h]; exact BI.Entails.refl _

/-- The rest of a send cell's round is that offset's read share of slot 0. -/
theorem send_rest (c : Dev nD) {d : Fin 16} (h : d ≠ 0) :
    bigSep ((Rd (F := F) m).duties (sendCell c d) 0 \ ∅) (fun dn => (Rd (F := F) m).payload (sendCell c d) 0 dn)
      ⊢ slotPts c 0 (tok d) (commFinal m c) := by
  rw [rest_send m c h]; exact BI.Entails.refl _

theorem inv_recv (K : Dev nD × Fin 34 → ℕ) (c : Dev nD) (d : Fin 16) :
    records (F := F) m K ⊢ cellInv ER (Rd m) (K (c, recvIx d)) (recvCell c d) := by
  rw [← kcell_recv c d]; exact inv_at m K (c, recvIx d)
theorem inv_send (K : Dev nD × Fin 34 → ℕ) (c : Dev nD) (d : Fin 16) :
    records (F := F) m K ⊢ cellInv ER (Rd m) (K (c, sendIx d)) (sendCell c d) := by
  rw [← kcell_send c d]; exact inv_at m K (c, sendIx d)
theorem reached_recv (K : Dev nD × Fin 34 → ℕ) (c : Dev nD) (d : Fin 16) :
    records (F := F) m K ⊢ reached ER (recvCell c d) 0 := by
  rw [← kcell_recv c d]; exact reached_at m K (c, recvIx d)
theorem reached_send (K : Dev nD × Fin 34 → ℕ) (c : Dev nD) (d : Fin 16) :
    records (F := F) m K ⊢ reached ER (sendCell c d) 0 := by
  rw [← kcell_send c d]; exact reached_at m K (c, sendIx d)

/-- The receive waits of the offsets `ds`, owing nothing: each takes the one duty of its cell's round, slot `d` at its
    final contents. -/
theorem wp_recvWaits (K : Dev nD × Fin 34 → ℕ) (c : Dev nD) (Q : α → sProp 𝕄) :
    ∀ (ds : List (Fin 16)) (hnd : ds.Nodup) (h0 : ∀ d ∈ ds, d ≠ 0) (k : P F α),
    iprop(records m K ∗ owesE c 0
        ∗ (bigSep ds.toFinset fun d => iprop(cred (tallyAt (recvCell c d) () N) ∗ atPos ER (recvCell c d) 0 ∅ 0))
        ∗ ((owesE c 0 ∗ bigSep ds.toFinset fun d => iprop(atPos ER (recvCell c d) 1 ∅ 0 ∗ slotPts c d fullShare (commFinal m c))) -∗ WP c k Q))
      ⊢ WP c (recvWaitsP ds k) Q
  | [], _, _, k => by
    simp only [recvWaitsP, List.toFinset_nil, bigSep_empty]
    iintro ⟨-, HO, -, Hk⟩
    iapply Hk
    isplitl [HO]; · iexact HO
    iempintro
  | d :: ds, hnd, h0, k => by
    have hd : d ∉ ds.toFinset := by rw [List.mem_toFinset]; exact (List.nodup_cons.mp hnd).1
    have hd0 : d ≠ 0 := h0 d (List.mem_cons_self ..)
    simp only [recvWaitsP]
    rw [List.toFinset_cons, bigSep_cons hd, bigSep_cons hd]
    unfold owesE
    iintro ⟨#HR, ⟨%W, HO⟩, ⟨⟨Hc, Hat⟩, Hrest⟩, Hk⟩
    iapply (Rounds.wp_wait_rest_token 𝒱₀ ER (Rd m) (c : Thread nD τ) none (κ := K (c, recvIx d))
        (wpE_waitDma2_eq 𝒱₀ (c : Thread nD τ) none Set.univ) (Set.mem_univ _) () (O := 0) (W := W) (R := 0) (m := 0) (T := ∅)
        (by rw [expect_recv m c hd0]; exact Nat.zero_add _)) $$ [Hc HO Hat]
    · isplitr; · iapply (inv_recv m K c d); iexact HR
      isplitl [Hc]; · iexact Hc
      isplitl [HO]; · iexact HO
      isplitr; · rw [MayWait_zero]; iempintro
      iexact Hat
    iintro ⟨HO, Hat, -, Hpay⟩
    iapply (wp_recvWaits K c Q ds (List.nodup_cons.mp hnd).2 (fun x hx => h0 x (List.mem_cons_of_mem _ hx)) k)
    isplitr; · iexact HR
    isplitl [HO]; · unfold owesE; iexists _; iexact HO
    isplitl [Hrest]; · iexact Hrest
    iintro ⟨HO, Hrest⟩
    iapply Hk
    isplitl [HO]; · iapply (owesE_open c 0); iexact HO
    isplitl [Hat Hpay]
    · isplitl [Hat]; · iexact Hat
      iapply (recv_rest m c hd0); iexact Hpay
    iexact Hrest

/-- The send waits of the offsets `ds`, owing nothing: each takes the one duty of its cell's round, that offset's read
    share of slot 0. -/
theorem wp_sendWaits (K : Dev nD × Fin 34 → ℕ) (c : Dev nD) (Q : α → sProp 𝕄) :
    ∀ (ds : List (Fin 16)) (hnd : ds.Nodup) (h0 : ∀ d ∈ ds, d ≠ 0) (k : P F α),
    iprop(records m K ∗ owesE c 0
        ∗ (bigSep ds.toFinset fun d => iprop(cred (tallyAt (sendCell c d) () N) ∗ atPos ER (sendCell c d) 0 ∅ 0))
        ∗ ((owesE c 0 ∗ bigSep ds.toFinset fun d => iprop(atPos ER (sendCell c d) 1 ∅ 0 ∗ slotPts c 0 (tok d) (commFinal m c))) -∗ WP c k Q))
      ⊢ WP c (sendWaitsP ds k) Q
  | [], _, _, k => by
    simp only [sendWaitsP, List.toFinset_nil, bigSep_empty]
    iintro ⟨-, HO, -, Hk⟩
    iapply Hk
    isplitl [HO]; · iexact HO
    iempintro
  | d :: ds, hnd, h0, k => by
    have hd : d ∉ ds.toFinset := by rw [List.mem_toFinset]; exact (List.nodup_cons.mp hnd).1
    have hd0 : d ≠ 0 := h0 d (List.mem_cons_self ..)
    simp only [sendWaitsP]
    rw [List.toFinset_cons, bigSep_cons hd, bigSep_cons hd]
    unfold owesE
    iintro ⟨#HR, ⟨%W, HO⟩, ⟨⟨Hc, Hat⟩, Hrest⟩, Hk⟩
    iapply (Rounds.wp_wait_rest_token 𝒱₀ ER (Rd m) (c : Thread nD τ) none (κ := K (c, sendIx d))
        (wpE_waitDma2_eq 𝒱₀ (c : Thread nD τ) none Set.univ) (Set.mem_univ _) () (O := 0) (W := W) (R := 0) (m := 0) (T := ∅)
        (by rw [expect_send m c hd0]; exact Nat.zero_add _)) $$ [Hc HO Hat]
    · isplitr; · iapply (inv_send m K c d); iexact HR
      isplitl [Hc]; · iexact Hc
      isplitl [HO]; · iexact HO
      isplitr; · rw [MayWait_zero]; iempintro
      iexact Hat
    iintro ⟨HO, Hat, -, Hpay⟩
    iapply (wp_sendWaits K c Q ds (List.nodup_cons.mp hnd).2 (fun x hx => h0 x (List.mem_cons_of_mem _ hx)) k)
    isplitr; · iexact HR
    isplitl [HO]; · unfold owesE; iexists _; iexact HO
    isplitl [Hrest]; · iexact Hrest
    iintro ⟨HO, Hrest⟩
    iapply Hk
    isplitl [HO]; · iapply (owesE_open c 0); iexact HO
    isplitl [Hat Hpay]
    · isplitl [Hat]; · iexact Hat
      iapply (send_rest m c hd0); iexact Hpay
    iexact Hrest

/-- Where index `y` of a slot's [1, 512] view sits in the sixteen-slot buffer: slot `d`, row 0, column `y 1`. -/
theorem slot_emb_val (d : Fin 16) (y : S1x512.Idx) (a : Fin 3) :
    (((slotM d).view.emb y) a : ℕ) = (![d.val, 0, ((y 1 : Fin 512) : ℕ)] : Fin 3 → ℕ) a := by
  have hy := Shape.reshapeEquiv_cons_one (n := 2) (d := ![1, 512]) Facts₀.squeezes_S1x1x512_S1x512.numel_eq y
  refine (congrArg (fun j : S1x1x512.Idx => ((Rect.unit (s := S16x1x512) ![d.val, 0, 0] S1x1x512.size (inbM d)).emb j a : ℕ)) hy).trans ?_
  have h0 : ((y 0 : Fin 1) : ℕ) = 0 := Nat.lt_one_iff.mp (y 0 : Fin 1).isLt
  fin_cases a
  · show d.val + 1 * 0 = d.val; omega
  · show 0 + 1 * ((y 0 : Fin 1) : ℕ) = 0; omega
  · show 0 + 1 * ((y 1 : Fin 512) : ℕ) = ((y 1 : Fin 512) : ℕ); omega

theorem slot_emb (d : Fin 16) (y : S1x512.Idx) :
    (slotM d).view.emb y = (ValueIdx.ix3 (d : Fin 16) (0 : Fin 1) (show Fin 512 from y 1) : S16x1x512.Idx) := by
  funext a
  apply Fin.ext
  refine (slot_emb_val d y a).trans ?_
  fin_cases a <;> rfl

/-- Slot `d` of the device `d` places on, rewritten by what slot 0 of `c` holds, is that device's final slot `d`: on the
    slot's elements both are `c`'s column maxima, `c` being the device `d` places before it. -/
theorem landing (c : Dev nD) (d : Fin 16) (fd : Buf (Elt F) (((rot c d : Dev nD) : Thread nD τ).loc cc0_scratch1)) :
    (((slotM d).view.loc ((rot c d : Dev nD) : Thread nD τ) ↦[(slotM d).view.set]{fullShare}
        ((slotM d).view.write (Elt F) fd ((slotM 0).view.read (Elt F) (commFinal m c)) Finset.univ)) : sProp 𝕄)
      = slotPts (rot c d) d fullShare (commFinal m (rot c d)) := by
  unfold slotPts
  refine pointsTo_congr fun i hi => ?_
  obtain ⟨y, rfl⟩ := View.exists_emb_of_mem_set _ hi
  rw [View.write_emb_of_mem _ _ (Finset.mem_univ y), View.read_apply, cast_cast, cast_eq]
  refine (congrArg (commFinal m c) (slot_emb 0 y)).trans ((?_ : _ = _).trans (congrArg (commFinal m (rot c d)) (slot_emb d y)).symm)
  show bmax m (rot c (neg 0)) _ = bmax m (rot (rot c d) (neg d)) _
  rw [rot_rot_neg, show neg 0 = 0 from by decide, rot_zero]
  rfl

/-- The read share of slot 0 at offset `d` is what the send cell's duty hands back. -/
theorem send_pay (c : Dev nD) {d : Fin 16} (h : d ≠ 0) :
    slotPts c 0 (tok d) (commFinal m c) ⊢ (Rd (F := F) m).payload (sendCell c d) 0 0 := by
  rw [payload_send m c h]; exact BI.Entails.refl _

/-- Slot `d` of the device `d` places on, rewritten by the copy, is what that device's receive cell's duty hands over. -/
theorem recv_pay (c : Dev nD) {d : Fin 16} (h : d ≠ 0) (fd : Buf (Elt F) (((rot c d : Dev nD) : Thread nD τ).loc cc0_scratch1)) :
    (((slotM d).view.loc ((rot c d : Dev nD) : Thread nD τ) ↦[(slotM d).view.set]{fullShare}
        ((slotM d).view.write (Elt F) fd ((slotM 0).view.read (Elt F) (commFinal m c)) Finset.univ)) : sProp 𝕄)
      ⊢ (Rd (F := F) m).payload (recvCell (rot c d) d) 0 0 := by
  rw [payload_recv m (rot c d) h, landing m c d fd]; exact BI.Entails.refl _

/-- One copy: slot 0 of `c` under the offset's read share into slot `d` of the device `d` places on, paying the duty of
    the send cell and the duty of that device's receive cell, and one slot's credit off what `c` owes. -/
theorem send_step (K : Dev nD × Fin 34 → ℕ) (c : Dev nD) {d : Fin 16} (hd0 : d ≠ 0) (O S : CellTallies nD τ sig Unit)
    (W : Waits sig Unit) (f : Buf (Elt F) (((rot c d : Dev nD) : Thread nD τ).loc cc0_scratch1)) (k : P F α) (Q : α → sProp 𝕄) :
    iprop(cellInv ER (Rd m) (K (c, sendIx d)) (sendCell c d) ∗ cellInv ER (Rd m) (K (rot c d, recvIx d)) (recvCell (rot c d) d)
        ∗ slotPts c 0 (tok d) (commFinal m c) ∗ slotPts (rot c d) d fullShare f
        ∗ owes (c : Thread nD τ) (O + (tallyAt (recvCell (rot c d) d) () N + S)) W
        ∗ dutyTok ER (sendCell c d) 0 0 ∗ reached ER (sendCell c d) 0
        ∗ dutyTok ER (recvCell (rot c d) d) 0 0 ∗ reached ER (recvCell (rot c d) d) 0)
      ⊢ iprop(((cred (tallyAt (sendCell c d) () N) ∗ owes (c : Thread nD τ) (O + S) W) -∗ WP c k Q)
          -∗ WP c (Prog.op (.enqueueDma (slotM 0) (.remote (Dev.tc (rot c d)) (slotM d) (.dma (sendS d).sem) rfl) (.dma (recvS d).sem)
              (slot_wordExact 0) (slot_wordExact d) ⟨⟨rfl, Or.inl rfl⟩, trivial⟩) fun _ => k) Q) :=
  Rounds.wp_send_pointsTo 𝒱₀ ER (Rd m) (c : Thread nD τ) none
    (c' := ((rot c d : Dev nD) : Thread nD τ)) (src := slotM 0) (dst := slotM d) (q := tok d) (fs := commFinal m c) (fd := f)
    (κ₁ := K (c, sendIx d)) (κ₂ := K (rot c d, recvIx d)) (r₁ := 0) (r₂ := 0) (d₁ := 0) (d₂ := 0)
    (O₀ := O + (tallyAt (recvCell (rot c d) d) () N + S)) (W := W) (k := fun _ => k) (Q := Q) (Es := Set.univ)
    (by rw [duties_send m c hd0]; exact Finset.mem_singleton_self _)
    (by rw [duties_recv m (rot c d) hd0]; exact Finset.mem_singleton_self _)
    () () N rfl (amount_send m c hd0 0) (amount_recv m (rot c d) hd0 0)
    (O + S) (by rw [add_comm (tallyAt (recvCell (rot c d) d) () N) S, ← add_assoc])
    (send_pay m c hd0) (recv_pay m c hd0 f)

/-- The copies of the offsets `ds`, each paying one slot's credit off what the device owes and leaving the send cell's
    credit for its wait. -/
theorem wp_sends (K : Dev nD × Fin 34 → ℕ) (c : Dev nD) (Q : α → sProp 𝕄) :
    ∀ (ds : List (Fin 16)) (hnd : ds.Nodup) (h0 : ∀ d ∈ ds, d ≠ 0) (O : CellTallies nD τ sig Unit) (k : P F α),
    iprop(records m K ∗ owesE c (O + ∑ d ∈ ds.toFinset, tallyAt (recvCell (rot c d) d) () N)
        ∗ (bigSep ds.toFinset fun d => iprop(slotPts c 0 (tok d) (commFinal m c) ∗ (∃ f, slotPts (rot c d) d fullShare f)
              ∗ dutyTok ER (sendCell c d) 0 0 ∗ dutyTok ER (recvCell (rot c d) d) 0 0))
        ∗ ((owesE c O ∗ bigSep ds.toFinset fun d => cred (tallyAt (sendCell c d) () N)) -∗ WP c k Q))
      ⊢ WP c (sendsP (rot c) ds k) Q
  | [], _, _, O, k => by
    simp only [sendsP, List.toFinset_nil, Finset.sum_empty, add_zero, bigSep_empty]
    iintro ⟨-, HO, -, Hk⟩
    iapply Hk
    isplitl [HO]; · iexact HO
    iempintro
  | d :: ds, hnd, h0, O, k => by
    have hd : d ∉ ds.toFinset := by rw [List.mem_toFinset]; exact (List.nodup_cons.mp hnd).1
    have hd0 : d ≠ 0 := h0 d (List.mem_cons_self ..)
    simp only [sendsP]
    rw [List.toFinset_cons, Finset.sum_insert hd, bigSep_cons hd, bigSep_cons hd]
    unfold owesE
    iintro ⟨#HR, ⟨%W, HO⟩, ⟨⟨Hsrc, ⟨%f, Hdst⟩, Ht1, Ht2⟩, Hrest⟩, Hk⟩
    iapply (send_step m K c hd0 O (∑ x ∈ ds.toFinset, tallyAt (recvCell (rot c x) x) () N) W f (sendsP (rot c) ds k) Q) $$ [HO Hsrc Hdst Ht1 Ht2]
    · isplitr; · iapply (inv_send m K c d); iexact HR
      isplitr; · iapply (inv_recv m K (rot c d) d); iexact HR
      isplitl [Hsrc]; · iexact Hsrc
      isplitl [Hdst]; · iexact Hdst
      isplitl [HO]; · iexact HO
      isplitl [Ht1]; · iexact Ht1
      isplitr; · iapply (reached_send m K c d); iexact HR
      isplitl [Ht2]; · iexact Ht2
      iapply (reached_recv m K (rot c d) d); iexact HR
    iintro ⟨Hcred, HO⟩
    iapply (wp_sends K c Q ds (List.nodup_cons.mp hnd).2 (fun x hx => h0 x (List.mem_cons_of_mem _ hx)) O k)
    isplitr; · iexact HR
    isplitl [HO]; · iapply (owesE_of c _ W); iexact HO
    isplitl [Hrest]; · iexact Hrest
    iintro ⟨HO, Hcs⟩
    iapply Hk
    isplitl [HO]; · iapply (owesE_open c O); iexact HO
    isplitl [Hcred]; · iexact Hcred
    iexact Hcs

/-- info: 'Cert.KernelIdeal.Coll.wp_recvWaits' depends on axioms: [propext, Classical.choice, Quot.sound] -/
#guard_msgs in #print axioms wp_recvWaits
/-- info: 'Cert.KernelIdeal.Coll.wp_sendWaits' depends on axioms: [propext, Classical.choice, Quot.sound] -/
#guard_msgs in #print axioms wp_sendWaits
/-- info: 'Cert.KernelIdeal.Coll.wp_sends' depends on axioms: [propext, Classical.choice, Quot.sound] -/
#guard_msgs in #print axioms wp_sends

end Cert.KernelIdeal.Coll

end
-- ==== Proof.Local.lean ====
/-
  The two stretches of the body that touch only a device's own memory: the local stretch (the block copied into
  VMEM and waited for, its column maxima stored into slot 0) and the final stretch (the maximum over the sixteen
  slots stored into the result's staging buffer); and the lemmas that cut the sixteen-slot buffer's points-to by
  slot and by share and put it back.
-/
import proofs.«900905_g7700000000000906_dist_max_ax0_shard0_i_m1024_n512_v7x_i16_f32_1_alg».proof.Proof.Protocol
import proofs.«900905_g7700000000000906_dist_max_ax0_shard0_i_m1024_n512_v7x_i16_f32_1_alg».proof.Proof.Frags

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

private theorem hz3 : (![0, 0, 0] : Fin 3 → Nat) = fun _ => 0 := funext fun a => by fin_cases a <;> rfl
private theorem hz2 : (![0, 0] : Fin 2 → Nat) = fun _ => 0 := funext fun a => by fin_cases a <;> rfl

/-- The rectangle of all of the staging buffer, and of all sixteen slots. -/
abbrev outRect : Rect S1x512 := Rect.unit (s := S1x512) ![0, 0] S1x512.size Facts₀.inb_S1x512_S1x512_0_0
abbrev commRect : Rect S16x1x512 := Rect.unit (s := S16x1x512) ![0, 0, 0] S16x1x512.size Facts₀.inb_S16x1x512_S16x1x512_0_0_0

/-- A load of all sixteen slots reads the buffer's contents. -/
private theorem read_comm (f : (cc0_scratch1 : Ref sig .tc).ty.Contents (Elt F)) :
    (commM : Memref sig .tc .vmem S16x1x512 .f32).view.readAt (Elt F) commRect.toLoadRect f = f :=
  Memref.readAt_unit_zero (Elt F) cc0_scratch1 hz3 _ f
/-- A store over the whole staging buffer leaves what is stored. -/
private theorem write_out (f w : (cc0_stg0_0 : Ref sig .tc).ty.Contents (Elt F)) :
    ((outM : Memref sig .tc .vmem S1x512 .f32).access outRect : View sig .tc _ _ _).write (Elt F) f w Finset.univ = w :=
  Memref.write_access_unit_zero_univ (Elt F) cc0_stg0_0 hz2 _ f w

/-- The final stretch. -/
theorem wp_final (c : Dev nD) (Q : α → sProp 𝕄) (k : P F α) (g : (cc0_stg0_0 : Ref sig .tc).ty.Contents (Elt F)) :
    iprop(((((c : Thread nD τ).loc cc0_scratch1) ↦{keep} commFinal m c : sProp 𝕄)) ∗ ((((c : Thread nD τ).loc cc0_stg0_0) ↦{fullShare} g : sProp 𝕄))
        ∗ ((((((c : Thread nD τ).loc cc0_scratch1) ↦{keep} commFinal m c : sProp 𝕄)) ∗ ((((c : Thread nD τ).loc cc0_stg0_0) ↦{fullShare} outAt m c : sProp 𝕄))) -∗ WP c k Q))
      ⊢ WP c (finalP k) Q := by
  unfold finalP
  iintro ⟨Hc, Ho, Hk⟩
  iapply (wp_load 𝒱₀ (c : Thread nD τ) none Set.univ (m := commM) (S := Finset.univ) (Finset.subset_univ _)) $$ Hc
  iintro Hc
  rw [read_comm]
  iapply (wp_load 𝒱₀ (c : Thread nD τ) none Set.univ (m := outM) (S := Finset.univ) (Finset.subset_univ _)) $$ Ho
  iintro Ho
  iapply (wp_store 𝒱₀ (c : Thread nD τ) none Set.univ (m := outM) (r := outRect) (S := Finset.univ) (f := g) (Finset.subset_univ _)) $$ Ho
  iintro Ho
  rw [write_out]
  iapply Hk
  isplitl [Hc]
  · iexact Hc
  · iexact Ho

/-- The rectangle of all of the block, and of slot 0 as the kernel's load and store name it. -/
abbrev blockRect : Rect S1024x512 := Rect.unit (s := S1024x512) ![0, 0] S1024x512.size Facts₀.inb_S1024x512_S1024x512_0_0
abbrev slot0Rect : Rect S16x1x512 := Rect.unit (s := S16x1x512) ![0, 0, 0] S1x1x512.size Facts₀.inb_S16x1x512_S1x1x512_0_0_0

/-- The local copy lands the block whole. -/
theorem landed_x (c : Dev nD) (fd : Buf (Elt F) ((xvM : Memref sig .tc .vmem S1024x512 .f32).view.loc (c : Thread nD τ)))
    (fs : (main_arg0 : Ref sig .tc).ty.Contents (Elt F)) :
    (xvM : Memref sig .tc .vmem S1024x512 .f32).view.write (Elt F) fd ((xM : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-- A load of all of the VMEM copy reads its contents. -/
private theorem read_xv (f : (cc0_scratch0 : Ref sig .tc).ty.Contents (Elt F)) :
    (xvM : Memref sig .tc .vmem S1024x512 .f32).view.readAt (Elt F) blockRect.toLoadRect f = f :=
  Memref.readAt_unit_zero (Elt F) cc0_scratch0 hz2 _ f

/-- The kernel's rectangle for slot 0 covers exactly slot 0's elements. -/
theorem slot0_set : (slotM 0).view.set = ((commM : Memref sig .tc .vmem S16x1x512 .f32).access slot0Rect).set :=
  View.set_reshape ..

/-- Index `(0, 0, j)` of the rectangle is index `(0, 0, j)` of the buffer. -/
private theorem emb_r0 (j : Fin 512) :
    ((commM : Memref sig .tc .vmem S16x1x512 .f32).access slot0Rect).emb (ValueIdx.ix3 (0 : Fin 1) (0 : Fin 1) j) = ValueIdx.ix3 (0 : Fin 16) (0 : Fin 1) j := by
  funext a
  apply Fin.ext
  show (slot0Rect.emb (ValueIdx.ix3 (0 : Fin 1) (0 : Fin 1) j) a).val = (ValueIdx.ix3 (0 : Fin 16) (0 : Fin 1) j a).val
  rw [Rect.emb_apply]
  fin_cases a <;> simp

/-- What the store leaves in slot 0 is what slot 0 holds at the end. -/
theorem stored_slot0 (c : Dev nD) (f0 : Buf (Elt F) ((c : Thread nD τ).loc cc0_scratch1)) (j : Fin 512) :
    (((commM : Memref sig .tc .vmem S16x1x512 .f32).access slot0Rect).write (Elt F) f0 (bmax m c) Finset.univ) (ValueIdx.ix3 (0 : Fin 16) (0 : Fin 1) j)
      = commFinal m c (ValueIdx.ix3 (0 : Fin 16) (0 : Fin 1) j) := by
  have e := View.write_emb_of_mem (v := ((commM : Memref sig .tc .vmem S16x1x512 .f32).access slot0Rect)) (Val := Elt F) f0 (bmax m c)
    (M := Finset.univ) (x := ValueIdx.ix3 (0 : Fin 1) (0 : Fin 1) j) (Finset.mem_univ _)
  rw [emb_r0] at e
  rw [e]
  have hl : commFinal m c (ValueIdx.ix3 (0 : Fin 16) (0 : Fin 1) j)
      = bmax m (rot c (neg (0 : Fin 16))) (ValueIdx.ix3 (0 : Fin 1) (0 : Fin 1) j) := rfl
  rw [hl, show neg (0 : Fin 16) = 0 from by decide, rot_zero]
  exact cast_eq _ _

/-- The rectangle of slot `d`. -/
abbrev slotRect (d : Fin 16) : Rect S16x1x512 := Rect.unit (s := S16x1x512) ![d.val, 0, 0] S1x1x512.size (inbM d)

/-- Slot `d`'s elements are its rectangle's. -/
theorem slot_set (d : Fin 16) : (slotM d).view.set = (slotRect d).set := by
  show (((View.whole cc0_scratch1).slice (slotRect d)).reshape S1x512 _).set = _
  rw [View.set_reshape, View.set_slice_whole]

/-- An index lies in slot `d` exactly when its first coordinate is `d`. -/
theorem mem_slot (d : Fin 16) (i : S16x1x512.Idx) : i ∈ (slotRect d).set ↔ (i 0).val = d.val := by
  rw [Rect.mem_set_unit]
  have h1 := (i 1).isLt
  have h2 := (i 2).isLt
  constructor
  · intro h
    have := h 0
    simp at this
    omega
  · intro h a
    fin_cases a <;> simp at * <;> omega

theorem slot_congr (c : Dev nD) (d : Fin 16) (q : PosShare TreeShare) {f g : Buf (Elt F) ((c : Thread nD τ).loc cc0_scratch1)}
    (h : ∀ j : Fin 512, f (ValueIdx.ix3 (show Fin 16 from d) (0 : Fin 1) j) = g (ValueIdx.ix3 (show Fin 16 from d) (0 : Fin 1) j)) :
    slotPts (F := F) c d q f = slotPts c d q g := by
  unfold slotPts
  refine pointsTo_congr fun i hi => ?_
  rw [slot_set] at hi
  have h0 : (i 0).val = d.val := (mem_slot d i).mp hi
  have e : i = ValueIdx.ix3 (show Fin 16 from d) (0 : Fin 1) (show Fin 512 from i 2) := by
    funext a
    match a with
    | ⟨0, _⟩ => exact Fin.ext h0
    | ⟨1, _⟩ => exact Subsingleton.elim (α := Fin 1) _ _
    | ⟨2, _⟩ => rfl
  rw [e]
  exact h _

private theorem inv_copy (K : Dev nD × Fin 34 → ℕ) (c : Dev nD) : records (F := F) m K ⊢ cellInv ER (Rd m) (K (c, 1)) (copyCell c) := by
  rw [← kcell_copy c]; exact inv_at m K (c, 1)
private theorem reached_copy (K : Dev nD × Fin 34 → ℕ) (c : Dev nD) : records (F := F) m K ⊢ reached ER (copyCell c) 0 := by
  rw [← kcell_copy c]; exact reached_at m K (c, 1)

/-- Slot 0 as the store leaves it is slot 0 as it is at the end. -/
theorem slot0_stored (c : Dev nD) (f0 : Buf (Elt F) ((c : Thread nD τ).loc cc0_scratch1)) :
    ((slotM 0).view.loc (c : Thread nD τ) ↦[(slotM 0).view.set]{fullShare}
        (((commM : Memref sig .tc .vmem S16x1x512 .f32).access slot0Rect).write (Elt F) f0 (bmax m c) Finset.univ) : sProp 𝕄)
      = ((slotM 0).view.loc (c : Thread nD τ) ↦[(slotM 0).view.set]{fullShare} commFinal m c) := by
  have h := slot_congr (F := F) c 0 fullShare (stored_slot0 m c f0)
  unfold slotPts at h
  exact h

/-- The local stretch. -/
theorem wp_local (K : Dev nD × Fin 34 → ℕ) (c : Dev nD) (Q : α → sProp 𝕄) (k : P F α) (f0 : Buf (Elt F) ((c : Thread nD τ).loc cc0_scratch1)) :
    iprop(records m K ∗ xPts m c ∗ (∃ f, xvPts c f) ∗ slotPts c 0 fullShare f0 ∗ dutyTok ER (copyCell c) 0 0 ∗ atPos ER (copyCell c) 0 ∅ 0
        ∗ owesE c (owedRecv c 0) ∗ levAts L lv
        ∗ ((xPts m c ∗ xvPts c (xin m c) ∗ slotPts c 0 fullShare (commFinal m c) ∗ atPos ER (copyCell c) 1 ∅ 0 ∗ owesE c (owedRecv c 0)) -∗ WP c k Q))
      ⊢ WP c (localP k) Q := by
  unfold localP owesE xPts xvPts slotPts
  iintro ⟨#HR, Hx, ⟨%fv, Hxv⟩, Hs0, Htok, Hat, ⟨%W, HO⟩, #Hlev, Hk⟩
  iapply (Rounds.wp_copy_pointsTo 𝒱₀ ER (Rd m) (c : Thread nD τ) none (src := xM) (dst := xvM) (sem := .dma copyS.sem)
      (q := fullShare) (fs := m ((c : Thread nD τ).loc main_arg0)) (fd := fv) (r := 0) (d := 0) (κ := K (c, 1))
      (by rw [duties_copy]; exact Finset.mem_singleton_self _) () Nx rfl (amount_copy m c 0)
      (by rw [payload_copy]; unfold copyPay xvPts xPts xin; rw [landed_x])) $$ [Hx Hxv Htok]
  · isplitr; · iapply (inv_copy m K c); iexact HR
    isplitl [Hx]; · iexact Hx
    isplitl [Hxv]; · iexact Hxv
    isplitl [Htok]; · iexact Htok
    iapply (reached_copy m K c); iexact HR
  iintro Hc
  iapply (Rounds.wp_wait_rest_token 𝒱₀ ER (Rd m) (c : Thread nD τ) none (κ := K (c, 1))
      (wpE_waitDma2_eq 𝒱₀ (c : Thread nD τ) none Set.univ) (Set.mem_univ _) () (O := owedRecv c 0) (W := W) (R := 0) (m := 0) (T := ∅)
      (by rw [expect_copy, Nat.zero_add])) $$ [Hc HO Hat]
  · isplitr; · iapply (inv_copy m K c); iexact HR
    isplitl [Hc]; · iexact Hc
    isplitl [HO]; · iexact HO
    isplitr; · iapply (mayWait_owedRecv c (.dma copyS.sem) 0 (by rw [lv_copy]; decide)); iexact Hlev
    iexact Hat
  rw [rest_copy]
  unfold copyPay xPts xvPts
  iintro ⟨HO, Hat, -, Hxv, Hx⟩
  iapply (wp_load 𝒱₀ (c : Thread nD τ) none Set.univ (m := xvM) (S := (xvM : Memref sig .tc .vmem S1024x512 .f32).view.set)
      (q := fullShare) (f := xin m c) (View.setOn_subset_set _ _)) $$ Hxv
  iintro Hxv
  rw [read_xv]
  iapply (wp_load_rect 𝒱₀ (c : Thread nD τ) none Set.univ (m := commM) (r := slot0Rect) (S := (slotM 0).view.set)
      (q := fullShare) (f := f0) slot0_set.ge) $$ Hs0
  iintro Hs0
  iapply (wp_store 𝒱₀ (c : Thread nD τ) none Set.univ (m := commM) (r := slot0Rect) (S := (slotM 0).view.set) (f := f0) slot0_set.ge) $$ Hs0
  iintro Hs0
  iapply Hk
  isplitl [Hx]; · iexact Hx
  isplitl [Hxv]; · iexact Hxv
  isplitl [Hs0]
  · rw [← slot0_stored m c f0]; iexact Hs0
  isplitl [Hat]; · iexact Hat
  iexists _; iexact HO

/-- Every index of the sixteen-slot buffer lies in a slot, -/
theorem univ_slots (c : Dev nD) :
    (Finset.univ : Finset (Idx ((c : Thread nD τ).loc cc0_scratch1))) = Finset.univ.biUnion fun d : Fin 16 => (slotM d).view.set := by
  ext i
  simp only [Finset.mem_univ, Finset.mem_biUnion, true_and, true_iff]
  exact ⟨(show Fin 16 from i 0), by rw [slot_set, mem_slot]⟩

/-- and in one only. -/
theorem slots_disjoint (d d' : Fin 16) (hne : d ≠ d') : Disjoint (slotM d).view.set (slotM d').view.set := by
  rw [Finset.disjoint_left]
  intro i hi hi'
  rw [slot_set, mem_slot] at hi hi'
  exact hne (Fin.ext (hi.symm.trans hi'))

/-- The whole sixteen-slot buffer is its sixteen slots, at any share. -/
theorem comm_slots (c : Dev nD) (q : PosShare TreeShare) (f : Buf (Elt F) ((c : Thread nD τ).loc cc0_scratch1)) :
    ((((c : Thread nD τ).loc cc0_scratch1) ↦{q} f : sProp 𝕄)) ⊣⊢ bigSep Finset.univ fun d : Fin 16 => slotPts c d q f := by
  have e : ((((c : Thread nD τ).loc cc0_scratch1) ↦{q} f : sProp 𝕄)) = bigSep Finset.univ fun d : Fin 16 => slotPts c d q f := by
    show ((((c : Thread nD τ).loc cc0_scratch1) ↦[Finset.univ]{q} f : sProp 𝕄)) = _
    rw [univ_slots c, pointsTo_biUnion Finset.univ _ (fun d _ d' _ hne => slots_disjoint d d' hne)]
    rfl
  rw [e]

/-- The same with slot 0 apart. -/
theorem comm_slots' (c : Dev nD) (q : PosShare TreeShare) (f : Buf (Elt F) ((c : Thread nD τ).loc cc0_scratch1)) :
    ((((c : Thread nD τ).loc cc0_scratch1) ↦{q} f : sProp 𝕄))
      = iprop(slotPts c 0 q f ∗ bigSep (Finset.univ.erase (0 : Fin 16)) fun d => slotPts c d q f) := by
  rw [BI.equiv_iff.mp ⟨(comm_slots c q f).1, (comm_slots c q f).2⟩]
  exact bigSep_univ_split 0

/-- A slot held whole is the kept share of it and its sixteen read shares. -/
theorem slot_toks (c : Dev nD) (d : Fin 16) (f : Buf (Elt F) ((c : Thread nD τ).loc cc0_scratch1)) :
    (slotPts c d fullShare f : sProp 𝕄) ⊣⊢ iprop(slotPts c d keep f ∗ bigSep Finset.univ fun i : Fin 16 => slotPts c d (tok i) f) := by
  unfold slotPts
  exact Transfers.pointsTo_toks fullShare 16

theorem slot0_toks (c : Dev nD) (f : Buf (Elt F) ((c : Thread nD τ).loc cc0_scratch1)) :
    (slotPts c 0 fullShare f : sProp 𝕄) ⊣⊢ iprop(slotPts c 0 keep f ∗ bigSep Finset.univ fun i : Fin 16 => slotPts c 0 (tok i) f) :=
  slot_toks c 0 f

/-- The received slots held whole are their kept shares and their read shares, -/
theorem others_split (c : Dev nD) (f : Buf (Elt F) ((c : Thread nD τ).loc cc0_scratch1)) :
    bigSep (Finset.univ.erase (0 : Fin 16)) (fun d => slotPts (F := F) c d fullShare f)
      ⊢ iprop(bigSep (Finset.univ.erase (0 : Fin 16)) (fun d => slotPts c d keep f)
          ∗ bigSep (Finset.univ.erase (0 : Fin 16)) fun d => bigSep Finset.univ fun i : Fin 16 => slotPts c d (tok i) f) :=
  (bigSep_mono fun d _ => (slot_toks c d f).1).trans (Entails.of_eq (bigSep_sep _ _ _))

/-- and back. -/
theorem others_join (c : Dev nD) (f : Buf (Elt F) ((c : Thread nD τ).loc cc0_scratch1)) :
    iprop(bigSep (Finset.univ.erase (0 : Fin 16)) (fun d => slotPts c d keep f)
          ∗ bigSep (Finset.univ.erase (0 : Fin 16)) fun d => bigSep Finset.univ fun i : Fin 16 => slotPts c d (tok i) f)
      ⊢ bigSep (Finset.univ.erase (0 : Fin 16)) (fun d => slotPts (F := F) c d fullShare f) :=
  (Entails.of_eq (bigSep_sep _ _ _).symm).trans (bigSep_mono fun d _ => (slot_toks c d f).2)

/-- Before the final load: slot 0 at the kept share and the fifteen received slots whole give the whole buffer at the
    kept share, and the received slots' read shares aside. -/
theorem gather_keep (c : Dev nD) (f : Buf (Elt F) ((c : Thread nD τ).loc cc0_scratch1)) :
    iprop(slotPts c 0 keep f ∗ bigSep (Finset.univ.erase (0 : Fin 16)) fun d => slotPts c d fullShare f)
      ⊢ iprop(((((c : Thread nD τ).loc cc0_scratch1) ↦{keep} f : sProp 𝕄)) ∗ bigSep (Finset.univ.erase (0 : Fin 16)) fun d => bigSep Finset.univ fun i : Fin 16 => slotPts c d (tok i) f) := by
  rw [comm_slots' c keep f]
  iintro ⟨H0, Hr⟩
  ihave Hr := (others_split c f) $$ Hr
  icases Hr with ⟨Hk, Ht⟩
  isplitl [H0 Hk]
  · isplitl [H0]; · iexact H0
    iexact Hk
  · iexact Ht

/-- At the end: the kept share of the whole, the received slots' read shares and slot 0's sixteen give the buffer whole. -/
theorem regather (c : Dev nD) (f : Buf (Elt F) ((c : Thread nD τ).loc cc0_scratch1)) :
    iprop(((((c : Thread nD τ).loc cc0_scratch1) ↦{keep} f : sProp 𝕄)) ∗ (bigSep (Finset.univ.erase (0 : Fin 16)) fun d => bigSep Finset.univ fun i : Fin 16 => slotPts c d (tok i) f)
        ∗ bigSep Finset.univ fun i : Fin 16 => slotPts c 0 (tok i) f)
      ⊢ commPts c f := by
  unfold commPts
  rw [comm_slots' c keep f, comm_slots' c fullShare f]
  iintro ⟨⟨Hk0, Hk⟩, Ht, Ht0⟩
  isplitl [Hk0 Ht0]
  · iapply (slot_toks c 0 f).2
    isplitl [Hk0]; · iexact Hk0
    iexact Ht0
  · iapply (others_join c f)
    isplitl [Hk]; · iexact Hk
    iexact Ht

/-- info: 'Cert.KernelIdeal.Coll.wp_final' depends on axioms: [propext, Classical.choice, Quot.sound] -/
#guard_msgs in #print axioms wp_final
/-- info: 'Cert.KernelIdeal.Coll.gather_keep' depends on axioms: [propext, Classical.choice, Quot.sound] -/
#guard_msgs in #print axioms gather_keep
/-- info: 'Cert.KernelIdeal.Coll.regather' depends on axioms: [propext, Classical.choice, Quot.sound] -/
#guard_msgs in #print axioms regather
/-- info: 'Cert.KernelIdeal.Coll.wp_local' depends on axioms: [propext, Classical.choice, Quot.sound] -/
#guard_msgs in #print axioms wp_local

end Cert.KernelIdeal.Coll

end
-- ==== Proof.Body.lean ====
/-
  The body of the kernel on one device, stretch by stretch: from what the launch hands it (its positions and tokens,
  its launch credit, the three buffers) to every own semaphore closed at zero, the buffers back, and the result's
  staging buffer holding the maximum over the sixteen slots.
-/
import proofs.«900905_g7700000000000906_dist_max_ax0_shard0_i_m1024_n512_v7x_i16_f32_1_alg».proof.Proof.Regroup
import proofs.«900905_g7700000000000906_dist_max_ax0_shard0_i_m1024_n512_v7x_i16_f32_1_alg».proof.Proof.Sigs
import proofs.«900905_g7700000000000906_dist_max_ax0_shard0_i_m1024_n512_v7x_i16_f32_1_alg».proof.Proof.Xfers
import proofs.«900905_g7700000000000906_dist_max_ax0_shard0_i_m1024_n512_v7x_i16_f32_1_alg».proof.Proof.Local

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

abbrev S0 : Finset (Fin 16) := Finset.univ.erase 0

/-! ## Regrouping families over the nonzero offsets -/

theorem sep3 (A B C : Fin 16 → sProp 𝕄) :
    bigSep S0 (fun d => iprop(A d ∗ B d ∗ C d)) = iprop(bigSep S0 A ∗ bigSep S0 B ∗ bigSep S0 C) := by
  rw [bigSep_sep', bigSep_sep']
theorem sep4 (A B C D : Fin 16 → sProp 𝕄) :
    bigSep S0 (fun d => iprop(A d ∗ B d ∗ C d ∗ D d)) = iprop(bigSep S0 A ∗ bigSep S0 B ∗ bigSep S0 C ∗ bigSep S0 D) := by
  rw [bigSep_sep', bigSep_sep', bigSep_sep']

/-- A family of pairs over all sixteen offsets: offset 0's pair, and the two families over the others. -/
theorem pairs_split (A B : Fin 16 → sProp 𝕄) :
    bigSep Finset.univ (fun d => iprop(A d ∗ B d)) = iprop((A 0 ∗ B 0) ∗ bigSep S0 A ∗ bigSep S0 B) := by
  rw [bigSep_univ_at _ (0 : Fin 16), bigSep_sep']

/-- The buffer whole is slot 0 and the other fifteen slots. -/
theorem comm_split0 (c : Dev nD) (q : PosShare TreeShare) (f : Buf (Elt F) ((c : Thread nD τ).loc cc0_scratch1)) :
    ((((c : Thread nD τ).loc cc0_scratch1) ↦{q} f : sProp 𝕄)) ⊢ iprop(slotPts c 0 q f ∗ bigSep S0 fun d => slotPts c d q f) :=
  (comm_slots c q f).1.trans (Entails.of_eq (bigSep_univ_at _ (0 : Fin 16)))

/-- What the fifteen signals hand over: each barrier token with the slot of the opposite offset. -/
theorem sig_pack (c : Dev nD) (f : Buf (Elt F) ((c : Thread nD τ).loc cc0_scratch1)) :
    iprop((bigSep S0 fun d => dutyTok ER (barCell (rot c d)) 0 d) ∗ bigSep S0 fun d => slotPts (F := F) c d fullShare f)
      ⊢ bigSep S0 fun d => iprop(dutyTok ER (barCell (rot c d)) 0 d ∗ ∃ f, slotPts (F := F) c (neg d) fullShare f) := by
  rw [← bigSep_erase0_neg (fun d => slotPts (F := F) c d fullShare f), ← bigSep_sep']
  exact bigSep_mono fun d _ =>
    show iprop(dutyTok ER (barCell (rot c d)) 0 d ∗ slotPts (F := F) c (neg d) fullShare f)
      ⊢ (iprop(dutyTok ER (barCell (rot c d)) 0 d ∗ ∃ f, slotPts (F := F) c (neg d) fullShare f) : sProp 𝕄) from by
    iintro ⟨H1, H2⟩
    isplitl [H1]; · iexact H1
    iexists f; iexact H2

/-- What the barrier wait brings: for each offset, the slot of the device that many places on. -/
theorem bar_unpack (c : Dev nD) :
    (bigSep S0 fun dn => barPay (F := F) c dn) ⊢ bigSep S0 fun d => iprop(∃ f, slotPts (F := F) (rot c d) d fullShare f) := by
  rw [← bigSep_erase0_neg (fun d => iprop(∃ f, slotPts (F := F) (rot c d) d fullShare f))]
  exact bigSep_mono fun d _ =>
    show barPay (F := F) c d ⊢ (iprop(∃ f, slotPts (F := F) (rot c (neg d)) (neg d) fullShare f) : sProp 𝕄) from by
    unfold barPay
    iintro ⟨H, -⟩; iexact H

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

set_option maxRecDepth 4000 in
def bodyPost (c : Dev nD) : sProp 𝕄 :=
  iprop(Φ₁ m c ∗ (dats m ρ 0 c).owesAt () t₀.succ ∗ stg c cc0_stg0_0 (outAt m c))

set_option maxHeartbeats 1600000 in
theorem sound_body (c : Dev nD) : bodyPre m ρ c ⊢ WP c (bodyP (F := F) c) (fun _ => bodyPost m ρ c) := by
  unfold bodyPre Φ₀ start ghost linear commPts bodyP
  iintro ⟨⟨⟨⟨%K, #HR, HatB, HatC, HtC, Hats, Htoks⟩, HcB, HcR, #Hlev⟩, Hx, Hxv, ⟨%fc, Hcomm⟩⟩, Ho, ⟨%d0, %g0, %hg0, Hout⟩⟩
  unfold Dat.owesAt Pipeline.owesWithin
  icases Ho with ⟨%W, %hW, HO⟩
  rw [show (dats m ρ 0 c).owed t₀.castSucc = O₀ c from rfl]
  -- the families, one per kind
  ihave Ht := (Entails.of_eq (sep3 (fun d => dutyTok ER (barCell (rot c d)) 0 d) (fun d => dutyTok ER (sendCell c d) 0 0)
    (fun d => dutyTok ER (recvCell (rot c d) d) 0 0))) $$ Htoks
  icases Ht with ⟨HtB, HtS, HtR⟩
  ihave Ha := (Entails.of_eq (pairs_split (fun d => atPos ER (sendCell c d) 0 ∅ 0) (fun d => atPos ER (recvCell c d) 0 ∅ 0))) $$ Hats
  icases Ha with ⟨⟨HaS0, HaR0⟩, HaS, HaR⟩
  ihave Hs := (comm_split0 c fullShare fc) $$ Hcomm
  icases Hs with ⟨Hs0, Hsl⟩
  -- the fifteen signals: each hands the device that many places on the slot it will copy into
  iapply (wp_sigs m K c (fun _ => bodyPost m ρ c) offs offs_nodup offs_ne_zero (owedRecv c 0) _)
  rw [offs_toFinset]
  isplitr; · iexact HR
  isplitl [HO]
  · unfold owesE; iexists W; rw [← offs_toFinset, owedBar_offs]; iexact HO
  isplitl [HtB Hsl]
  · iapply (sig_pack c fc); isplitl [HtB]; · iexact HtB
    iexact Hsl
  iintro HO
  -- the local stretch: the block's column maxima into slot 0
  iapply (wp_local m K c (fun _ => bodyPost m ρ c) _ fc)
  isplitr; · iexact HR
  isplitl [Hx]; · iexact Hx
  isplitl [Hxv]; · iexact Hxv
  isplitl [Hs0]; · iexact Hs0
  isplitl [HtC]; · iexact HtC
  isplitl [HatC]; · iexact HatC
  isplitl [HO]; · iexact HO
  isplitr; · iexact Hlev
  iintro ⟨Hx, Hxv, Hs0, HatC, HO⟩
  -- the barrier wait: every other device is inside, and has handed over the slot to copy into
  iapply (wp_barWait m K c (fun _ => bodyPost m ρ c) _)
  isplitr; · iexact HR
  isplitl [HcB]; · iexact HcB
  isplitl [HO]; · iexact HO
  isplitr; · iexact Hlev
  isplitl [HatB]; · iexact HatB
  iintro ⟨HO, HatB, Hpay⟩
  ihave Hp := (bar_unpack (F := F) c) $$ Hpay
  -- slot 0's read shares: one per copy, the kept one for the final load
  ihave Hk0 := (slot0_toks c (commFinal m c)).1 $$ Hs0
  icases Hk0 with ⟨Hkeep, Htk⟩
  ihave Htk' := (Entails.of_eq (bigSep_univ_at (fun i : Fin 16 => slotPts c 0 (tok i) (commFinal m c)) (0 : Fin 16))) $$ Htk
  icases Htk' with ⟨Htk0, Htks⟩
  -- the fifteen copies
  rw [sendDev_eq]
  iapply (wp_sends m K c (fun _ => bodyPost m ρ c) offs offs_nodup offs_ne_zero 0 _)
  rw [zero_add, owedRecv_offs, offs_toFinset]
  isplitr; · iexact HR
  isplitl [HO]; · iexact HO
  isplitl [Htks Hp HtS HtR]
  · iapply (Entails.of_eq (sep4 (fun d => slotPts c 0 (tok d) (commFinal m c)) (fun d => iprop(∃ f, slotPts (F := F) (rot c d) d fullShare f))
      (fun d => dutyTok ER (sendCell c d) 0 0) (fun d => dutyTok ER (recvCell (rot c d) d) 0 0)).symm)
    isplitl [Htks]; · iexact Htks
    isplitl [Hp]; · iexact Hp
    isplitl [HtS]; · iexact HtS
    iexact HtR
  iintro ⟨HO, Hcs⟩
  -- the fifteen receive waits
  iapply (wp_recvWaits m K c (fun _ => bodyPost m ρ c) offs offs_nodup offs_ne_zero _)
  rw [offs_toFinset]
  isplitr; · iexact HR
  isplitl [HO]; · iexact HO
  isplitl [HcR HaR]
  · iapply (Entails.of_eq (bigSep_sep' S0 (fun d => cred (tallyAt (recvCell c d) () N)) (fun d => atPos ER (recvCell c d) 0 ∅ 0)).symm)
    isplitl [HcR]; · iexact HcR
    iexact HaR
  iintro ⟨HO, Hrw⟩
  ihave Hrw' := (Entails.of_eq (bigSep_sep' S0 (fun d => atPos ER (recvCell c d) 1 ∅ 0) (fun d => slotPts c d fullShare (commFinal m c)))) $$ Hrw
  icases Hrw' with ⟨HaR1, Hsl⟩
  -- all sixteen slots at the kept share; the maximum over them into the result
  ihave Hg := (gather_keep c (commFinal m c)) $$ [Hkeep Hsl]
  · isplitl [Hkeep]; · iexact Hkeep
    iexact Hsl
  icases Hg with ⟨Hwhole, Hrt⟩
  iapply (wp_final m c (fun _ => bodyPost m ρ c) _ g0)
  isplitl [Hwhole]; · iexact Hwhole
  isplitl [Hout]; · iexact Hout
  iintro ⟨Hwhole, Hout⟩
  -- the fifteen send waits: the read shares back
  iapply (wp_sendWaits m K c (fun _ => bodyPost m ρ c) offs offs_nodup offs_ne_zero _)
  rw [offs_toFinset]
  isplitr; · iexact HR
  isplitl [HO]; · iexact HO
  isplitl [Hcs HaS]
  · iapply (Entails.of_eq (bigSep_sep' S0 (fun d => cred (tallyAt (sendCell c d) () N)) (fun d => atPos ER (sendCell c d) 0 ∅ 0)).symm)
    isplitl [Hcs]; · iexact Hcs
    iexact HaS
  iintro ⟨HO, Hsw⟩
  ihave Hsw' := (Entails.of_eq (bigSep_sep' S0 (fun d => atPos ER (sendCell c d) 1 ∅ 0) (fun d => slotPts c 0 (tok d) (commFinal m c)))) $$ Hsw
  icases Hsw' with ⟨HaS1, Htks⟩
  -- the buffer whole again
  ihave Htk := (Entails.of_eq (bigSep_univ_at (fun i : Fin 16 => slotPts c 0 (tok i) (commFinal m c)) (0 : Fin 16)).symm) $$ [Htk0 Htks]
  · isplitl [Htk0]; · iexact Htk0
    iexact Htks
  ihave Hcomm := (regather c (commFinal m c)) $$ [Hwhole Hrt Htk]
  · isplitl [Hwhole]; · iexact Hwhole
    isplitl [Hrt]; · iexact Hrt
    iexact Htk
  -- every own cell closes
  imod (close_cells m K c) $$ [HatC HaS0 HaR0 HaS1 HaR1] with ⟨HzC, Hz⟩
  · isplitr; · iexact HR
    isplitl [HatC]; · iexact HatC
    isplitl [HaS0]; · iexact HaS0
    isplitl [HaR0]; · iexact HaR0
    isplitl [HaS1]; · iexact HaS1
    iexact HaR1
  unfold owesE
  icases HO with ⟨%W', HO⟩
  rw [wp_ret]; imodintro
  unfold bodyPost Φ₁ Dat.owesAt Pipeline.owesWithin
  rw [show (dats m ρ 0 c).owed t₀.succ = 0 from rfl]
  isplitl [Hx Hxv Hcomm HzC Hz]
  · isplitl [Hx]; · iexact Hx
    isplitl [Hxv]; · iexists _; iexact Hxv
    isplitl [Hcomm]; · iexists _; iexact Hcomm
    isplitl [HzC]; · iexact HzC
    iexact Hz
  isplitl [HO]
  · iexists W'
    isplitr; · ipureintro; exact fun _ _ => Or.inl trivial
    iexact HO
  iexists _; isplitr; · (ipureintro; rfl)
  iexact Hout

/-! ## The library's body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ (c : Thread nD τ) none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _) cc0_scratch2 cc0_scratch3 cc0_scratch4)
    (fun _ => bodyPost m ρ c)
  rw [body_eq]
  exact sound_body m ρ c

/-- info: 'Cert.KernelIdeal.Coll.body_obligation' depends on axioms: [propext, Classical.choice, Quot.sound] -/
#guard_msgs in #print axioms body_obligation

end Cert.KernelIdeal.Coll

end
-- ==== Proof.RunStmt.lean ====
/-
  What the run of the kernel on the sixteen devices is proved to end in: on every device the result array at the
  proof data's final contents, and the argument array as launched.
-/
import proofs.«900905_g7700000000000906_dist_max_ax0_shard0_i_m1024_n512_v7x_i16_f32_1_alg».proof.Proof.Protocol

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- Each windowed array's final contents, as the proof data computes them. -/
def finalA (c : Dev nD) (w : Fin cfg0.W) : Buf (Elt F) ((cfg0.win w).arr.view.loc (c : Thread nD τ)) := (dats m ρ 0 c).arrAt w cfg0.N

/-- The run's post: every device's result array at those contents, its argument array unchanged. -/
def QC : PUnit × MemSt nD τ sig (Elt F) → Prop := fun r => ∀ c : Dev nD,
  (∀ w : Fin cfg0.W, r.2.mem ((cfg0.win w).arr.view.loc (c : Thread nD τ)) = finalA m ρ c w)
  ∧ r.2.mem ((c : Thread nD τ).loc main_arg0) = m ((c : Thread nD τ).loc main_arg0)

end Cert.KernelIdeal.Coll

end
-- ==== Proof.LaunchGhost.lean ====
/-
  The ring's ghost state at launch. The element of the user algebra the launch starts from funds, for every
  device, the round state at counter zero of each of its thirty-four cells, the owner's position at the start
  of each, the fact that round 0 of each is reached, and the token of every duty of round 0. One global step
  puts every cell's counter and round state under an invariant, for all devices at once, and deals the tokens
  round the ring: the token of duty `d` of a barrier cell goes to the device `d` places before its owner, the
  token of the receive cell of offset `d` likewise, and the tokens of the local copy and of the send cells stay
  with their owner. Each device then holds what its body starts from.
-/
import proofs.«900905_g7700000000000906_dist_max_ax0_shard0_i_m1024_n512_v7x_i16_f32_1_alg».proof.Proof.Protocol

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The cells, and the tokens minted at launch -/

theorem ownSemFacts : Pipeline.OwnSemFacts cfg0.spec osem := by decide

theorem csem_injective : Function.Injective (csem : Fin 34 → SemLoc sig) := by
  intro k k' h
  by_cases hk : k = 0 <;> by_cases hk' : k' = 0
  · rw [hk, hk']
  · rw [show csem k = SemLoc.reg barS from if_pos hk, show csem k' = SemLoc.dma (show DmaSem sig from k') from if_neg hk'] at h
    cases h
  · rw [show csem k = SemLoc.dma (show DmaSem sig from k) from if_neg hk, show csem k' = SemLoc.reg barS from if_pos hk'] at h
    cases h
  · rw [show csem k = SemLoc.dma (show DmaSem sig from k) from if_neg hk, show csem k' = SemLoc.dma (show DmaSem sig from k') from if_neg hk'] at h
    exact SemLoc.dma.inj h

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The offsets other than 0. -/
abbrev NZ : Type := {d : Fin 16 // d ≠ 0}
/-- The duties of one device's cells at round 0: the local copy's one; and per offset `d ≠ 0` duty `d` of the barrier
    cell (0), the send cell's one (1), the receive cell's one (2). -/
abbrev TokIx : Type := Unit ⊕ (Fin 3 × NZ)

/-- The cell's index and the duty of each. -/
def tokKey : TokIx → Fin 34 × Fin 16
  | .inl _ => (1, 0)
  | .inr (0, d) => (0, d.1)
  | .inr (1, d) => (sendIx d.1, 0)
  | .inr (2, d) => (recvIx d.1, 0)

theorem tokKey_injective : Function.Injective tokKey := by decide +kernel

abbrev tokOf (cj : Dev nD × TokIx) : GSem nD τ sig × ℕ × Fin 16 := (kcell (cj.1, (tokKey cj.2).1), 0, (tokKey cj.2).2)

theorem tokOf_injective : Function.Injective (tokOf : Dev nD × TokIx → GSem nD τ sig × ℕ × Fin 16) := by
  rintro ⟨c, j⟩ ⟨c', j'⟩ h
  have h1 : kcell (c, (tokKey j).1) = kcell (c', (tokKey j').1) := congrArg (fun x : GSem nD τ sig × ℕ × Fin 16 => x.1) h
  have h2 : (tokKey j).2 = (tokKey j').2 := congrArg (fun x : GSem nD τ sig × ℕ × Fin 16 => x.2.2) h
  have h3 := kcell_injective h1
  have hc : c = c' := congrArg Prod.fst h3
  have hk : (tokKey j).1 = (tokKey j').1 := congrArg Prod.snd h3
  rw [hc, tokKey_injective (Prod.ext hk h2)]

def ringToks : Finset (GSem nD τ sig × ℕ × Fin 16) := Finset.univ.map ⟨tokOf, tokOf_injective⟩

def u₀ : UU := (initOf (Pipeline.cells cfgs Gen.cellOf_inj) (Pipeline.launchToks cfgs Gen.cellOf_inj), initOf ringCells ringToks)

/-- The duty tokens of device `c`'s own cells. -/
def toks (c : Dev nD) : sProp 𝕄 :=
  iprop(dutyTok ER (copyCell c) 0 0
    ∗ (bigSep (Finset.univ.erase (0 : Fin 16)) fun d => dutyTok ER (barCell c) 0 d)
    ∗ (bigSep (Finset.univ.erase (0 : Fin 16)) fun d => dutyTok ER (sendCell c d) 0 0)
    ∗ (bigSep (Finset.univ.erase (0 : Fin 16)) fun d => dutyTok ER (recvCell c d) 0 0))

/-- What the launch element deals device `c`: the round state at counter zero of each of its cells, its position at the
    start of each and that round 0 of each is reached, and the tokens of its own cells' duties. -/
def G (c : Dev nD) : sProp 𝕄 :=
  iprop((bigSep Finset.univ fun k : Fin 34 => roundState ER (Rd m) (kcell (c, k)) 0)
    ∗ (bigSep Finset.univ fun k : Fin 34 => iprop(atPos ER (kcell (c, k)) 0 ∅ 0 ∗ reached ER (kcell (c, k)) 0)) ∗ toks c)

/-- What the global step makes of it. -/
def G' (c : Dev nD) : sProp 𝕄 := iprop(∃ K, ghost m K c)

/-! ## Regrouping families of assertions -/

/-- A family over `Fin (n + 1)`: the member at 0 and the family of the successors. -/
theorem bigSep_fin_succ {n : ℕ} (Φ : Fin (n + 1) → sProp 𝕄) :
    bigSep Finset.univ Φ = iprop(Φ 0 ∗ bigSep Finset.univ fun k : Fin n => Φ k.succ) := by
  have hne : (0 : Fin (n + 1)) ∉ Finset.univ.map ⟨Fin.succ, Fin.succ_injective _⟩ := by
    intro h; obtain ⟨k, -, hk⟩ := Finset.mem_map.mp h; exact Fin.succ_ne_zero k hk
  rw [Fin.univ_succ, Finset.cons_eq_insert, bigSep_insert hne, bigSep_map]
  rfl

def sendEmb : Fin 16 ↪ Fin 34 := ⟨sendIx, by decide⟩
def recvEmb : Fin 16 ↪ Fin 34 := ⟨recvIx, by decide⟩

/-- A family over the thirty-four indices: the barrier's, the local copy's, the sixteen send and the sixteen receive
    indices. -/
theorem bigSep_fin34 (Φ : Fin 34 → sProp 𝕄) :
    bigSep Finset.univ Φ
      = iprop(Φ 0 ∗ Φ 1 ∗ (bigSep Finset.univ fun d : Fin 16 => Φ (sendIx d)) ∗ bigSep Finset.univ fun d : Fin 16 => Φ (recvIx d)) := by
  have hU : (Finset.univ : Finset (Fin 34)) = insert 0 (insert 1 (Finset.univ.map sendEmb ∪ Finset.univ.map recvEmb)) := by decide +kernel
  have h0 : (0 : Fin 34) ∉ insert 1 (Finset.univ.map sendEmb ∪ Finset.univ.map recvEmb) := by decide +kernel
  have h1 : (1 : Fin 34) ∉ Finset.univ.map sendEmb ∪ Finset.univ.map recvEmb := by decide +kernel
  have hd : Disjoint (Finset.univ.map sendEmb) (Finset.univ.map recvEmb) := by decide +kernel
  rw [hU, bigSep_insert h0, bigSep_insert h1, bigSep_union hd, bigSep_map, bigSep_map]
  rfl

/-- A family over the cells of one device, by their names. -/
theorem bigSep_cells (c : Dev nD) (Φ : GSem nD τ sig → sProp 𝕄) :
    (bigSep Finset.univ fun k : Fin 34 => Φ (kcell (c, k)))
      = iprop(Φ (barCell c) ∗ Φ (copyCell c) ∗ (bigSep Finset.univ fun d : Fin 16 => Φ (sendCell c d))
          ∗ bigSep Finset.univ fun d : Fin 16 => Φ (recvCell c d)) := by
  rw [bigSep_fin34, kcell_bar, kcell_copy,
    bigSep_congr (s := Finset.univ) (fun (d : Fin 16) _ => congrArg Φ (kcell_send c d)),
    bigSep_congr (s := Finset.univ) (fun (d : Fin 16) _ => congrArg Φ (kcell_recv c d))]

/-- Iterated families over a universe and over a set commute. -/
theorem bigSep_univ_set_comm {α β : Type} [Fintype α] [DecidableEq β] (t : Finset β) (Φ : α → β → sProp 𝕄) :
    bigSep Finset.univ (fun a => bigSep t (fun b => Φ a b)) = bigSep t (fun b => bigSep Finset.univ (fun a => Φ a b)) := by
  induction t using Finset.induction_on with
  | empty => simp only [bigSep_empty]; exact bigSep_emp_const _
  | insert b t hb ih =>
    rw [bigSep_insert hb, ← ih, ← bigSep_sep]
    exact bigSep_congr fun a _ => bigSep_insert hb

/-- A family over devices and offsets, each member moved to the device that many places before: shifting by one offset
    permutes the devices. -/
theorem bigSep_rot (s : Finset (Fin 16)) (Ψ : Dev nD → Fin 16 → sProp 𝕄) :
    bigSep Finset.univ (fun c => bigSep s (fun d => Ψ c d)) = bigSep Finset.univ (fun c => bigSep s (fun d => Ψ (rot c d) d)) := by
  rw [bigSep_univ_set_comm s Ψ, bigSep_univ_set_comm s (fun c d => Ψ (rot c d) d)]
  exact bigSep_congr fun d _ => bigSep_univ_equiv (rotEquiv d) (fun c => Ψ c d)

/-! ## Funding -/

theorem bigSep_ringCells (Φ : GSem nD τ sig → sProp 𝕄) :
    bigSep ringCells Φ = bigSep Finset.univ fun c : Dev nD => bigSep Finset.univ fun k : Fin 34 => Φ (kcell (c, k)) := by
  unfold ringCells; rw [bigSep_map, bigSep_univ_prod]; rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_ringToks :
    bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks
  rw [bigSep_univ_sum, bigSep_univ_of_subsingleton (), bigSep_univ_prod, bigSep_fin3,
    ← bigSep_subtype_ne (0 : Fin 16) (fun d => (dutyTok ER (barCell c) 0 d : sProp 𝕄)),
    ← bigSep_subtype_ne (0 : Fin 16) (fun d => (dutyTok ER (sendCell c d) 0 0 : sProp 𝕄)),
    ← bigSep_subtype_ne (0 : Fin 16) (fun d => (dutyTok ER (recvCell c d) 0 0 : sProp 𝕄))]
  show iprop(dutyTok ER (kcell (c, 1)) 0 0
      ∗ (bigSep Finset.univ fun d : NZ => dutyTok ER (kcell (c, 0)) 0 d.1)
      ∗ (bigSep Finset.univ fun d : NZ => dutyTok ER (kcell (c, sendIx d.1)) 0 0)
      ∗ (bigSep Finset.univ fun d : NZ => dutyTok ER (kcell (c, recvIx d.1)) 0 0)) = _
  rw [kcell_copy,
    bigSep_congr (s := Finset.univ) (fun (d : NZ) _ => congrArg (fun g => (dutyTok ER g 0 0 : sProp 𝕄)) (kcell_send c d.1)),
    bigSep_congr (s := Finset.univ) (fun (d : NZ) _ => congrArg (fun g => (dutyTok ER g 0 0 : sProp 𝕄)) (kcell_recv c d.1))]
  rfl

theorem fund_ring : BI.own (ER (initOf ringCells ringToks)) ⊢ (|==> bigSep Finset.univ (G (F := F) m) : sProp 𝕄) := by
  iintro HX
  imod (Rounds.fund ER (Rd m) ringCells ringToks) $$ HX with ⟨Hst, Hr, Hat, Htok⟩
  imodintro
  ihave Hst' := (Entails.of_eq (bigSep_ringCells fun g => roundState ER (Rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq (bigSep_ringToks (F := F))) $$ Htok
  unfold G; simp only [bigSep_sep']
  isplitl [Hst']; · iexact Hst'
  isplitl [Hat' Hr']
  · isplitl [Hat'] <;> iassumption
  iexact Htok'

/-! ## The counters at zero, cell by cell -/

theorem kcell_succ (c : Dev nD) (k : Fin 33) : kcell (c, k.succ) = ((c : Thread nD τ), osem k) := by
  show ((c : Thread nD τ), csem k.succ) = _
  rw [show csem k.succ = osem k from if_neg (Fin.succ_ne_zero k)]

/-- The barrier semaphore is the one semaphore of a core that no scope allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [unscopedSems0_eq, bigSep_fin_succ,
    bigSep_congr (s := Finset.univ) (fun (k : Fin 33) _ => congrArg (fun g => (semVal g 0 : sProp 𝕄)) (kcell_succ c k))]
  unfold Pipeline.ownSems0
  iintro ⟨HS, HB⟩
  isplitl [HB]; · iexact HB
  iexact HS

/-- Each cell's counter at zero and its round state at zero go under an invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 34 => semVal (kcell (c, k)) 0) ∗ bigSep Finset.univ fun k : Fin 34 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring -/

theorem ghost_intro (K : Dev nD × Fin 34 → ℕ) (c : Dev nD) : iprop(records m K ∗ linear c) ⊢ G' m c := by
  unfold G' ghost
  iintro H
  iexists K
  iexact H

/-- The tokens of the duties device `c` pays. -/
def payToks (c : Dev nD) : sProp 𝕄 :=
  iprop(dutyTok ER (copyCell c) 0 0
    ∗ bigSep (Finset.univ.erase (0 : Fin 16)) fun d =>
        iprop(dutyTok ER (barCell (rot c d)) 0 d ∗ dutyTok ER (sendCell c d) 0 0 ∗ dutyTok ER (recvCell (rot c d) d) 0 0))

/-- The token of duty `d` of a barrier cell, and of the receive cell of offset `d`, go to the device `d` places before the
    owner; the local copy's and the send cells' stay. -/
theorem toks_around : (bigSep Finset.univ fun c : Dev nD => (toks c : sProp 𝕄)) ⊢ bigSep Finset.univ fun c : Dev nD => payToks c := by
  unfold toks payToks
  simp only [bigSep_sep']
  iintro ⟨HC, HB, HS, HR⟩
  isplitl [HC]; · iexact HC
  isplitl [HB]
  · iapply (Entails.of_eq (bigSep_rot (Finset.univ.erase (0 : Fin 16)) (fun c d => (dutyTok ER (barCell c) 0 d : sProp 𝕄))))
    iexact HB
  isplitl [HS]; · iexact HS
  iapply (Entails.of_eq (bigSep_rot (Finset.univ.erase (0 : Fin 16)) (fun c d => (dutyTok ER (recvCell c d) 0 0 : sProp 𝕄))))
  iexact HR

/-- A device's positions at its cells and the tokens of the duties it pays are what it alone holds. -/
theorem linear_intro (c : Dev nD) :
    iprop((bigSep Finset.univ fun k : Fin 34 => atPos ER (kcell (c, k)) 0 ∅ 0) ∗ payToks c) ⊢ (linear c : sProp 𝕄) := by
  rw [bigSep_cells c (fun g => (atPos ER g 0 ∅ 0 : sProp 𝕄))]
  unfold payToks linear
  simp only [bigSep_sep']
  iintro ⟨⟨HaB, HaC, HaS, HaR⟩, HtC, Htk⟩
  isplitl [HaB]; · iexact HaB
  isplitl [HaC]; · iexact HaC
  isplitl [HtC]; · iexact HtC
  isplitl [HaS HaR]
  · isplitl [HaS] <;> iassumption
  iexact Htk

theorem regroup :
    (bigSep Finset.univ fun c : Dev nD => iprop((bigSep Finset.univ fun k => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c) : sProp 𝕄)
      ⊢ bigSep Finset.univ (G' (F := F) m) := by
  rw [bigSep_sep', bigSep_sep', ← bigSep_univ_prod (fun ck : Dev nD × Fin 34 => iprop(∃ κ : ℕ, cellInv ER (Rd m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 34 => (atPos ER (kcell (c, k)) 0 ∅ 0 : sProp 𝕄)) payToks).symm).trans
      (bigSep_mono fun c _ => linear_intro (F := F) c))
    isplitl [Hat]; · iexact Hat
    iexact Htk

/-- The global step: every device's own and unscoped semaphores at zero and its share of the launch element become,
    for every device, what its body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Coll.glob' depends on axioms: [propext, Classical.choice, Quot.sound] -/
#guard_msgs in #print axioms glob

end Cert.KernelIdeal.Coll

end
-- ==== Proof.Launch.lean ====
/-
  The launch of the sixteen kernels: from the body proved on every device to the run of @main. What each device is dealt at
  launch of the credit the others owe its cells (fifteen units on its barrier cell, one slot's credit on each receive
  cell), the argument array carried from the launch through the point and read back at the end, the kernel's own
  semaphores handed back at zero, and the level of the result's staging semaphore.
-/
import proofs.«900905_g7700000000000906_dist_max_ax0_shard0_i_m1024_n512_v7x_i16_f32_1_alg».proof.Proof.Protocol
import proofs.«900905_g7700000000000906_dist_max_ax0_shard0_i_m1024_n512_v7x_i16_f32_1_alg».proof.Proof.RunStmt
import proofs.«900905_g7700000000000906_dist_max_ax0_shard0_i_m1024_n512_v7x_i16_f32_1_alg».proof.Proof.LaunchGhost

noncomputable section

namespace Cert.KernelIdeal.Coll

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The whole-buffer holdings as plain points-tos -/

theorem xPts_eq (c : Dev nD) :
    xPts m c = (((c : Thread nD τ).loc main_arg0) ↦{fullShare} m ((c : Thread nD τ).loc main_arg0) : sProp 𝕄) := by
  unfold xPts; rw [View.set_whole]
theorem xvPts_eq (c : Dev nD) (f : Buf (Elt F) ((c : Thread nD τ).loc cc0_scratch0)) :
    xvPts c f = (((c : Thread nD τ).loc cc0_scratch0) ↦{fullShare} f : sProp 𝕄) := by
  unfold xvPts; rw [View.set_whole]

/-! ## The launch credit -/

/-- Equal tallies on one cell, summed over a finite set. -/
theorem sum_tallyAt_const {α : Type} [DecidableEq α] (s : Finset α) (g : GSem nD τ sig) (k : ℕ) :
    (∑ _a ∈ s, tallyAt g () k : CellTallies nD τ sig Unit) = tallyAt g () (s.card * k) := by
  induction s using Finset.induction_on with
  | empty => rw [Finset.sum_empty, Finset.card_empty, Nat.zero_mul, tallyAt_zero]
  | insert a s ha ih =>
    rw [Finset.sum_insert ha, ih, Finset.card_insert_of_notMem ha, tallyAt_add]
    congr 1; ring

theorem card_above_0 : (above 0).card = 15 := by decide

/-- Every device owes the receive cell of slot `d` of the device `d` places on one slot's credit, for each offset `d ≠ 0`:
    device `c` is dealt that credit on each of its own receive cells, its payer being the device `d` places before it. -/
theorem recvCred (c : Dev nD) :
    (Pipeline.launchCred (fun d => owedRecv d 0) c : sProp 𝕄)
      ⊢ bigSep (Finset.univ.erase (0 : Fin 16)) fun d => cred (tallyAt (recvCell c d) () N) := by
  rw [show (fun d : Dev nD => owedRecv d 0) = fun d => ∑ e ∈ above 0, tallyAt (recvCell (rot d e) e) () N from rfl,
    Pipeline.launchCred_sum (above 0) (fun e d => tallyAt (recvCell (rot d e) e) () N) c, above_0]
  exact bigSep_mono fun e _ =>
    Pipeline.launchCred_tallyAt (SemLoc.dma (recvS e).sem) (fun d => rot d e) (fun d => rot d (neg e))
      (fun d => rot_neg_rot d e) (fun d => rot_rot_neg d e) () N c

/-- Every device owes the barrier cell of each of the other fifteen one unit: device `c` is dealt fifteen units on its own. -/
theorem barCred (c : Dev nD) :
    (Pipeline.launchCred (fun d => owedBar d 0) c : sProp 𝕄) ⊢ cred (tallyAt (barCell c) () 15) := by
  rw [show (fun d : Dev nD => owedBar d 0) = fun d => ∑ e ∈ above 0, tallyAt (barCell (rot d e)) () 1 from rfl,
    Pipeline.launchCred_sum (above 0) (fun e d => tallyAt (barCell (rot d e)) () 1) c]
  rw [show (tallyAt (barCell c) () 15 : CellTallies nD τ sig Unit) = ∑ _e ∈ above 0, tallyAt (barCell c) () 1 from by
    rw [sum_tallyAt_const, card_above_0], Pipeline.cred_finsetSum]
  exact bigSep_mono fun e _ =>
    Pipeline.launchCred_tallyAt (SemLoc.reg barS) (fun d => rot d e) (fun d => rot d (neg e))
      (fun d => rot_neg_rot d e) (fun d => rot_rot_neg d e) () 1 c

end Launch

open Launch

theorem creds (c : Dev nD) :
    (Pipeline.launchCred O₀ c : sProp 𝕄)
      ⊢ iprop(cred (tallyAt (barCell c) () 15) ∗ bigSep (Finset.univ.erase (0 : Fin 16)) fun d => cred (tallyAt (recvCell c d) () N)) := by
  rw [show (O₀ : Dev nD → CellTallies nD τ sig Unit) = fun d => owedRecv d 0 + owedBar d 0 from rfl, Pipeline.launchCred_add]
  iintro ⟨HR, HB⟩
  isplitl [HB]
  · iapply (barCred (F := F) c); iexact HB
  · iapply (recvCred (F := F) c); iexact HR

/-! ## The theorem's side conditions -/

namespace Launch

theorem share_eq (c : Dev nD) (w : Fin cfg0.W) : (dats m ρ 0 c).share w = fullShare := by unfold Dat.share; split <;> rfl

/-- The kernel's own semaphores by role: the copy's, then the sixteen send and the sixteen receive semaphores. -/
def semIx : Fin 1 ⊕ (Fin 16 ⊕ Fin 16) ≃ Fin 33 := (Equiv.sumCongr (Equiv.refl (Fin 1)) finSumFinEquiv).trans finSumFinEquiv

theorem osem_copy : osem (semIx (.inl 0)) = SemLoc.dma copyS.sem := by decide
theorem osem_send (d : Fin 16) : osem (semIx (.inr (.inl d))) = SemLoc.dma (sendS d).sem := by revert d; decide
theorem osem_recv (d : Fin 16) : osem (semIx (.inr (.inr d))) = SemLoc.dma (recvS d).sem := by revert d; decide

theorem ownSems0_eq (c : Dev nD) :
    (Pipeline.ownSems0 (Ix := Unit) (Name := ℕ) (U := UU) (Lvl := ℕ) (Val := Elt F) (τ := τ) osem c : sProp 𝕄)
      = iprop(semVal (copyCell c) 0 ∗ bigSep Finset.univ fun d : Fin 16 => iprop(semVal (sendCell c d) 0 ∗ semVal (recvCell c d) 0)) := by
  unfold Pipeline.ownSems0
  rw [bigSep_univ_equiv semIx, bigSep_univ_sum, bigSep_univ_sum, bigSep_univ_of_subsingleton (0 : Fin 1), bigSep_sep']
  simp only [osem_copy, osem_send, osem_recv]
  rfl

end Launch

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c) ∗ emp) := by
  rw [Pipeline.unscopedRestP_none, Gen.unscopedRest0_eq, xPts_eq]
  iintro ⟨Hx, Hlev, Hcr, -, HG⟩
  ihave Hc := (creds (F := F) c) $$ Hcr
  icases Hc with ⟨H1, HN⟩
  imodintro
  unfold start G'
  isplitl
  · isplitr [Hx]
    · isplitl [HG]; · iexact HG
      isplitl [H1]; · iexact H1
      isplitl [HN]; · iexact HN
      iexact Hlev
    · iexact Hx
  · iempintro

theorem phi0_intro (c : Dev nD) :
    iprop((start m c ∗ xPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀
  iintro ⟨⟨Hs, Hx⟩, -, ⟨%f, Hv⟩, ⟨%g, Hc⟩⟩
  isplitl [Hs]; · iexact Hs
  isplitl [Hx]; · iexact Hx
  isplitl [Hv]
  · iexists f; rw [xvPts_eq]; iexact Hv
  · iexists g; unfold commPts; iexact Hc

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, Gen.scopedRest0_eq, ownSems0_eq]
  unfold Φ₁
  iintro ⟨Hx, ⟨%f, Hv⟩, ⟨%g, Hc⟩, Hcopy, Hsr⟩
  isplitl [Hx]; · iexact Hx
  isplitl [Hcopy Hsr]
  · isplitl [Hcopy]; · iexact Hcopy
    iexact Hsr
  · isplitl [Hv]
    · iexists f; rw [← xvPts_eq]; iexact Hv
    · iexists g; unfold commPts; iexact Hc

/-- The result's staging semaphore is none of the ring's: level 0. -/
theorem Launch.lv_stage (c : Dev nD) (w : Fin (cfgs 0).W) (s : Fin ((cfgs 0).win w).nbuf) :
    lv ((c : Thread nD τ), SemLoc.dma (((cfgs 0).win w).sem s)) () = 0 := by
  have h : ∀ (w : Fin (cfgs 0).W) (s : Fin ((cfgs 0).win w).nbuf),
      roleOf (SemLoc.dma (((cfgs 0).win w).sem s) : SemLoc sig) = Role.idle := by decide
  unfold lv; rw [h w s]

/-- The one staging semaphore sits below everything a device owes at launch; after the point it owes nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (lv_stage c w s)
    · rw [show (dats m ρ 0 c).owed ⟨_ + 1, ht⟩ = 0 from rfl, MayWait_zero]; iintro -; iempintro

/-! ## The run -/

set_option maxRecDepth 8000 in
/-- At the compiled mesh of sixteen devices, for any float values, from any memory with zero counters, given the body
    proved on every device: every weakly fair execution of @main terminates, and every final state has each device's
    result array at the computed contents and its argument array unchanged. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := hbody) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(start m c ∗ xPts m c)) (Y := fun c => xPts m c) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      show iprop(xPts m c ∗ emp ∗ SI s') ⊢ _
      rw [xPts_eq]
      iintro ⟨Hx, -, HSI⟩
      icombine HSI Hx gives %hx
      imodintro
      isplitr; · ipureintro; exact Buf.eq_of_forall_mem_univ hx
      iexact HSI)
    (hQ := fun _ h c => ⟨fun w => (h c).1 w, (h c).2.2⟩)

/-- info: 'Cert.KernelIdeal.Coll.run_main' depends on axioms: [propext, Classical.choice, Quot.sound] -/
#guard_msgs in #print axioms run_main

end Cert.KernelIdeal.Coll

end
-- ==== Proof.KProtocol.lean ====
/-
  An all-reduce by maximum over sixteen devices on a ring of offsets. Device `c` holds rows
  [1024 c, 1024 c + 1024) of a [16384, 512] array. It takes the column maxima of its own block into
  slot 0 of a [16, 1, 512] scratch buffer, copies that slot into slot `d` of device `c + d`
  (mod 16) for every offset `d = 1 … 15`, and so receives in its own slot `d` the column maxima of
  device `c - d`; the maximum over the sixteen slots is the column maxima of the whole array.

  Before any copy a device must know that its target is inside the kernel: every device signals
  the barrier semaphore of each of the other fifteen and waits for fifteen units on its own.

  This module fixes the vocabulary of the protocol: the ring of offsets, the semaphore cells
  (one barrier cell of fifteen duties, one cell for the local copy, and per offset one send and
  one receive cell of one duty each), what each landing hands to the cell's owner, what each
  device owes at launch, and the levels that order the waits.
-/
import proofs.«900905_g7700000000000906_dist_max_ax0_shard0_i_m1024_n512_v7x_i16_f32_1_alg».proof.Proof.Gen.Kernel.Frame
import proofs.«900905_g7700000000000906_dist_max_ax0_shard0_i_m1024_n512_v7x_i16_f32_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

/-! ## The resource algebra: the pipeline's copy, and the ring's with duty names `Fin 16` -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of offsets -/

/-- The device `d` places further round the ring. -/
def rot (c : Dev nD) (d : Fin 16) : Dev nD := ⟨(c.val + d.val) % 16, Nat.mod_lt _ (by decide)⟩
/-- The opposite offset: `rot (rot c d) (neg d) = c`. -/
def neg (d : Fin 16) : Fin 16 := ⟨(16 - d.val) % 16, Nat.mod_lt _ (by decide)⟩

theorem rot_rot_neg (c : Dev nD) (d : Fin 16) : rot (rot c d) (neg d) = c := by revert c d; decide +kernel
theorem rot_neg_rot (c : Dev nD) (d : Fin 16) : rot (rot c (neg d)) d = c := by revert c d; decide +kernel
theorem neg_neg (d : Fin 16) : neg (neg d) = d := by revert d; decide
theorem neg_ne_zero {d : Fin 16} (h : d ≠ 0) : neg d ≠ 0 := by revert d; decide
theorem rot_zero (c : Dev nD) : rot c 0 = c := by revert c; decide
theorem rot_left_injective (d : Fin 16) : Function.Injective fun c : Dev nD => rot c d := by revert d; decide +kernel
theorem rot_ne_self (c : Dev nD) {d : Fin 16} (h : d ≠ 0) : rot c d ≠ c := by revert c d; decide +kernel
theorem rot_val (c : Dev nD) (d : Fin 16) : (rot c d).val = (c.val + d.val) % 16 := rfl

/-- Shifting every device by one offset permutes the devices. -/
def rotEquiv (d : Fin 16) : Dev nD ≃ Dev nD := ⟨fun c => rot c d, fun c => rot c (neg d), fun c => rot_rot_neg c d, fun c => rot_neg_rot c d⟩
/-- Negation permutes the offsets. -/
def negEquiv : Fin 16 ≃ Fin 16 := ⟨neg, neg, neg_neg, neg_neg⟩

/-! ## The semaphores and their cells -/

theorem inbS (d : Fin 16) : ∀ a, (![d.val] : Fin 1 → Nat) a + S1.size a ≤ S16.size a := by
  intro a; fin_cases a; simp [S1, S16] <;> omega

/-- The barrier semaphore of collective id 0 (the runtime's, not scoped); the semaphore of the local
    copy; the send and the receive semaphore of offset `d`. -/
abbrev barS : Sem sig := (SemArray.scalar (sig.barrier 0 rfl) : Sems sig S_).sem
abbrev copyS : DmaSems sig S_ := cc0_scratch2
def sendS (d : Fin 16) : DmaSems sig S_ := (cc0_scratch3.slice (Rect.unit (s := S16) ![d.val] S1.size (inbS d))).squeeze S_ Facts₀.squeezes_S1_S_
def recvS (d : Fin 16) : DmaSems sig S_ := (cc0_scratch4.slice (Rect.unit (s := S16) ![d.val] S1.size (inbS d))).squeeze S_ Facts₀.squeezes_S1_S_

theorem copyS_sem : copyS.sem = (1 : DmaSem sig) := by decide
theorem sendS_sem (d : Fin 16) : (sendS d).sem = (⟨2 + d.val, by have := d.isLt; show 2 + d.val < 34; omega⟩ : DmaSem sig) := by revert d; decide
theorem recvS_sem (d : Fin 16) : (recvS d).sem = (⟨18 + d.val, by have := d.isLt; show 18 + d.val < 34; omega⟩ : DmaSem sig) := by revert d; decide

abbrev barCell (c : Dev nD) : GSem nD τ sig := ((c : Thread nD τ), .reg barS)
abbrev copyCell (c : Dev nD) : GSem nD τ sig := ((c : Thread nD τ), .dma copyS.sem)
abbrev sendCell (c : Dev nD) (d : Fin 16) : GSem nD τ sig := ((c : Thread nD τ), .dma (sendS d).sem)
abbrev recvCell (c : Dev nD) (d : Fin 16) : GSem nD τ sig := ((c : Thread nD τ), .dma (recvS d).sem)

/-- What a semaphore is for. -/
inductive Role where
  | bar | copy | send (d : Fin 16) | recv (d : Fin 16) | idle
deriving DecidableEq

/-- The role of a cell's semaphore, read off its index: the DMA pool holds the copy's semaphore at 1, the
    send semaphores at 2 … 17 and the receive semaphores at 18 … 33; offset 0 of either array is never used. -/
def roleOf : SemLoc sig → Role
  | .reg s => if s = barS then .bar else .idle
  | .dma q =>
    if q.val = 1 then .copy
    else if h : 3 ≤ q.val ∧ q.val ≤ 17 then .send ⟨q.val - 2, by omega⟩
    else if h : 19 ≤ q.val ∧ q.val ≤ 33 then .recv ⟨q.val - 18, by omega⟩
    else .idle

theorem role_bar : roleOf (.reg barS : SemLoc sig) = .bar := by decide
theorem role_copy : roleOf (.dma copyS.sem : SemLoc sig) = .copy := by decide
theorem role_send {d : Fin 16} (h : d ≠ 0) : roleOf (.dma (sendS d).sem : SemLoc sig) = .send d := by revert d; decide
theorem role_recv {d : Fin 16} (h : d ≠ 0) : roleOf (.dma (recvS d).sem : SemLoc sig) = .recv d := by revert d; decide
theorem role_send0 : roleOf (.dma (sendS 0).sem : SemLoc sig) = .idle := by decide
theorem role_recv0 : roleOf (.dma (recvS 0).sem : SemLoc sig) = .idle := by decide

/-! ## The buffers -/

theorem inbM (d : Fin 16) : ∀ a, (![d.val, 0, 0] : Fin 3 → Nat) a + S1x1x512.size a ≤ S16x1x512.size a := by
  intro a; fin_cases a <;> simp [S1x1x512, S16x1x512] <;> omega

/-- The HBM block, its VMEM copy, the sixteen-slot buffer, the result's staging buffer. -/
abbrev xM : Memref sig .tc .hbm S1024x512 .f32 := Memref.whole main_arg0
abbrev xvM : Memref sig .tc .vmem S1024x512 .f32 := Memref.whole cc0_scratch0
abbrev commM : Memref sig .tc .vmem S16x1x512 .f32 := Memref.whole cc0_scratch1
abbrev outM : Memref sig .tc .vmem S1x512 .f32 := Memref.whole cc0_stg0_0
/-- Slot `d` of the sixteen-slot buffer, as a [1, 512] view. -/
@[reducible] def slotM (d : Fin 16) : Memref sig .tc .vmem S1x512 .f32 :=
  (commM.slice (Rect.unit (s := S16x1x512) ![d.val, 0, 0] S1x1x512.size (inbM d)) (fun _ => rfl)).squeeze S1x512 Facts₀.squeezes_S1x1x512_S1x512

/-- One slot's DMA credit; the block's. -/
abbrev N : ℕ := (slotM 0).view.dmaCredit
abbrev Nx : ℕ := (xvM : Memref sig .tc .vmem S1024x512 .f32).view.dmaCredit
theorem N_pos : 0 < N := View.dmaCredit_pos _ (by decide)
theorem Nx_pos : 0 < Nx := View.dmaCredit_pos _ (by decide)
theorem slot_credit (d : Fin 16) : (slotM d).view.dmaCredit = N := rfl

/-! ## Contents -/

/-- Device `c`'s block of the input. -/
def xin (c : Dev nD) : Vec F S1024x512 .f32 := m ((c : Thread nD τ).loc main_arg0)
/-- Its column maxima, as the kernel stores them into slot 0. -/
def bmax (c : Dev nD) : FVec F S1x1x512 .f32 := Gen.k0_pay1 (xin m c)
/-- What the sixteen-slot buffer of device `c` holds once every copy has landed: slot `d` the column maxima of the
    device `d` places before `c`. -/
def commFinal (c : Dev nD) : Buf (Elt F) ((c : Thread nD τ).loc cc0_scratch1) :=
  fun i => bmax m (rot c (neg (show Fin 16 from i 0))) (ValueIdx.ix3 (0 : Fin 1) (0 : Fin 1) (show Fin 512 from i 2))
/-- The result: the maximum over the sixteen slots. -/
def outAt (c : Dev nD) : (cc0_stg0_0 : Ref sig .tc).ty.Contents (Elt F) := Gen.k0_pay2 (commFinal m c)

/-! ## Holdings -/

/-- The read shares of slot 0: one per offset, lent to that offset's copy while it is in flight, and what is kept for
    the kernel's own load. -/
abbrev tok (d : Fin 16) : PosShare TreeShare := Transfers.shareTok fullShare 16 d
abbrev keep : PosShare TreeShare := Transfers.shareDrop fullShare 16

/-- Slot `d` of device `c`'s sixteen-slot buffer, held at share `q` at contents `f`. -/
def slotPts (c : Dev nD) (d : Fin 16) (q : PosShare TreeShare) (f : Buf (Elt F) ((c : Thread nD τ).loc cc0_scratch1)) : sProp 𝕄 :=
  (slotM d).view.loc (c : Thread nD τ) ↦[(slotM d).view.set]{q} f
/-- The block's VMEM copy, whole. -/
def xvPts (c : Dev nD) (f : Buf (Elt F) ((c : Thread nD τ).loc cc0_scratch0)) : sProp 𝕄 :=
  (xvM : Memref sig .tc .vmem S1024x512 .f32).view.loc (c : Thread nD τ) ↦[(xvM : Memref sig .tc .vmem S1024x512 .f32).view.set]{fullShare} f
/-- The block in HBM, whole, as launched. -/
def xPts (c : Dev nD) : sProp 𝕄 :=
  (xM : Memref sig .tc .hbm S1024x512 .f32).view.loc (c : Thread nD τ) ↦[(xM : Memref sig .tc .hbm S1024x512 .f32).view.set]{fullShare} m ((c : Thread nD τ).loc main_arg0)

instance slotPts_storable (c : Dev nD) (d : Fin 16) (q) (f) : BI.Storable (upEmb : UEmb _ 𝕄) (slotPts (F := F) c d q f) := by unfold slotPts; infer_instance
instance xvPts_storable (c : Dev nD) (f) : BI.Storable (upEmb : UEmb _ 𝕄) (xvPts (F := F) c f) := by unfold xvPts; infer_instance
instance xPts_storable (c : Dev nD) : BI.Storable (upEmb : UEmb _ 𝕄) (xPts (F := F) m c) := by unfold xPts; infer_instance

/-! ## The schedule: one round -/

/-- Duty `dn` of device `o`'s barrier cell is paid by the device `dn` places before it, `p = rot o (neg dn)`, whose
    `dn`-th signal it is. It hands `o` the slot of `p` that `o` will copy into — slot `neg dn`, since `p` is
    `neg dn` places after `o` — and that `p` has reached round 0 of that slot's receive cell. -/
def barPay (o : Dev nD) (dn : Fin 16) : sProp 𝕄 :=
  iprop((∃ f, slotPts (rot o (neg dn)) (neg dn) fullShare f) ∗ reached ER (recvCell (rot o (neg dn)) (neg dn)) 0)
/-- The local copy's landing: the VMEM copy holding the block, and the block back. -/
def copyPay (c : Dev nD) : sProp 𝕄 := iprop(xvPts c (xin m c) ∗ xPts m c)
/-- The send cell of offset `d`: that offset's read share of slot 0 back. -/
def sendPay (c : Dev nD) (d : Fin 16) : sProp 𝕄 := slotPts c 0 (tok d) (commFinal m c)
/-- The receive cell of offset `d`: slot `d` holding the column maxima of the device `d` places before. -/
def recvPay (c : Dev nD) (d : Fin 16) : sProp 𝕄 := slotPts c d fullShare (commFinal m c)

def Rd : Rounds.Schedule (GSem nD τ sig) (Fin 16) 𝕄 where
  duties g r :=
    if r = 0 ∧ g.1.2 = .tc then
      (match roleOf g.2 with
        | .bar => Finset.univ.erase 0
        | .copy => {0}
        | .send _ => {0}
        | .recv _ => {0}
        | .idle => ∅)
    else ∅
  unitless _ := False
  amount g _ _ := match roleOf g.2 with
    | .bar => 1
    | .copy => Nx
    | .send _ => N
    | .recv _ => N
    | .idle => N
  payload g _ dn := match roleOf g.2 with
    | .bar => barPay g.1.1 dn
    | .copy => copyPay m g.1.1
    | .send d => sendPay m g.1.1 d
    | .recv d => recvPay m g.1.1 d
    | .idle => iprop(emp)
  amount_pos g _ _ _ := by
    cases roleOf g.2 <;> first | exact Nat.one_pos | exact Nx_pos | exact N_pos

instance Rd_payload_storable (g : GSem nD τ sig) (r : ℕ) (dn : Fin 16) :
    BI.Storable (upEmb : UEmb _ 𝕄) ((Rd (F := F) m).payload g r dn) := by
  show BI.Storable upEmb (match roleOf g.2 with
    | .bar => barPay g.1.1 dn
    | .copy => copyPay m g.1.1
    | .send d => sendPay m g.1.1 d
    | .recv d => recvPay m g.1.1 d
    | .idle => iprop(emp))
  unfold barPay copyPay sendPay recvPay
  split <;> infer_instance

section Sched
variable (c : Dev nD)

theorem duties_bar : (Rd (F := F) m).duties (barCell c) 0 = Finset.univ.erase 0 := by
  dsimp only [Rd]; rw [if_pos ⟨rfl, rfl⟩, role_bar]
theorem duties_copy : (Rd (F := F) m).duties (copyCell c) 0 = {0} := by
  dsimp only [Rd]; rw [if_pos ⟨rfl, rfl⟩, role_copy]
theorem duties_send {d : Fin 16} (h : d ≠ 0) : (Rd (F := F) m).duties (sendCell c d) 0 = {0} := by
  dsimp only [Rd]; rw [if_pos ⟨rfl, rfl⟩, role_send h]
theorem duties_recv {d : Fin 16} (h : d ≠ 0) : (Rd (F := F) m).duties (recvCell c d) 0 = {0} := by
  dsimp only [Rd]; rw [if_pos ⟨rfl, rfl⟩, role_recv h]
theorem duties_send0 (r : ℕ) : (Rd (F := F) m).duties (sendCell c 0) r = ∅ := by
  dsimp only [Rd]; split
  · rw [role_send0]
  · rfl
theorem duties_recv0 (r : ℕ) : (Rd (F := F) m).duties (recvCell c 0) r = ∅ := by
  dsimp only [Rd]; split
  · rw [role_recv0]
  · rfl
theorem duties_later (g : GSem nD τ sig) : ∀ r, 1 ≤ r → (Rd (F := F) m).duties g r = ∅ :=
  fun r hr => by dsimp only [Rd]; rw [if_neg fun h => by omega]

theorem amount_bar (dn : Fin 16) : (Rd (F := F) m).amount (barCell c) 0 dn = 1 := by dsimp only [Rd]; rw [role_bar]
theorem amount_copy (dn : Fin 16) : (Rd (F := F) m).amount (copyCell c) 0 dn = Nx := by dsimp only [Rd]; rw [role_copy]
theorem amount_send {d : Fin 16} (h : d ≠ 0) (dn : Fin 16) : (Rd (F := F) m).amount (sendCell c d) 0 dn = N := by dsimp only [Rd]; rw [role_send h]
theorem amount_recv {d : Fin 16} (h : d ≠ 0) (dn : Fin 16) : (Rd (F := F) m).amount (recvCell c d) 0 dn = N := by dsimp only [Rd]; rw [role_recv h]

theorem expect_bar : (Rd (F := F) m).expect (barCell c) 0 = 15 := by
  unfold Schedule.expect Schedule.amountOf
  rw [duties_bar, Finset.sum_congr rfl fun d _ => amount_bar m c d, Finset.sum_const, smul_eq_mul, mul_one]
  decide
theorem expect_of_singleton {g : GSem nD τ sig} {d0 : Fin 16} (hd : (Rd (F := F) m).duties g 0 = {d0}) :
    (Rd (F := F) m).expect g 0 = (Rd (F := F) m).amount g 0 d0 := by
  unfold Schedule.expect Schedule.amountOf; rw [hd, Finset.sum_singleton]
theorem expect_copy : (Rd (F := F) m).expect (copyCell c) 0 = Nx :=
  (expect_of_singleton m (duties_copy m c)).trans (amount_copy m c 0)
theorem expect_send {d : Fin 16} (h : d ≠ 0) : (Rd (F := F) m).expect (sendCell c d) 0 = N :=
  (expect_of_singleton m (duties_send m c h)).trans (amount_send m c h 0)
theorem expect_recv {d : Fin 16} (h : d ≠ 0) : (Rd (F := F) m).expect (recvCell c d) 0 = N :=
  (expect_of_singleton m (duties_recv m c h)).trans (amount_recv m c h 0)

theorem payload_bar (dn : Fin 16) : (Rd (F := F) m).payload (barCell c) 0 dn = barPay c dn := by dsimp only [Rd]; rw [role_bar]
theorem payload_copy (dn : Fin 16) : (Rd (F := F) m).payload (copyCell c) 0 dn = copyPay m c := by dsimp only [Rd]; rw [role_copy]
theorem payload_send {d : Fin 16} (h : d ≠ 0) (dn : Fin 16) : (Rd (F := F) m).payload (sendCell c d) 0 dn = sendPay m c d := by
  dsimp only [Rd]; rw [role_send h]
theorem payload_recv {d : Fin 16} (h : d ≠ 0) (dn : Fin 16) : (Rd (F := F) m).payload (recvCell c d) 0 dn = recvPay m c d := by
  dsimp only [Rd]; rw [role_recv h]

/-- The rest of a round none of whose duties has been taken. -/
theorem rest_bar : bigSep ((Rd (F := F) m).duties (barCell c) 0 \ ∅) (fun dn => (Rd (F := F) m).payload (barCell c) 0 dn)
    = bigSep (Finset.univ.erase (0 : Fin 16)) (fun dn => barPay (F := F) c dn) := by
  rw [Finset.sdiff_empty, duties_bar]; exact bigSep_congr fun dn _ => payload_bar m c dn
theorem rest_copy : bigSep ((Rd (F := F) m).duties (copyCell c) 0 \ ∅) (fun dn => (Rd (F := F) m).payload (copyCell c) 0 dn) = copyPay m c := by
  rw [Finset.sdiff_empty, duties_copy, bigSep_singleton, payload_copy]
theorem rest_send {d : Fin 16} (h : d ≠ 0) :
    bigSep ((Rd (F := F) m).duties (sendCell c d) 0 \ ∅) (fun dn => (Rd (F := F) m).payload (sendCell c d) 0 dn) = sendPay m c d := by
  rw [Finset.sdiff_empty, duties_send m c h, bigSep_singleton, payload_send m c h]
theorem rest_recv {d : Fin 16} (h : d ≠ 0) :
    bigSep ((Rd (F := F) m).duties (recvCell c d) 0 \ ∅) (fun dn => (Rd (F := F) m).payload (recvCell c d) 0 dn) = recvPay m c d := by
  rw [Finset.sdiff_empty, duties_recv m c h, bigSep_singleton, payload_recv m c h]

end Sched

/-! ## What each device owes at launch; the levels -/

/-- The offsets after `j`: those whose signal (or copy) is still to come once the first `j` are done. -/
def above (j : ℕ) : Finset (Fin 16) := Finset.univ.filter fun d => j < d.val

theorem above_pred {j : Fin 16} (h : j ≠ 0) : above (j.val - 1) = insert j (above j.val) := by revert j; decide
theorem not_mem_above_self (j : Fin 16) : j ∉ above j.val := by revert j; decide
theorem above_15 : above 15 = ∅ := by decide
theorem above_0 : above 0 = Finset.univ.erase 0 := by decide
theorem ne_zero_of_mem_above {j : ℕ} {d : Fin 16} (h : d ∈ above j) : d ≠ 0 := by
  rintro rfl; simp [above] at h

/-- After `j` copies: the credit of slot `d` of the device `d` places on, for every later offset `d`. -/
def owedRecv (c : Dev nD) (j : ℕ) : CellTallies nD τ sig Unit := ∑ d ∈ above j, tallyAt (recvCell (rot c d) d) () N
/-- After `j` signals: one unit of the barrier cell of the device `d` places on, for every later offset `d`. -/
def owedBar (c : Dev nD) (j : ℕ) : CellTallies nD τ sig Unit := ∑ d ∈ above j, tallyAt (barCell (rot c d)) () 1
/-- At launch: all of both. -/
def O₀ (c : Dev nD) : CellTallies nD τ sig Unit := owedRecv c 0 + owedBar c 0

theorem owedBar_peel (c : Dev nD) {j : Fin 16} (h : j ≠ 0) :
    owedBar c (j.val - 1) = owedBar c j.val + tallyAt (barCell (rot c j)) () 1 := by
  unfold owedBar; rw [above_pred h, Finset.sum_insert (not_mem_above_self j), add_comm]
theorem owedRecv_peel (c : Dev nD) {j : Fin 16} (h : j ≠ 0) :
    owedRecv c (j.val - 1) = owedRecv c j.val + tallyAt (recvCell (rot c j) j) () N := by
  unfold owedRecv; rw [above_pred h, Finset.sum_insert (not_mem_above_self j), add_comm]
theorem owedBar_15 (c : Dev nD) : owedBar c 15 = 0 := by unfold owedBar; rw [above_15, Finset.sum_empty]
theorem owedRecv_15 (c : Dev nD) : owedRecv c 15 = 0 := by unfold owedRecv; rw [above_15, Finset.sum_empty]

def L (g : GSem nD τ sig) : Finset Unit := if g.1.2 = .tc then {()} else ∅
/-- Barrier cells at 1, receive cells at 2, everything else (staging, the local copy, the send cells) at 0: a device waits
    on its barrier owing only receive credit, and on everything else at level 0 or owing nothing. -/
def lv (g : GSem nD τ sig) (_ : Unit) : ℕ := match roleOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c : Dev nD) {d : Fin 16} (h : d ≠ 0) : lv (recvCell c d) () = 2 := by unfold lv; rw [role_recv h]
theorem lv_copy (c : Dev nD) : lv (copyCell c) () = 0 := by unfold lv; rw [role_copy]
theorem lv_send (c : Dev nD) {d : Fin 16} (h : d ≠ 0) : lv (sendCell c d) () = 0 := by unfold lv; rw [role_send h]

theorem owedRecv_pos {c : Dev nD} {j : ℕ} {g : GSem nD τ sig} {u : Unit} (h : 0 < owedRecv c j g u) :
    ∃ d ∈ above j, g = recvCell (rot c d) d := by
  obtain ⟨d, hd, hp⟩ := Pipeline.sum_pos_exists h
  refine ⟨d, hd, ?_⟩
  rw [tallyAt_apply] at hp
  by_contra hn
  rw [if_neg (fun h' => hn h'.1)] at hp
  exact Nat.lt_irrefl 0 hp
theorem owedBar_pos {c : Dev nD} {j : ℕ} {g : GSem nD τ sig} {u : Unit} (h : 0 < owedBar c j g u) :
    ∃ d ∈ above j, g = barCell (rot c d) := by
  obtain ⟨d, hd, hp⟩ := Pipeline.sum_pos_exists h
  refine ⟨d, hd, ?_⟩
  rw [tallyAt_apply] at hp
  by_contra hn
  rw [if_neg (fun h' => hn h'.1)] at hp
  exact Nat.lt_irrefl 0 hp

/-- A wait on cell `sm` of device `c` while it owes `O`, every cell of which sits strictly above `sm`. -/
theorem mayWait_of_above (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨by cases u; unfold L; rw [if_pos (h g () hg).1]; exact Finset.mem_singleton_self _, by cases u; exact (h g () hg).2⟩)

/-- Owing receive credit only, a device may wait on any of its cells below the receive level. -/
theorem mayWait_owedRecv (c : Dev nD) (sm : SemLoc sig) (j : ℕ) (hsm : lv ((c : Thread nD τ), sm) () < 2) :
    (levAts L lv : sProp 𝕄) ⊢ MayWait (c : Thread nD τ) sm () (owedRecv c j) :=
  mayWait_of_above c sm _ fun g u hg => by
    obtain ⟨d, hd, rfl⟩ := owedRecv_pos hg
    exact ⟨rfl, by rw [lv_recv _ (ne_zero_of_mem_above hd)]; exact hsm⟩

/-- Owing anything it owes at launch or later, a device may wait on any of its cells at level 0. -/
theorem mayWait_O₀ (c : Dev nD) (sm : SemLoc sig) (hsm : lv ((c : Thread nD τ), sm) () = 0) :
    (levAts L lv : sProp 𝕄) ⊢ MayWait (c : Thread nD τ) sm () (O₀ c) :=
  mayWait_of_above c sm _ fun g u hg => by
    rcases Pipeline.add_pos_cases hg with hg | hg
    · obtain ⟨d, hd, rfl⟩ := owedRecv_pos hg
      exact ⟨rfl, by rw [lv_recv _ (ne_zero_of_mem_above hd), hsm]; decide⟩
    · obtain ⟨d, hd, rfl⟩ := owedBar_pos hg
      exact ⟨rfl, by rw [lv_bar, hsm]; decide⟩

/-! ## Every cell of the program, by device and index -/

/-- Index 0 is the barrier semaphore; index `k ≥ 1` is DMA semaphore `k` (1 the local copy's, 2 + d the send semaphore and
    18 + d the receive semaphore of offset `d`). DMA semaphore 0 is the result window's staging semaphore, the pipeline's. -/
abbrev csem (k : Fin 34) : SemLoc sig := if k = 0 then .reg barS else .dma (show DmaSem sig from k)
abbrev kcell (ck : Dev nD × Fin 34) : GSem nD τ sig := ((ck.1 : Thread nD τ), csem ck.2)
/-- The kernel's own (scoped) semaphores: the thirty-three DMA semaphores of its scratch operands. -/
abbrev osem (k : Fin 33) : SemLoc sig := .dma (show DmaSem sig from k.succ)

abbrev sendIx (d : Fin 16) : Fin 34 := ⟨2 + d.val, by omega⟩
abbrev recvIx (d : Fin 16) : Fin 34 := ⟨18 + d.val, by omega⟩

theorem kcell_bar (c : Dev nD) : kcell (c, 0) = barCell c := rfl
theorem kcell_copy (c : Dev nD) : kcell (c, 1) = copyCell c := by
  show ((c : Thread nD τ), csem 1) = _; rw [show csem 1 = SemLoc.dma copyS.sem from by decide]
theorem kcell_send (c : Dev nD) (d : Fin 16) : kcell (c, sendIx d) = sendCell c d := by
  show ((c : Thread nD τ), csem (sendIx d)) = _; rw [show csem (sendIx d) = SemLoc.dma (sendS d).sem from by revert d; decide]
theorem kcell_recv (c : Dev nD) (d : Fin 16) : kcell (c, recvIx d) = recvCell c d := by
  show ((c : Thread nD τ), csem (recvIx d)) = _; rw [show csem (recvIx d) = SemLoc.dma (recvS d).sem from by revert d; decide]

/-- The cells' invariants under the names `K` the launch allocated them at, and that every cell's round 0 is reached:
    persistent, so every device holds them all. -/
def records (K : Dev nD × Fin 34 → ℕ) : sProp 𝕄 :=
  iprop((bigSep Finset.univ fun ck : Dev nD × Fin 34 => cellInv ER (Rd m) (K ck) (kcell ck))
    ∗ bigSep Finset.univ fun ck : Dev nD × Fin 34 => reached ER (kcell ck) 0)

instance records_persistent (K : Dev nD × Fin 34 → ℕ) : BI.Persistent (records (F := F) m K) := by unfold records; infer_instance

theorem invs_at (K : Dev nD × Fin 34 → ℕ) (ck : Dev nD × Fin 34) :
    (bigSep Finset.univ fun ck : Dev nD × Fin 34 => (cellInv ER (Rd m) (K ck) (kcell ck) : sProp 𝕄)) ⊢ cellInv ER (Rd m) (K ck) (kcell ck) :=
  bigSep_elim (Finset.mem_univ ck)
theorem reacheds_at (ck : Dev nD × Fin 34) :
    (bigSep Finset.univ fun ck : Dev nD × Fin 34 => (reached ER (kcell ck) 0 : sProp 𝕄)) ⊢ reached ER (kcell ck) 0 :=
  bigSep_elim (Finset.mem_univ ck)
theorem inv_at (K : Dev nD × Fin 34 → ℕ) (ck : Dev nD × Fin 34) : records (F := F) m K ⊢ cellInv ER (Rd m) (K ck) (kcell ck) := by
  unfold records; iintro ⟨HI, -⟩; iapply (invs_at m K ck); iexact HI
theorem reached_at (K : Dev nD × Fin 34 → ℕ) (ck : Dev nD × Fin 34) : records (F := F) m K ⊢ reached ER (kcell ck) 0 := by
  unfold records; iintro ⟨-, HR⟩; iapply (reacheds_at (F := F) ck); iexact HR

/-- What device `c` alone holds of the ring's ghost state: its position at the start of each of its cells; the token of the
    local copy's duty; and per offset `d` the tokens of the three duties it pays — duty `d` of the barrier cell of the device
    `d` places on, its own send cell's, and the receive cell's of slot `d` there. -/
def linear (c : Dev nD) : sProp 𝕄 :=
  iprop(atPos ER (barCell c) 0 ∅ 0 ∗ atPos ER (copyCell c) 0 ∅ 0 ∗ dutyTok ER (copyCell c) 0 0
    ∗ (bigSep Finset.univ fun d : Fin 16 => iprop(atPos ER (sendCell c d) 0 ∅ 0 ∗ atPos ER (recvCell c d) 0 ∅ 0))
    ∗ bigSep (Finset.univ.erase (0 : Fin 16)) fun d =>
        iprop(dutyTok ER (barCell (rot c d)) 0 d ∗ dutyTok ER (sendCell c d) 0 0 ∗ dutyTok ER (recvCell (rot c d) d) 0 0))

def ghost (K : Dev nD × Fin 34 → ℕ) (c : Dev nD) : sProp 𝕄 := iprop(records m K ∗ linear c)

/-- What device `c`'s body starts from: that at some names; the launch credit of its barrier cell (fifteen units) and of
    each receive cell; the level facts. -/
def start (c : Dev nD) : sProp 𝕄 :=
  iprop((∃ K, ghost m K c) ∗ cred (tallyAt (barCell c) () 15)
    ∗ (bigSep (Finset.univ.erase (0 : Fin 16)) fun d => cred (tallyAt (recvCell c d) () N)) ∗ levAts L lv)

/-- The sixteen-slot buffer, whole. -/
def commPts (c : Dev nD) (f : Buf (Elt F) ((c : Thread nD τ).loc cc0_scratch1)) : sProp 𝕄 :=
  ((c : Thread nD τ).loc cc0_scratch1) ↦{fullShare} f

/-- Before the point: the start, the block in HBM as launched, the two scratch buffers at whatever they hold. -/
def Φ₀ (c : Dev nD) : sProp 𝕄 := iprop(start m c ∗ xPts m c ∗ (∃ f, xvPts c f) ∗ (∃ f, commPts c f))
/-- After it: the same three buffers, and every semaphore of the kernel's own at zero, its cell closed. -/
def Φ₁ (c : Dev nD) : sProp 𝕄 :=
  iprop(xPts m c ∗ (∃ f, xvPts c f) ∗ (∃ f, commPts c f) ∗ semVal (copyCell c) 0
    ∗ bigSep Finset.univ fun d : Fin 16 => iprop(semVal (sendCell c d) 0 ∗ semVal (recvCell c d) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Coll

end
-- ==== Proof.KFrags.lean ====
/-
  The kernel body as a composition of stretches: the fifteen barrier signals, the local stretch (the copy of the
  block into VMEM, its wait, the column maxima stored into slot 0), the barrier wait, the fifteen copies, the fifteen
  receive waits, the final stretch (the maximum over the slots stored into the result), the fifteen send waits.
  The four unrolled stretches are defined by recursion over the list of offsets, so that one induction proves each.
-/
import proofs.«900905_g7700000000000906_dist_max_ax0_shard0_i_m1024_n512_v7x_i16_f32_1_alg».proof.Proof.KProtocol

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- Programs of the kernel's body. -/
abbrev P (F : FTy → Type) [FloatOps F] (α : Type) : Type 1 := Prog (TpuEff nD τ sig (Elt F) Λ₀ .tc) α

/-- The weakest precondition of a stretch on device `c`. -/
abbrev WP (c : Dev nD) {α : Type} (p : P F α) (Q : α → sProp 𝕄) : sProp 𝕄 :=
  wp frame (wpE (defs₀ (F := F)) 𝒱₀ (c : Thread nD τ) none) Set.univ p Q

/-- Owing `O`, whatever waits are on record. -/
def owesE (c : Dev nD) (O : CellTallies nD τ sig Unit) : sProp 𝕄 := iprop(∃ W, owes (c : Thread nD τ) O W)

/-- Splitting the head off an iterated conjunction, in the form the proof mode destructs. -/
theorem bigSep_cons {I : Type} [DecidableEq I] {s : Finset I} {i : I} (hi : i ∉ s) (Φ : I → sProp 𝕄) :
    bigSep (insert i s) Φ = iprop(Φ i ∗ bigSep s Φ) := bigSep_insert hi

/-- The offsets, in the order the kernel unrolls them. -/
abbrev offs : List (Fin 16) := [1, 2, 3, 4, 5, 6, 7, 8, 9, 10, 11, 12, 13, 14, 15]

variable {α : Type}

/-- One unit to the barrier semaphore of the device `d` places on, for each offset of the list. -/
def sigsP (c : Dev nD) : List (Fin 16) → P F α → P F α
  | [], k => k
  | d :: ds, k => Prog.op (.semSignal ((rot c d : Dev nD) : Thread nD τ) barS 1) fun _ => sigsP c ds k

theorem slot_wordExact (d : Fin 16) : (slotM d).view.WordExact := (View.wordExact_bits rfl).reshape _ _

/-- The devices the fifteen copies address, as the kernel computes them (entry 0 is not used). -/
def sendDev (c : Dev nD) : Fin 16 → Dev nD :=
  ![c, ⟨k0_dev16 c, Facts₀.k0_dev16_lt c⟩, ⟨k0_dev17 c, Facts₀.k0_dev17_lt c⟩, ⟨k0_dev18 c, Facts₀.k0_dev18_lt c⟩, ⟨k0_dev19 c, Facts₀.k0_dev19_lt c⟩,
    ⟨k0_dev20 c, Facts₀.k0_dev20_lt c⟩, ⟨k0_dev21 c, Facts₀.k0_dev21_lt c⟩, ⟨k0_dev22 c, Facts₀.k0_dev22_lt c⟩, ⟨k0_dev23 c, Facts₀.k0_dev23_lt c⟩,
    ⟨k0_dev24 c, Facts₀.k0_dev24_lt c⟩, ⟨k0_dev25 c, Facts₀.k0_dev25_lt c⟩, ⟨k0_dev26 c, Facts₀.k0_dev26_lt c⟩, ⟨k0_dev27 c, Facts₀.k0_dev27_lt c⟩,
    ⟨k0_dev28 c, Facts₀.k0_dev28_lt c⟩, ⟨k0_dev29 c, Facts₀.k0_dev29_lt c⟩, ⟨k0_dev30 c, Facts₀.k0_dev30_lt c⟩]

/-- They are the devices `d` places on. -/
theorem sendDev_eq (c : Dev nD) : sendDev c = rot c := by
  funext d
  fin_cases d <;> apply Fin.ext <;>
    simp [sendDev, rot_val, Gen.k0_dev16_eq c, Gen.k0_dev17_eq c, Gen.k0_dev18_eq c, Gen.k0_dev19_eq c, Gen.k0_dev20_eq c, Gen.k0_dev21_eq c,
      Gen.k0_dev22_eq c, Gen.k0_dev23_eq c, Gen.k0_dev24_eq c, Gen.k0_dev25_eq c, Gen.k0_dev26_eq c, Gen.k0_dev27_eq c, Gen.k0_dev28_eq c,
      Gen.k0_dev29_eq c, Gen.k0_dev30_eq c] <;>
    exact (Nat.mod_eq_of_lt c.isLt).symm

/-- Slot 0 copied into slot `d` of the device `dv d`, for each offset of the list. -/
def sendsP (dv : Fin 16 → Dev nD) : List (Fin 16) → P F α → P F α
  | [], k => k
  | d :: ds, k =>
    Prog.op (.enqueueDma (slotM 0) (.remote (Dev.tc (dv d)) (slotM d) (.dma (sendS d).sem) rfl) (.dma (recvS d).sem)
      (slot_wordExact 0) (slot_wordExact d) ⟨⟨rfl, Or.inl rfl⟩, trivial⟩) fun _ => sendsP dv ds k

/-- The wait for the copy into slot `d`, for each offset of the list. -/
def recvWaitsP : List (Fin 16) → P F α → P F α
  | [], k => k
  | d :: ds, k => Prog.op (.waitDma2 (recvS d).sem (slotM 0) (slotM d) (slot_wordExact 0) (slot_wordExact d)) fun _ => recvWaitsP ds k

/-- The wait for the copy out of slot 0 at offset `d` to have read its source, for each offset of the list. -/
def sendWaitsP : List (Fin 16) → P F α → P F α
  | [], k => k
  | d :: ds, k => Prog.op (.waitDma2 (sendS d).sem (slotM d) (slotM 0) (slot_wordExact d) (slot_wordExact 0)) fun _ => sendWaitsP ds k

/-- The local stretch: the block copied into VMEM and waited for, loaded; slot 0 loaded (the value is not used) and
    stored with the block's column maxima. -/
def localP (k : P F α) : P F α :=
  Prog.op (.enqueueDma xM (.here xvM) (.dma copyS.sem) (Memref.isWhole_whole _).wordExact (Memref.isWhole_whole _).wordExact ⟨Or.inl rfl, trivial⟩) fun _ =>
  Prog.op (.waitDma2 copyS.sem xM xvM (Memref.isWhole_whole _).wordExact (Memref.isWhole_whole _).wordExact) fun _ =>
  Prog.op (.load xvM (Rect.unit (s := S1024x512) ![0, 0] S1024x512.size Facts₀.inb_S1024x512_S1024x512_0_0).toLoadRect (View.loadsAt_vmem Facts₀.h_S1024x512)) fun v =>
  Prog.op (.load commM (Rect.unit (s := S16x1x512) ![0, 0, 0] S1x1x512.size Facts₀.inb_S16x1x512_S1x1x512_0_0_0).toLoadRect (View.loadsAt_vmem Facts₀.h_S1x1x512)) fun _ =>
  Prog.op (.store commM (Rect.unit (s := S16x1x512) ![0, 0, 0] S1x1x512.size Facts₀.inb_S16x1x512_S1x1x512_0_0_0) (Gen.k0_pay1 v) Finset.univ
    (View.stores_vmem_bits_univ Facts₀.h_S1x1x512 rfl) (.inl rfl)) fun _ => k

/-- The barrier wait: fifteen units. -/
def barWaitP (k : P F α) : P F α := Prog.op (.semWait barS 15) fun _ => k

/-- The final stretch: all sixteen slots loaded; the result's staging buffer loaded (the value is not used) and stored
    with the maximum over the slots. -/
def finalP (k : P F α) : P F α :=
  Prog.op (.load commM (Rect.unit (s := S16x1x512) ![0, 0, 0] S16x1x512.size Facts₀.inb_S16x1x512_S16x1x512_0_0_0).toLoadRect (View.loadsAt_vmem Facts₀.h_S16x1x512)) fun v =>
  Prog.op (.load outM (Rect.unit (s := S1x512) ![0, 0] S1x512.size Facts₀.inb_S1x512_S1x512_0_0).toLoadRect (View.loadsAt_vmem Facts₀.h_S1x512)) fun _ =>
  Prog.op (.store outM (Rect.unit (s := S1x512) ![0, 0] S1x512.size Facts₀.inb_S1x512_S1x512_0_0) (Gen.k0_pay2 v) Finset.univ
    (View.stores_vmem_bits_univ Facts₀.h_S1x512 rfl) (.inl rfl)) fun _ => k

/-- The whole body on device `c`. -/
def bodyP (c : Dev nD) : P F PUnit :=
  sigsP c offs (localP (barWaitP (sendsP (sendDev c) offs (recvWaitsP offs (finalP (sendWaitsP offs (Prog.ret ⟨⟩)))))))

set_option maxRecDepth 65536 in
set_option maxHeartbeats 2000000 in
/-- The printed body, on the buffers the pipeline calls it with, is that composition. -/
theorem body_eq (c : Dev nD) (Kt : PUnit → sProp 𝕄) :
    wp frame (wpE (defs₀ (F := F)) 𝒱₀ (c : Thread nD τ) none) Set.univ
      (cc0_body (Memref.whole main_arg0) (Memref.isWhole_whole _) (Memref.whole cc0_stg0_0) (Memref.isWhole_whole _)
        (Memref.whole cc0_scratch0) (Memref.isWhole_whole _) (Memref.whole cc0_scratch1) (Memref.isWhole_whole _) cc0_scratch2 cc0_scratch3 cc0_scratch4) Kt
    = WP c (bodyP (F := F) c) Kt := by
  simp only [Gen.cc0_body_eq_skeleton]; unfold Gen.cc0_body_skel
  simp only [Gen.k0_part1_eq_skeleton, Gen.k0_part2_eq_skeleton, Gen.k0_part3_eq_skeleton, Gen.k0_part4_eq_skeleton, Gen.k0_part5_eq_skeleton,
    Gen.k0_part6_eq_skeleton, Gen.k0_part7_eq_skeleton, Gen.k0_part8_eq_skeleton, Gen.k0_part9_eq_skeleton, Gen.k0_part10_eq_skeleton,
    Gen.k0_part11_eq_skeleton, Gen.k0_part12_eq_skeleton, Gen.k0_part13_eq_skeleton, Gen.k0_part14_eq_skeleton, Gen.k0_part15_eq_skeleton,
    Gen.k0_part16_eq_skeleton, Gen.k0_part17_eq_skeleton, Gen.k0_part18_eq_skeleton]
  unfold Gen.k0_part1_skel Gen.k0_part2_skel Gen.k0_part3_skel Gen.k0_part4_skel Gen.k0_part5_skel Gen.k0_part6_skel Gen.k0_part7_skel Gen.k0_part8_skel Gen.k0_part9_skel
    Gen.k0_part10_skel Gen.k0_part11_skel Gen.k0_part12_skel Gen.k0_part13_skel Gen.k0_part14_skel Gen.k0_part15_skel Gen.k0_part16_skel Gen.k0_part17_skel Gen.k0_part18_skel
  simp only [semSignalWord, semWaitWord, Prog.lift, Prog.bind_op, Prog.bind_ret, Prog.pure_eq_ret, wp_deviceId]
  simp only [Gen.k0_dev1_eq c, Gen.k0_dev2_eq c, Gen.k0_dev3_eq c, Gen.k0_dev4_eq c, Gen.k0_dev5_eq c, Gen.k0_dev6_eq c, Gen.k0_dev7_eq c, Gen.k0_dev8_eq c,
    Gen.k0_dev9_eq c, Gen.k0_dev10_eq c, Gen.k0_dev11_eq c, Gen.k0_dev12_eq c, Gen.k0_dev13_eq c, Gen.k0_dev14_eq c, Gen.k0_dev15_eq c, Gen.k0_dev16_eq c,
    Gen.k0_dev17_eq c, Gen.k0_dev18_eq c, Gen.k0_dev19_eq c, Gen.k0_dev20_eq c, Gen.k0_dev21_eq c, Gen.k0_dev22_eq c, Gen.k0_dev23_eq c, Gen.k0_dev24_eq c,
    Gen.k0_dev25_eq c, Gen.k0_dev26_eq c, Gen.k0_dev27_eq c, Gen.k0_dev28_eq c, Gen.k0_dev29_eq c, Gen.k0_dev30_eq c]
  rfl

end Cert.Kernel.Coll

end
-- ==== Proof.KRegroup.lean ====
/-
  Regroupings the body's stretches are joined with: the list of offsets against the set of the nonzero ones, a family
  over the nonzero offsets read at the opposite offset, what a device owes at launch as sums over the list, and the
  closing of the kernel's own semaphores: each cell's owner, past the cell's one round (the two cells of offset 0
  have none), takes the counter back at zero.
-/
import proofs.«900905_g7700000000000906_dist_max_ax0_shard0_i_m1024_n512_v7x_i16_f32_1_alg».proof.Proof.KFrags

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-! ## The offsets -/

theorem offs_toFinset : offs.toFinset = Finset.univ.erase (0 : Fin 16) := by decide
theorem offs_nodup : offs.Nodup := by decide
theorem offs_ne_zero : ∀ d ∈ offs, d ≠ 0 := by decide

/-- The opposite offset permutes the nonzero offsets. -/
theorem bigSep_erase0_neg (Φ : Fin 16 → sProp 𝕄) :
    bigSep (Finset.univ.erase (0 : Fin 16)) (fun d => Φ (neg d)) = bigSep (Finset.univ.erase (0 : Fin 16)) Φ := by
  have h : (Finset.univ.erase (0 : Fin 16)).map negEquiv.toEmbedding = Finset.univ.erase 0 := by decide
  calc bigSep (Finset.univ.erase (0 : Fin 16)) (fun d => Φ (neg d))
      = bigSep ((Finset.univ.erase (0 : Fin 16)).map negEquiv.toEmbedding) Φ := (bigSep_map negEquiv.toEmbedding).symm
    _ = bigSep (Finset.univ.erase (0 : Fin 16)) Φ := by rw [h]

theorem owedBar_offs (c : Dev nD) : (∑ d ∈ offs.toFinset, tallyAt (barCell (rot c d)) () 1) = owedBar c 0 := by
  unfold owedBar; rw [offs_toFinset, above_0]
theorem owedRecv_offs (c : Dev nD) : (∑ d ∈ offs.toFinset, tallyAt (recvCell (rot c d) d) () N) = owedRecv c 0 := by
  unfold owedRecv; rw [offs_toFinset, above_0]

/-! ## Closing the kernel's own cells -/

/-- The owner of a cell, at a round from which no round has a duty and having taken nothing of it, takes the counter
    back at zero. -/
theorem close_at (K : Dev nD × Fin 34 → ℕ) (ck : Dev nD × Fin 34) {R : ℕ} (hR : ∀ r, R ≤ r → (Rd (F := F) m).duties (kcell ck) r = ∅) :
    iprop(records m K ∗ atPos ER (kcell ck) R ∅ 0) ⊢ (|={Set.univ}=> semVal (kcell ck) 0 : sProp 𝕄) := by
  iintro ⟨#HR, Hat⟩
  iapply (Rounds.cell_close ER (Rd m) (κ := K ck) (Es := Set.univ) (Set.mem_univ _) (fun h => h) hR)
  isplitr
  · iapply (inv_at m K ck); iexact HR
  iexact Hat

theorem close_copy (K : Dev nD × Fin 34 → ℕ) (c : Dev nD) :
    iprop(records m K ∗ atPos ER (copyCell c) 1 ∅ 0) ⊢ (|={Set.univ}=> semVal (copyCell c) 0 : sProp 𝕄) := by
  rw [← kcell_copy c]; exact close_at m K (c, 1) (duties_later m _)
theorem close_send (K : Dev nD × Fin 34 → ℕ) (c : Dev nD) (d : Fin 16) :
    iprop(records m K ∗ atPos ER (sendCell c d) 1 ∅ 0) ⊢ (|={Set.univ}=> semVal (sendCell c d) 0 : sProp 𝕄) := by
  rw [← kcell_send c d]; exact close_at m K (c, sendIx d) (duties_later m _)
theorem close_recv (K : Dev nD × Fin 34 → ℕ) (c : Dev nD) (d : Fin 16) :
    iprop(records m K ∗ atPos ER (recvCell c d) 1 ∅ 0) ⊢ (|={Set.univ}=> semVal (recvCell c d) 0 : sProp 𝕄) := by
  rw [← kcell_recv c d]; exact close_at m K (c, recvIx d) (duties_later m _)
theorem close_send0 (K : Dev nD × Fin 34 → ℕ) (c : Dev nD) :
    iprop(records m K ∗ atPos ER (sendCell c 0) 0 ∅ 0) ⊢ (|={Set.univ}=> semVal (sendCell c 0) 0 : sProp 𝕄) := by
  have h := close_at m K (c, sendIx 0) (R := 0) (by rw [kcell_send]; exact fun r _ => duties_send0 m c r)
  rw [kcell_send] at h; exact h
theorem close_recv0 (K : Dev nD × Fin 34 → ℕ) (c : Dev nD) :
    iprop(records m K ∗ atPos ER (recvCell c 0) 0 ∅ 0) ⊢ (|={Set.univ}=> semVal (recvCell c 0) 0 : sProp 𝕄) := by
  have h := close_at m K (c, recvIx 0) (R := 0) (by rw [kcell_recv]; exact fun r _ => duties_recv0 m c r)
  rw [kcell_recv] at h; exact h

/-- The counters of one device's cells: offset 0 put back among the others. -/
theorem sems_join (c : Dev nD) :
    iprop(semVal (copyCell c) 0 ∗ semVal (sendCell c 0) 0 ∗ semVal (recvCell c 0) 0
        ∗ (bigSep (Finset.univ.erase (0 : Fin 16)) fun d => semVal (sendCell c d) 0)
        ∗ (bigSep (Finset.univ.erase (0 : Fin 16)) fun d => semVal (recvCell c d) 0))
      ⊢ (iprop(semVal (copyCell c) 0 ∗ bigSep Finset.univ fun d : Fin 16 => iprop(semVal (sendCell c d) 0 ∗ semVal (recvCell c d) 0)) : sProp 𝕄) := by
  rw [bigSep_sep', bigSep_univ_at (fun d : Fin 16 => (semVal (sendCell c d) 0 : sProp 𝕄)) 0,
    bigSep_univ_at (fun d : Fin 16 => (semVal (recvCell c d) 0 : sProp 𝕄)) 0]
  iintro ⟨HC, HS0, HR0, HS, HR⟩
  isplitl [HC]; · iexact HC
  isplitl [HS0 HS]
  · isplitl [HS0] <;> iassumption
  isplitl [HR0] <;> iassumption

/-- Every semaphore of the kernel's own closes once its one round is consumed (the two cells of offset 0 have no round
    at all). -/
theorem close_cells (K : Dev nD × Fin 34 → ℕ) (c : Dev nD) :
    iprop(records m K ∗ atPos ER (copyCell c) 1 ∅ 0 ∗ atPos ER (sendCell c 0) 0 ∅ 0 ∗ atPos ER (recvCell c 0) 0 ∅ 0
        ∗ (bigSep (Finset.univ.erase (0 : Fin 16)) fun d => atPos ER (sendCell c d) 1 ∅ 0)
        ∗ (bigSep (Finset.univ.erase (0 : Fin 16)) fun d => atPos ER (recvCell c d) 1 ∅ 0))
      ⊢ (|={Set.univ}=> iprop(semVal (copyCell c) 0 ∗ bigSep Finset.univ fun d : Fin 16 => iprop(semVal (sendCell c d) 0 ∗ semVal (recvCell c d) 0)) : sProp 𝕄) := by
  have hS : iprop(records m K ∗ bigSep (Finset.univ.erase (0 : Fin 16)) fun d => atPos ER (sendCell c d) 1 ∅ 0)
      ⊢ (|={Set.univ}=> bigSep (Finset.univ.erase (0 : Fin 16)) fun d => semVal (sendCell c d) 0 : sProp 𝕄) :=
    (bigSep_with_persistent (R := records m K) fun d _ => close_send m K c d).trans (bigSep_fupd _ _)
  have hR : iprop(records m K ∗ bigSep (Finset.univ.erase (0 : Fin 16)) fun d => atPos ER (recvCell c d) 1 ∅ 0)
      ⊢ (|={Set.univ}=> bigSep (Finset.univ.erase (0 : Fin 16)) fun d => semVal (recvCell c d) 0 : sProp 𝕄) :=
    (bigSep_with_persistent (R := records m K) fun d _ => close_recv m K c d).trans (bigSep_fupd _ _)
  iintro ⟨#HR, HaC, HaS0, HaR0, HaS, HaR⟩
  imod (close_copy m K c) $$ [HaC] with HvC
  · isplitr; · iexact HR
    iexact HaC
  imod (close_send0 m K c) $$ [HaS0] with HvS0
  · isplitr; · iexact HR
    iexact HaS0
  imod (close_recv0 m K c) $$ [HaR0] with HvR0
  · isplitr; · iexact HR
    iexact HaR0
  imod hS $$ [HaS] with HvS
  · isplitr; · iexact HR
    iexact HaS
  imod hR $$ [HaR] with HvR
  · isplitr; · iexact HR
    iexact HaR
  imodintro
  iapply (sems_join (F := F) c)
  isplitl [HvC]; · iexact HvC
  isplitl [HvS0]; · iexact HvS0
  isplitl [HvR0]; · iexact HvR0
  isplitl [HvS]; · iexact HvS
  iexact HvR

/-- info: 'Cert.Kernel.Coll.close_cells' depends on axioms: [propext, Classical.choice, Quot.sound] -/
#guard_msgs in #print axioms close_cells

end Cert.Kernel.Coll

end
-- ==== Proof.KSigs.lean ====
/-
  The fifteen barrier signals, and the barrier wait.
  Signal `d` of device `c` pays duty `d` of the barrier cell of the device `d` places on: it hands over `c`'s own
  slot `neg d` (the one that device will copy into) and that `c` has reached round 0 of that slot's receive cell.
  The wait for fifteen units takes the whole round: one such slot from each of the other fifteen devices.
-/
import proofs.«900905_g7700000000000906_dist_max_ax0_shard0_i_m1024_n512_v7x_i16_f32_1_alg».proof.Proof.KFrags

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-- The signals of the offsets `ds`, paying one unit each off what the device owes. -/
theorem wp_sigs (K : Dev nD × Fin 34 → ℕ) (c : Dev nD) (Q : α → sProp 𝕄) :
    ∀ (ds : List (Fin 16)) (hnd : ds.Nodup) (h0 : ∀ d ∈ ds, d ≠ 0) (O : CellTallies nD τ sig Unit) (k : P F α),
    iprop(records m K ∗ owesE c (O + ∑ d ∈ ds.toFinset, tallyAt (barCell (rot c d)) () 1)
        ∗ (bigSep ds.toFinset fun d => iprop(dutyTok ER (barCell (rot c d)) 0 d ∗ ∃ f, slotPts c (neg d) fullShare f))
        ∗ (owesE c O -∗ WP c k Q))
      ⊢ WP c (sigsP c ds k) Q
  | [], _, _, O, k => by
    simp only [sigsP, List.toFinset_nil, Finset.sum_empty, add_zero, bigSep_empty]
    iintro ⟨-, HO, -, Hk⟩
    iapply Hk; iexact HO
  | d :: ds, hnd, h0, O, k => by
    have hd : d ∉ ds.toFinset := by rw [List.mem_toFinset]; exact (List.nodup_cons.mp hnd).1
    have hd0 : d ≠ 0 := h0 d (List.mem_cons_self ..)
    simp only [sigsP]
    rw [List.toFinset_cons, Finset.sum_insert hd, bigSep_cons hd]
    unfold owesE
    iintro ⟨#HR, ⟨%W, HO⟩, ⟨⟨Htok, ⟨%f, Hslot⟩⟩, Hrest⟩, Hk⟩
    iapply (Rounds.wp_signal 𝒱₀ ER (Rd m) (c : Thread nD τ) none (dst := ((rot c d : Dev nD) : Thread nD τ)) (κ := K (rot c d, 0)) (d := d)
        (by rw [duties_bar]; exact Finset.mem_erase.mpr ⟨hd0, Finset.mem_univ _⟩) (amount_bar m (rot c d) d) ()
        (O + ∑ x ∈ ds.toFinset, tallyAt (barCell (rot c x)) () 1)
        (O₀ := O + (tallyAt (barCell (rot c d)) () 1 + ∑ x ∈ ds.toFinset, tallyAt (barCell (rot c x)) () 1))
        (by rw [add_comm (tallyAt (barCell (rot c d)) () 1), add_assoc])) $$ [HO Htok Hslot]
    · isplitr; · iapply (inv_at m K (rot c d, 0)); iexact HR
      isplitl [HO]; · iexact HO
      isplitl [Htok]; · iexact Htok
      isplitl [Hslot]
      · rw [payload_bar]; unfold barPay; rw [rot_rot_neg]
        isplitl [Hslot]; · iexists f; iexact Hslot
        rw [← kcell_recv c (neg d)]
        iapply (reached_at m K (c, recvIx (neg d))); iexact HR
      · iapply (reached_at m K (rot c d, 0)); iexact HR
    iintro HO
    iapply (wp_sigs K c Q ds (List.nodup_cons.mp hnd).2 (fun x hx => h0 x (List.mem_cons_of_mem _ hx)) O k)
    isplitr; · iexact HR
    isplitl [HO]; · unfold owesE; iexists W; iexact HO
    isplitl [Hrest]; · iexact Hrest
    iexact Hk

/-- The barrier wait, owing receive credit only: the fifteen duties' payloads come with it. -/
theorem wp_barWait (K : Dev nD × Fin 34 → ℕ) (c : Dev nD) (Q : α → sProp 𝕄) (k : P F α) :
    iprop(records m K ∗ cred (tallyAt (barCell c) () 15) ∗ owesE c (owedRecv c 0) ∗ levAts L lv ∗ atPos ER (barCell c) 0 ∅ 0
        ∗ ((owesE c (owedRecv c 0) ∗ atPos ER (barCell c) 1 ∅ 0 ∗ bigSep (Finset.univ.erase (0 : Fin 16)) (fun dn => barPay (F := F) c dn))
            -∗ WP c k Q))
      ⊢ WP c (barWaitP k) Q := by
  unfold barWaitP owesE
  iintro ⟨#HR, Hc, ⟨%W, HO⟩, #Hlev, Hat, Hk⟩
  iapply (Rounds.wp_wait_rest_token 𝒱₀ ER (Rd m) (c : Thread nD τ) none (κ := K (c, 0))
      (wpE_semWait_eq 𝒱₀ (c : Thread nD τ) none Set.univ) (Set.mem_univ _) () (O := owedRecv c 0) (W := W) (R := 0) (m := 0) (T := ∅)
      (by rw [expect_bar])) $$ [Hc HO Hat]
  · isplitr; · iapply (inv_at m K (c, 0)); iexact HR
    isplitl [Hc]; · iexact Hc
    isplitl [HO]; · iexact HO
    isplitr; · iapply (mayWait_owedRecv c (.reg barS) 0 (by rw [lv_bar]; decide)); iexact Hlev
    iexact Hat
  iintro ⟨HO, Hat, -, Hpay⟩
  iapply Hk
  isplitl [HO]; · iexists _; iexact HO
  isplitl [Hat]; · iexact Hat
  rw [← rest_bar m c]; iexact Hpay

end Cert.Kernel.Coll

end
-- ==== Proof.KXfers.lean ====
/-
  The three unrolled transfer stretches.
  Copy `d` of device `c` reads slot 0 under that offset's read share and writes slot `d` of the device `d` places on:
  it pays the one duty of its own send cell (the read share comes back) and the one duty of that device's receive
  cell of offset `d` (slot `d` there, holding `c`'s column maxima, which is that device's final slot `d`).
  A receive wait takes the whole round of its cell: the slot, at its final contents. A send wait likewise: the
  read share of slot 0.
-/
import proofs.«900905_g7700000000000906_dist_max_ax0_shard0_i_m1024_n512_v7x_i16_f32_1_alg».proof.Proof.KProtocol
import proofs.«900905_g7700000000000906_dist_max_ax0_shard0_i_m1024_n512_v7x_i16_f32_1_alg».proof.Proof.KFrags

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

/-- Owing `O` is owing it under some record of waits. -/
theorem owesE_open (c : Dev nD) (O : CellTallies nD τ sig Unit) :
    owesE (F := F) c O ⊢ iprop(∃ W, owes (c : Thread nD τ) O W) := by unfold owesE; exact BI.Entails.refl _
theorem owesE_of (c : Dev nD) (O : CellTallies nD τ sig Unit) (W : Waits sig Unit) :
    (owes (c : Thread nD τ) O W : sProp 𝕄) ⊢ owesE (F := F) c O := by unfold owesE; iintro H; iexists W; iexact H

/-- The rest of a receive cell's round is slot `d` at its final contents. -/
theorem recv_rest (c : Dev nD) {d : Fin 16} (h : d ≠ 0) :
    bigSep ((Rd (F := F) m).duties (recvCell c d) 0 \ ∅) (fun dn => (Rd (F := F) m).payload (recvCell c d) 0 dn)
      ⊢ slotPts c d fullShare (commFinal m c) := by
  rw [rest_recv m c h]; exact BI.Entails.refl _

/-- The rest of a send cell's round is that offset's read share of slot 0. -/
theorem send_rest (c : Dev nD) {d : Fin 16} (h : d ≠ 0) :
    bigSep ((Rd (F := F) m).duties (sendCell c d) 0 \ ∅) (fun dn => (Rd (F := F) m).payload (sendCell c d) 0 dn)
      ⊢ slotPts c 0 (tok d) (commFinal m c) := by
  rw [rest_send m c h]; exact BI.Entails.refl _

theorem inv_recv (K : Dev nD × Fin 34 → ℕ) (c : Dev nD) (d : Fin 16) :
    records (F := F) m K ⊢ cellInv ER (Rd m) (K (c, recvIx d)) (recvCell c d) := by
  rw [← kcell_recv c d]; exact inv_at m K (c, recvIx d)
theorem inv_send (K : Dev nD × Fin 34 → ℕ) (c : Dev nD) (d : Fin 16) :
    records (F := F) m K ⊢ cellInv ER (Rd m) (K (c, sendIx d)) (sendCell c d) := by
  rw [← kcell_send c d]; exact inv_at m K (c, sendIx d)
theorem reached_recv (K : Dev nD × Fin 34 → ℕ) (c : Dev nD) (d : Fin 16) :
    records (F := F) m K ⊢ reached ER (recvCell c d) 0 := by
  rw [← kcell_recv c d]; exact reached_at m K (c, recvIx d)
theorem reached_send (K : Dev nD × Fin 34 → ℕ) (c : Dev nD) (d : Fin 16) :
    records (F := F) m K ⊢ reached ER (sendCell c d) 0 := by
  rw [← kcell_send c d]; exact reached_at m K (c, sendIx d)

/-- The receive waits of the offsets `ds`, owing nothing: each takes the one duty of its cell's round, slot `d` at its
    final contents. -/
theorem wp_recvWaits (K : Dev nD × Fin 34 → ℕ) (c : Dev nD) (Q : α → sProp 𝕄) :
    ∀ (ds : List (Fin 16)) (hnd : ds.Nodup) (h0 : ∀ d ∈ ds, d ≠ 0) (k : P F α),
    iprop(records m K ∗ owesE c 0
        ∗ (bigSep ds.toFinset fun d => iprop(cred (tallyAt (recvCell c d) () N) ∗ atPos ER (recvCell c d) 0 ∅ 0))
        ∗ ((owesE c 0 ∗ bigSep ds.toFinset fun d => iprop(atPos ER (recvCell c d) 1 ∅ 0 ∗ slotPts c d fullShare (commFinal m c))) -∗ WP c k Q))
      ⊢ WP c (recvWaitsP ds k) Q
  | [], _, _, k => by
    simp only [recvWaitsP, List.toFinset_nil, bigSep_empty]
    iintro ⟨-, HO, -, Hk⟩
    iapply Hk
    isplitl [HO]; · iexact HO
    iempintro
  | d :: ds, hnd, h0, k => by
    have hd : d ∉ ds.toFinset := by rw [List.mem_toFinset]; exact (List.nodup_cons.mp hnd).1
    have hd0 : d ≠ 0 := h0 d (List.mem_cons_self ..)
    simp only [recvWaitsP]
    rw [List.toFinset_cons, bigSep_cons hd, bigSep_cons hd]
    unfold owesE
    iintro ⟨#HR, ⟨%W, HO⟩, ⟨⟨Hc, Hat⟩, Hrest⟩, Hk⟩
    iapply (Rounds.wp_wait_rest_token 𝒱₀ ER (Rd m) (c : Thread nD τ) none (κ := K (c, recvIx d))
        (wpE_waitDma2_eq 𝒱₀ (c : Thread nD τ) none Set.univ) (Set.mem_univ _) () (O := 0) (W := W) (R := 0) (m := 0) (T := ∅)
        (by rw [expect_recv m c hd0]; exact Nat.zero_add _)) $$ [Hc HO Hat]
    · isplitr; · iapply (inv_recv m K c d); iexact HR
      isplitl [Hc]; · iexact Hc
      isplitl [HO]; · iexact HO
      isplitr; · rw [MayWait_zero]; iempintro
      iexact Hat
    iintro ⟨HO, Hat, -, Hpay⟩
    iapply (wp_recvWaits K c Q ds (List.nodup_cons.mp hnd).2 (fun x hx => h0 x (List.mem_cons_of_mem _ hx)) k)
    isplitr; · iexact HR
    isplitl [HO]; · unfold owesE; iexists _; iexact HO
    isplitl [Hrest]; · iexact Hrest
    iintro ⟨HO, Hrest⟩
    iapply Hk
    isplitl [HO]; · iapply (owesE_open c 0); iexact HO
    isplitl [Hat Hpay]
    · isplitl [Hat]; · iexact Hat
      iapply (recv_rest m c hd0); iexact Hpay
    iexact Hrest

/-- The send waits of the offsets `ds`, owing nothing: each takes the one duty of its cell's round, that offset's read
    share of slot 0. -/
theorem wp_sendWaits (K : Dev nD × Fin 34 → ℕ) (c : Dev nD) (Q : α → sProp 𝕄) :
    ∀ (ds : List (Fin 16)) (hnd : ds.Nodup) (h0 : ∀ d ∈ ds, d ≠ 0) (k : P F α),
    iprop(records m K ∗ owesE c 0
        ∗ (bigSep ds.toFinset fun d => iprop(cred (tallyAt (sendCell c d) () N) ∗ atPos ER (sendCell c d) 0 ∅ 0))
        ∗ ((owesE c 0 ∗ bigSep ds.toFinset fun d => iprop(atPos ER (sendCell c d) 1 ∅ 0 ∗ slotPts c 0 (tok d) (commFinal m c))) -∗ WP c k Q))
      ⊢ WP c (sendWaitsP ds k) Q
  | [], _, _, k => by
    simp only [sendWaitsP, List.toFinset_nil, bigSep_empty]
    iintro ⟨-, HO, -, Hk⟩
    iapply Hk
    isplitl [HO]; · iexact HO
    iempintro
  | d :: ds, hnd, h0, k => by
    have hd : d ∉ ds.toFinset := by rw [List.mem_toFinset]; exact (List.nodup_cons.mp hnd).1
    have hd0 : d ≠ 0 := h0 d (List.mem_cons_self ..)
    simp only [sendWaitsP]
    rw [List.toFinset_cons, bigSep_cons hd, bigSep_cons hd]
    unfold owesE
    iintro ⟨#HR, ⟨%W, HO⟩, ⟨⟨Hc, Hat⟩, Hrest⟩, Hk⟩
    iapply (Rounds.wp_wait_rest_token 𝒱₀ ER (Rd m) (c : Thread nD τ) none (κ := K (c, sendIx d))
        (wpE_waitDma2_eq 𝒱₀ (c : Thread nD τ) none Set.univ) (Set.mem_univ _) () (O := 0) (W := W) (R := 0) (m := 0) (T := ∅)
        (by rw [expect_send m c hd0]; exact Nat.zero_add _)) $$ [Hc HO Hat]
    · isplitr; · iapply (inv_send m K c d); iexact HR
      isplitl [Hc]; · iexact Hc
      isplitl [HO]; · iexact HO
      isplitr; · rw [MayWait_zero]; iempintro
      iexact Hat
    iintro ⟨HO, Hat, -, Hpay⟩
    iapply (wp_sendWaits K c Q ds (List.nodup_cons.mp hnd).2 (fun x hx => h0 x (List.mem_cons_of_mem _ hx)) k)
    isplitr; · iexact HR
    isplitl [HO]; · unfold owesE; iexists _; iexact HO
    isplitl [Hrest]; · iexact Hrest
    iintro ⟨HO, Hrest⟩
    iapply Hk
    isplitl [HO]; · iapply (owesE_open c 0); iexact HO
    isplitl [Hat Hpay]
    · isplitl [Hat]; · iexact Hat
      iapply (send_rest m c hd0); iexact Hpay
    iexact Hrest

/-- Where index `y` of a slot's [1, 512] view sits in the sixteen-slot buffer: slot `d`, row 0, column `y 1`. -/
theorem slot_emb_val (d : Fin 16) (y : S1x512.Idx) (a : Fin 3) :
    (((slotM d).view.emb y) a : ℕ) = (![d.val, 0, ((y 1 : Fin 512) : ℕ)] : Fin 3 → ℕ) a := by
  have hy := Shape.reshapeEquiv_cons_one (n := 2) (d := ![1, 512]) Facts₀.squeezes_S1x1x512_S1x512.numel_eq y
  refine (congrArg (fun j : S1x1x512.Idx => ((Rect.unit (s := S16x1x512) ![d.val, 0, 0] S1x1x512.size (inbM d)).emb j a : ℕ)) hy).trans ?_
  have h0 : ((y 0 : Fin 1) : ℕ) = 0 := Nat.lt_one_iff.mp (y 0 : Fin 1).isLt
  fin_cases a
  · show d.val + 1 * 0 = d.val; omega
  · show 0 + 1 * ((y 0 : Fin 1) : ℕ) = 0; omega
  · show 0 + 1 * ((y 1 : Fin 512) : ℕ) = ((y 1 : Fin 512) : ℕ); omega

theorem slot_emb (d : Fin 16) (y : S1x512.Idx) :
    (slotM d).view.emb y = (ValueIdx.ix3 (d : Fin 16) (0 : Fin 1) (show Fin 512 from y 1) : S16x1x512.Idx) := by
  funext a
  apply Fin.ext
  refine (slot_emb_val d y a).trans ?_
  fin_cases a <;> rfl

/-- Slot `d` of the device `d` places on, rewritten by what slot 0 of `c` holds, is that device's final slot `d`: on the
    slot's elements both are `c`'s column maxima, `c` being the device `d` places before it. -/
theorem landing (c : Dev nD) (d : Fin 16) (fd : Buf (Elt F) (((rot c d : Dev nD) : Thread nD τ).loc cc0_scratch1)) :
    (((slotM d).view.loc ((rot c d : Dev nD) : Thread nD τ) ↦[(slotM d).view.set]{fullShare}
        ((slotM d).view.write (Elt F) fd ((slotM 0).view.read (Elt F) (commFinal m c)) Finset.univ)) : sProp 𝕄)
      = slotPts (rot c d) d fullShare (commFinal m (rot c d)) := by
  unfold slotPts
  refine pointsTo_congr fun i hi => ?_
  obtain ⟨y, rfl⟩ := View.exists_emb_of_mem_set _ hi
  rw [View.write_emb_of_mem _ _ (Finset.mem_univ y), View.read_apply, cast_cast, cast_eq]
  refine (congrArg (commFinal m c) (slot_emb 0 y)).trans ((?_ : _ = _).trans (congrArg (commFinal m (rot c d)) (slot_emb d y)).symm)
  show bmax m (rot c (neg 0)) _ = bmax m (rot (rot c d) (neg d)) _
  rw [rot_rot_neg, show neg 0 = 0 from by decide, rot_zero]
  rfl

/-- The read share of slot 0 at offset `d` is what the send cell's duty hands back. -/
theorem send_pay (c : Dev nD) {d : Fin 16} (h : d ≠ 0) :
    slotPts c 0 (tok d) (commFinal m c) ⊢ (Rd (F := F) m).payload (sendCell c d) 0 0 := by
  rw [payload_send m c h]; exact BI.Entails.refl _

/-- Slot `d` of the device `d` places on, rewritten by the copy, is what that device's receive cell's duty hands over. -/
theorem recv_pay (c : Dev nD) {d : Fin 16} (h : d ≠ 0) (fd : Buf (Elt F) (((rot c d : Dev nD) : Thread nD τ).loc cc0_scratch1)) :
    (((slotM d).view.loc ((rot c d : Dev nD) : Thread nD τ) ↦[(slotM d).view.set]{fullShare}
        ((slotM d).view.write (Elt F) fd ((slotM 0).view.read (Elt F) (commFinal m c)) Finset.univ)) : sProp 𝕄)
      ⊢ (Rd (F := F) m).payload (recvCell (rot c d) d) 0 0 := by
  rw [payload_recv m (rot c d) h, landing m c d fd]; exact BI.Entails.refl _

/-- One copy: slot 0 of `c` under the offset's read share into slot `d` of the device `d` places on, paying the duty of
    the send cell and the duty of that device's receive cell, and one slot's credit off what `c` owes. -/
theorem send_step (K : Dev nD × Fin 34 → ℕ) (c : Dev nD) {d : Fin 16} (hd0 : d ≠ 0) (O S : CellTallies nD τ sig Unit)
    (W : Waits sig Unit) (f : Buf (Elt F) (((rot c d : Dev nD) : Thread nD τ).loc cc0_scratch1)) (k : P F α) (Q : α → sProp 𝕄) :
    iprop(cellInv ER (Rd m) (K (c, sendIx d)) (sendCell c d) ∗ cellInv ER (Rd m) (K (rot c d, recvIx d)) (recvCell (rot c d) d)
        ∗ slotPts c 0 (tok d) (commFinal m c) ∗ slotPts (rot c d) d fullShare f
        ∗ owes (c : Thread nD τ) (O + (tallyAt (recvCell (rot c d) d) () N + S)) W
        ∗ dutyTok ER (sendCell c d) 0 0 ∗ reached ER (sendCell c d) 0
        ∗ dutyTok ER (recvCell (rot c d) d) 0 0 ∗ reached ER (recvCell (rot c d) d) 0)
      ⊢ iprop(((cred (tallyAt (sendCell c d) () N) ∗ owes (c : Thread nD τ) (O + S) W) -∗ WP c k Q)
          -∗ WP c (Prog.op (.enqueueDma (slotM 0) (.remote (Dev.tc (rot c d)) (slotM d) (.dma (sendS d).sem) rfl) (.dma (recvS d).sem)
              (slot_wordExact 0) (slot_wordExact d) ⟨⟨rfl, Or.inl rfl⟩, trivial⟩) fun _ => k) Q) :=
  Rounds.wp_send_pointsTo 𝒱₀ ER (Rd m) (c : Thread nD τ) none
    (c' := ((rot c d : Dev nD) : Thread nD τ)) (src := slotM 0) (dst := slotM d) (q := tok d) (fs := commFinal m c) (fd := f)
    (κ₁ := K (c, sendIx d)) (κ₂ := K (rot c d, recvIx d)) (r₁ := 0) (r₂ := 0) (d₁ := 0) (d₂ := 0)
    (O₀ := O + (tallyAt (recvCell (rot c d) d) () N + S)) (W := W) (k := fun _ => k) (Q := Q) (Es := Set.univ)
    (by rw [duties_send m c hd0]; exact Finset.mem_singleton_self _)
    (by rw [duties_recv m (rot c d) hd0]; exact Finset.mem_singleton_self _)
    () () N rfl (amount_send m c hd0 0) (amount_recv m (rot c d) hd0 0)
    (O + S) (by rw [add_comm (tallyAt (recvCell (rot c d) d) () N) S, ← add_assoc])
    (send_pay m c hd0) (recv_pay m c hd0 f)

/-- The copies of the offsets `ds`, each paying one slot's credit off what the device owes and leaving the send cell's
    credit for its wait. -/
theorem wp_sends (K : Dev nD × Fin 34 → ℕ) (c : Dev nD) (Q : α → sProp 𝕄) :
    ∀ (ds : List (Fin 16)) (hnd : ds.Nodup) (h0 : ∀ d ∈ ds, d ≠ 0) (O : CellTallies nD τ sig Unit) (k : P F α),
    iprop(records m K ∗ owesE c (O + ∑ d ∈ ds.toFinset, tallyAt (recvCell (rot c d) d) () N)
        ∗ (bigSep ds.toFinset fun d => iprop(slotPts c 0 (tok d) (commFinal m c) ∗ (∃ f, slotPts (rot c d) d fullShare f)
              ∗ dutyTok ER (sendCell c d) 0 0 ∗ dutyTok ER (recvCell (rot c d) d) 0 0))
        ∗ ((owesE c O ∗ bigSep ds.toFinset fun d => cred (tallyAt (sendCell c d) () N)) -∗ WP c k Q))
      ⊢ WP c (sendsP (rot c) ds k) Q
  | [], _, _, O, k => by
    simp only [sendsP, List.toFinset_nil, Finset.sum_empty, add_zero, bigSep_empty]
    iintro ⟨-, HO, -, Hk⟩
    iapply Hk
    isplitl [HO]; · iexact HO
    iempintro
  | d :: ds, hnd, h0, O, k => by
    have hd : d ∉ ds.toFinset := by rw [List.mem_toFinset]; exact (List.nodup_cons.mp hnd).1
    have hd0 : d ≠ 0 := h0 d (List.mem_cons_self ..)
    simp only [sendsP]
    rw [List.toFinset_cons, Finset.sum_insert hd, bigSep_cons hd, bigSep_cons hd]
    unfold owesE
    iintro ⟨#HR, ⟨%W, HO⟩, ⟨⟨Hsrc, ⟨%f, Hdst⟩, Ht1, Ht2⟩, Hrest⟩, Hk⟩
    iapply (send_step m K c hd0 O (∑ x ∈ ds.toFinset, tallyAt (recvCell (rot c x) x) () N) W f (sendsP (rot c) ds k) Q) $$ [HO Hsrc Hdst Ht1 Ht2]
    · isplitr; · iapply (inv_send m K c d); iexact HR
      isplitr; · iapply (inv_recv m K (rot c d) d); iexact HR
      isplitl [Hsrc]; · iexact Hsrc
      isplitl [Hdst]; · iexact Hdst
      isplitl [HO]; · iexact HO
      isplitl [Ht1]; · iexact Ht1
      isplitr; · iapply (reached_send m K c d); iexact HR
      isplitl [Ht2]; · iexact Ht2
      iapply (reached_recv m K (rot c d) d); iexact HR
    iintro ⟨Hcred, HO⟩
    iapply (wp_sends K c Q ds (List.nodup_cons.mp hnd).2 (fun x hx => h0 x (List.mem_cons_of_mem _ hx)) O k)
    isplitr; · iexact HR
    isplitl [HO]; · iapply (owesE_of c _ W); iexact HO
    isplitl [Hrest]; · iexact Hrest
    iintro ⟨HO, Hcs⟩
    iapply Hk
    isplitl [HO]; · iapply (owesE_open c O); iexact HO
    isplitl [Hcred]; · iexact Hcred
    iexact Hcs

/-- info: 'Cert.Kernel.Coll.wp_recvWaits' depends on axioms: [propext, Classical.choice, Quot.sound] -/
#guard_msgs in #print axioms wp_recvWaits
/-- info: 'Cert.Kernel.Coll.wp_sendWaits' depends on axioms: [propext, Classical.choice, Quot.sound] -/
#guard_msgs in #print axioms wp_sendWaits
/-- info: 'Cert.Kernel.Coll.wp_sends' depends on axioms: [propext, Classical.choice, Quot.sound] -/
#guard_msgs in #print axioms wp_sends

end Cert.Kernel.Coll

end
-- ==== Proof.KLocal.lean ====
/-
  The two stretches of the body that touch only a device's own memory: the local stretch (the block copied into
  VMEM and waited for, its column maxima stored into slot 0) and the final stretch (the maximum over the sixteen
  slots stored into the result's staging buffer); and the lemmas that cut the sixteen-slot buffer's points-to by
  slot and by share and put it back.
-/
import proofs.«900905_g7700000000000906_dist_max_ax0_shard0_i_m1024_n512_v7x_i16_f32_1_alg».proof.Proof.KProtocol
import proofs.«900905_g7700000000000906_dist_max_ax0_shard0_i_m1024_n512_v7x_i16_f32_1_alg».proof.Proof.KFrags

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

private theorem hz3 : (![0, 0, 0] : Fin 3 → Nat) = fun _ => 0 := funext fun a => by fin_cases a <;> rfl
private theorem hz2 : (![0, 0] : Fin 2 → Nat) = fun _ => 0 := funext fun a => by fin_cases a <;> rfl

/-- The rectangle of all of the staging buffer, and of all sixteen slots. -/
abbrev outRect : Rect S1x512 := Rect.unit (s := S1x512) ![0, 0] S1x512.size Facts₀.inb_S1x512_S1x512_0_0
abbrev commRect : Rect S16x1x512 := Rect.unit (s := S16x1x512) ![0, 0, 0] S16x1x512.size Facts₀.inb_S16x1x512_S16x1x512_0_0_0

/-- A load of all sixteen slots reads the buffer's contents. -/
private theorem read_comm (f : (cc0_scratch1 : Ref sig .tc).ty.Contents (Elt F)) :
    (commM : Memref sig .tc .vmem S16x1x512 .f32).view.readAt (Elt F) commRect.toLoadRect f = f :=
  Memref.readAt_unit_zero (Elt F) cc0_scratch1 hz3 _ f
/-- A store over the whole staging buffer leaves what is stored. -/
private theorem write_out (f w : (cc0_stg0_0 : Ref sig .tc).ty.Contents (Elt F)) :
    ((outM : Memref sig .tc .vmem S1x512 .f32).access outRect : View sig .tc _ _ _).write (Elt F) f w Finset.univ = w :=
  Memref.write_access_unit_zero_univ (Elt F) cc0_stg0_0 hz2 _ f w

/-- The final stretch. -/
theorem wp_final (c : Dev nD) (Q : α → sProp 𝕄) (k : P F α) (g : (cc0_stg0_0 : Ref sig .tc).ty.Contents (Elt F)) :
    iprop(((((c : Thread nD τ).loc cc0_scratch1) ↦{keep} commFinal m c : sProp 𝕄)) ∗ ((((c : Thread nD τ).loc cc0_stg0_0) ↦{fullShare} g : sProp 𝕄))
        ∗ ((((((c : Thread nD τ).loc cc0_scratch1) ↦{keep} commFinal m c : sProp 𝕄)) ∗ ((((c : Thread nD τ).loc cc0_stg0_0) ↦{fullShare} outAt m c : sProp 𝕄))) -∗ WP c k Q))
      ⊢ WP c (finalP k) Q := by
  unfold finalP
  iintro ⟨Hc, Ho, Hk⟩
  iapply (wp_load 𝒱₀ (c : Thread nD τ) none Set.univ (m := commM) (S := Finset.univ) (Finset.subset_univ _)) $$ Hc
  iintro Hc
  rw [read_comm]
  iapply (wp_load 𝒱₀ (c : Thread nD τ) none Set.univ (m := outM) (S := Finset.univ) (Finset.subset_univ _)) $$ Ho
  iintro Ho
  iapply (wp_store 𝒱₀ (c : Thread nD τ) none Set.univ (m := outM) (r := outRect) (S := Finset.univ) (f := g) (Finset.subset_univ _)) $$ Ho
  iintro Ho
  rw [write_out]
  iapply Hk
  isplitl [Hc]
  · iexact Hc
  · iexact Ho

/-- The rectangle of all of the block, and of slot 0 as the kernel's load and store name it. -/
abbrev blockRect : Rect S1024x512 := Rect.unit (s := S1024x512) ![0, 0] S1024x512.size Facts₀.inb_S1024x512_S1024x512_0_0
abbrev slot0Rect : Rect S16x1x512 := Rect.unit (s := S16x1x512) ![0, 0, 0] S1x1x512.size Facts₀.inb_S16x1x512_S1x1x512_0_0_0

/-- The local copy lands the block whole. -/
theorem landed_x (c : Dev nD) (fd : Buf (Elt F) ((xvM : Memref sig .tc .vmem S1024x512 .f32).view.loc (c : Thread nD τ)))
    (fs : (main_arg0 : Ref sig .tc).ty.Contents (Elt F)) :
    (xvM : Memref sig .tc .vmem S1024x512 .f32).view.write (Elt F) fd ((xM : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-- A load of all of the VMEM copy reads its contents. -/
private theorem read_xv (f : (cc0_scratch0 : Ref sig .tc).ty.Contents (Elt F)) :
    (xvM : Memref sig .tc .vmem S1024x512 .f32).view.readAt (Elt F) blockRect.toLoadRect f = f :=
  Memref.readAt_unit_zero (Elt F) cc0_scratch0 hz2 _ f

/-- The kernel's rectangle for slot 0 covers exactly slot 0's elements. -/
theorem slot0_set : (slotM 0).view.set = ((commM : Memref sig .tc .vmem S16x1x512 .f32).access slot0Rect).set :=
  View.set_reshape ..

/-- Index `(0, 0, j)` of the rectangle is index `(0, 0, j)` of the buffer. -/
private theorem emb_r0 (j : Fin 512) :
    ((commM : Memref sig .tc .vmem S16x1x512 .f32).access slot0Rect).emb (ValueIdx.ix3 (0 : Fin 1) (0 : Fin 1) j) = ValueIdx.ix3 (0 : Fin 16) (0 : Fin 1) j := by
  funext a
  apply Fin.ext
  show (slot0Rect.emb (ValueIdx.ix3 (0 : Fin 1) (0 : Fin 1) j) a).val = (ValueIdx.ix3 (0 : Fin 16) (0 : Fin 1) j a).val
  rw [Rect.emb_apply]
  fin_cases a <;> simp

/-- What the store leaves in slot 0 is what slot 0 holds at the end. -/
theorem stored_slot0 (c : Dev nD) (f0 : Buf (Elt F) ((c : Thread nD τ).loc cc0_scratch1)) (j : Fin 512) :
    (((commM : Memref sig .tc .vmem S16x1x512 .f32).access slot0Rect).write (Elt F) f0 (bmax m c) Finset.univ) (ValueIdx.ix3 (0 : Fin 16) (0 : Fin 1) j)
      = commFinal m c (ValueIdx.ix3 (0 : Fin 16) (0 : Fin 1) j) := by
  have e := View.write_emb_of_mem (v := ((commM : Memref sig .tc .vmem S16x1x512 .f32).access slot0Rect)) (Val := Elt F) f0 (bmax m c)
    (M := Finset.univ) (x := ValueIdx.ix3 (0 : Fin 1) (0 : Fin 1) j) (Finset.mem_univ _)
  rw [emb_r0] at e
  rw [e]
  have hl : commFinal m c (ValueIdx.ix3 (0 : Fin 16) (0 : Fin 1) j)
      = bmax m (rot c (neg (0 : Fin 16))) (ValueIdx.ix3 (0 : Fin 1) (0 : Fin 1) j) := rfl
  rw [hl, show neg (0 : Fin 16) = 0 from by decide, rot_zero]
  exact cast_eq _ _

/-- The rectangle of slot `d`. -/
abbrev slotRect (d : Fin 16) : Rect S16x1x512 := Rect.unit (s := S16x1x512) ![d.val, 0, 0] S1x1x512.size (inbM d)

/-- Slot `d`'s elements are its rectangle's. -/
theorem slot_set (d : Fin 16) : (slotM d).view.set = (slotRect d).set := by
  show (((View.whole cc0_scratch1).slice (slotRect d)).reshape S1x512 _).set = _
  rw [View.set_reshape, View.set_slice_whole]

/-- An index lies in slot `d` exactly when its first coordinate is `d`. -/
theorem mem_slot (d : Fin 16) (i : S16x1x512.Idx) : i ∈ (slotRect d).set ↔ (i 0).val = d.val := by
  rw [Rect.mem_set_unit]
  have h1 := (i 1).isLt
  have h2 := (i 2).isLt
  constructor
  · intro h
    have := h 0
    simp at this
    omega
  · intro h a
    fin_cases a <;> simp at * <;> omega

theorem slot_congr (c : Dev nD) (d : Fin 16) (q : PosShare TreeShare) {f g : Buf (Elt F) ((c : Thread nD τ).loc cc0_scratch1)}
    (h : ∀ j : Fin 512, f (ValueIdx.ix3 (show Fin 16 from d) (0 : Fin 1) j) = g (ValueIdx.ix3 (show Fin 16 from d) (0 : Fin 1) j)) :
    slotPts (F := F) c d q f = slotPts c d q g := by
  unfold slotPts
  refine pointsTo_congr fun i hi => ?_
  rw [slot_set] at hi
  have h0 : (i 0).val = d.val := (mem_slot d i).mp hi
  have e : i = ValueIdx.ix3 (show Fin 16 from d) (0 : Fin 1) (show Fin 512 from i 2) := by
    funext a
    match a with
    | ⟨0, _⟩ => exact Fin.ext h0
    | ⟨1, _⟩ => exact Subsingleton.elim (α := Fin 1) _ _
    | ⟨2, _⟩ => rfl
  rw [e]
  exact h _

private theorem inv_copy (K : Dev nD × Fin 34 → ℕ) (c : Dev nD) : records (F := F) m K ⊢ cellInv ER (Rd m) (K (c, 1)) (copyCell c) := by
  rw [← kcell_copy c]; exact inv_at m K (c, 1)
private theorem reached_copy (K : Dev nD × Fin 34 → ℕ) (c : Dev nD) : records (F := F) m K ⊢ reached ER (copyCell c) 0 := by
  rw [← kcell_copy c]; exact reached_at m K (c, 1)

/-- Slot 0 as the store leaves it is slot 0 as it is at the end. -/
theorem slot0_stored (c : Dev nD) (f0 : Buf (Elt F) ((c : Thread nD τ).loc cc0_scratch1)) :
    ((slotM 0).view.loc (c : Thread nD τ) ↦[(slotM 0).view.set]{fullShare}
        (((commM : Memref sig .tc .vmem S16x1x512 .f32).access slot0Rect).write (Elt F) f0 (bmax m c) Finset.univ) : sProp 𝕄)
      = ((slotM 0).view.loc (c : Thread nD τ) ↦[(slotM 0).view.set]{fullShare} commFinal m c) := by
  have h := slot_congr (F := F) c 0 fullShare (stored_slot0 m c f0)
  unfold slotPts at h
  exact h

/-- The local stretch. -/
theorem wp_local (K : Dev nD × Fin 34 → ℕ) (c : Dev nD) (Q : α → sProp 𝕄) (k : P F α) (f0 : Buf (Elt F) ((c : Thread nD τ).loc cc0_scratch1)) :
    iprop(records m K ∗ xPts m c ∗ (∃ f, xvPts c f) ∗ slotPts c 0 fullShare f0 ∗ dutyTok ER (copyCell c) 0 0 ∗ atPos ER (copyCell c) 0 ∅ 0
        ∗ owesE c (owedRecv c 0) ∗ levAts L lv
        ∗ ((xPts m c ∗ xvPts c (xin m c) ∗ slotPts c 0 fullShare (commFinal m c) ∗ atPos ER (copyCell c) 1 ∅ 0 ∗ owesE c (owedRecv c 0)) -∗ WP c k Q))
      ⊢ WP c (localP k) Q := by
  unfold localP owesE xPts xvPts slotPts
  iintro ⟨#HR, Hx, ⟨%fv, Hxv⟩, Hs0, Htok, Hat, ⟨%W, HO⟩, #Hlev, Hk⟩
  iapply (Rounds.wp_copy_pointsTo 𝒱₀ ER (Rd m) (c : Thread nD τ) none (src := xM) (dst := xvM) (sem := .dma copyS.sem)
      (q := fullShare) (fs := m ((c : Thread nD τ).loc main_arg0)) (fd := fv) (r := 0) (d := 0) (κ := K (c, 1))
      (by rw [duties_copy]; exact Finset.mem_singleton_self _) () Nx rfl (amount_copy m c 0)
      (by rw [payload_copy]; unfold copyPay xvPts xPts xin; rw [landed_x])) $$ [Hx Hxv Htok]
  · isplitr; · iapply (inv_copy m K c); iexact HR
    isplitl [Hx]; · iexact Hx
    isplitl [Hxv]; · iexact Hxv
    isplitl [Htok]; · iexact Htok
    iapply (reached_copy m K c); iexact HR
  iintro Hc
  iapply (Rounds.wp_wait_rest_token 𝒱₀ ER (Rd m) (c : Thread nD τ) none (κ := K (c, 1))
      (wpE_waitDma2_eq 𝒱₀ (c : Thread nD τ) none Set.univ) (Set.mem_univ _) () (O := owedRecv c 0) (W := W) (R := 0) (m := 0) (T := ∅)
      (by rw [expect_copy, Nat.zero_add])) $$ [Hc HO Hat]
  · isplitr; · iapply (inv_copy m K c); iexact HR
    isplitl [Hc]; · iexact Hc
    isplitl [HO]; · iexact HO
    isplitr; · iapply (mayWait_owedRecv c (.dma copyS.sem) 0 (by rw [lv_copy]; decide)); iexact Hlev
    iexact Hat
  rw [rest_copy]
  unfold copyPay xPts xvPts
  iintro ⟨HO, Hat, -, Hxv, Hx⟩
  iapply (wp_load 𝒱₀ (c : Thread nD τ) none Set.univ (m := xvM) (S := (xvM : Memref sig .tc .vmem S1024x512 .f32).view.set)
      (q := fullShare) (f := xin m c) (View.setOn_subset_set _ _)) $$ Hxv
  iintro Hxv
  rw [read_xv]
  iapply (wp_load_rect 𝒱₀ (c : Thread nD τ) none Set.univ (m := commM) (r := slot0Rect) (S := (slotM 0).view.set)
      (q := fullShare) (f := f0) slot0_set.ge) $$ Hs0
  iintro Hs0
  iapply (wp_store 𝒱₀ (c : Thread nD τ) none Set.univ (m := commM) (r := slot0Rect) (S := (slotM 0).view.set) (f := f0) slot0_set.ge) $$ Hs0
  iintro Hs0
  iapply Hk
  isplitl [Hx]; · iexact Hx
  isplitl [Hxv]; · iexact Hxv
  isplitl [Hs0]
  · rw [← slot0_stored m c f0]; iexact Hs0
  isplitl [Hat]; · iexact Hat
  iexists _; iexact HO

/-- Every index of the sixteen-slot buffer lies in a slot, -/
theorem univ_slots (c : Dev nD) :
    (Finset.univ : Finset (Idx ((c : Thread nD τ).loc cc0_scratch1))) = Finset.univ.biUnion fun d : Fin 16 => (slotM d).view.set := by
  ext i
  simp only [Finset.mem_univ, Finset.mem_biUnion, true_and, true_iff]
  exact ⟨(show Fin 16 from i 0), by rw [slot_set, mem_slot]⟩

/-- and in one only. -/
theorem slots_disjoint (d d' : Fin 16) (hne : d ≠ d') : Disjoint (slotM d).view.set (slotM d').view.set := by
  rw [Finset.disjoint_left]
  intro i hi hi'
  rw [slot_set, mem_slot] at hi hi'
  exact hne (Fin.ext (hi.symm.trans hi'))

/-- The whole sixteen-slot buffer is its sixteen slots, at any share. -/
theorem comm_slots (c : Dev nD) (q : PosShare TreeShare) (f : Buf (Elt F) ((c : Thread nD τ).loc cc0_scratch1)) :
    ((((c : Thread nD τ).loc cc0_scratch1) ↦{q} f : sProp 𝕄)) ⊣⊢ bigSep Finset.univ fun d : Fin 16 => slotPts c d q f := by
  have e : ((((c : Thread nD τ).loc cc0_scratch1) ↦{q} f : sProp 𝕄)) = bigSep Finset.univ fun d : Fin 16 => slotPts c d q f := by
    show ((((c : Thread nD τ).loc cc0_scratch1) ↦[Finset.univ]{q} f : sProp 𝕄)) = _
    rw [univ_slots c, pointsTo_biUnion Finset.univ _ (fun d _ d' _ hne => slots_disjoint d d' hne)]
    rfl
  rw [e]

/-- The same with slot 0 apart. -/
theorem comm_slots' (c : Dev nD) (q : PosShare TreeShare) (f : Buf (Elt F) ((c : Thread nD τ).loc cc0_scratch1)) :
    ((((c : Thread nD τ).loc cc0_scratch1) ↦{q} f : sProp 𝕄))
      = iprop(slotPts c 0 q f ∗ bigSep (Finset.univ.erase (0 : Fin 16)) fun d => slotPts c d q f) := by
  rw [BI.equiv_iff.mp ⟨(comm_slots c q f).1, (comm_slots c q f).2⟩]
  exact bigSep_univ_split 0

/-- A slot held whole is the kept share of it and its sixteen read shares. -/
theorem slot_toks (c : Dev nD) (d : Fin 16) (f : Buf (Elt F) ((c : Thread nD τ).loc cc0_scratch1)) :
    (slotPts c d fullShare f : sProp 𝕄) ⊣⊢ iprop(slotPts c d keep f ∗ bigSep Finset.univ fun i : Fin 16 => slotPts c d (tok i) f) := by
  unfold slotPts
  exact Transfers.pointsTo_toks fullShare 16

theorem slot0_toks (c : Dev nD) (f : Buf (Elt F) ((c : Thread nD τ).loc cc0_scratch1)) :
    (slotPts c 0 fullShare f : sProp 𝕄) ⊣⊢ iprop(slotPts c 0 keep f ∗ bigSep Finset.univ fun i : Fin 16 => slotPts c 0 (tok i) f) :=
  slot_toks c 0 f

/-- The received slots held whole are their kept shares and their read shares, -/
theorem others_split (c : Dev nD) (f : Buf (Elt F) ((c : Thread nD τ).loc cc0_scratch1)) :
    bigSep (Finset.univ.erase (0 : Fin 16)) (fun d => slotPts (F := F) c d fullShare f)
      ⊢ iprop(bigSep (Finset.univ.erase (0 : Fin 16)) (fun d => slotPts c d keep f)
          ∗ bigSep (Finset.univ.erase (0 : Fin 16)) fun d => bigSep Finset.univ fun i : Fin 16 => slotPts c d (tok i) f) :=
  (bigSep_mono fun d _ => (slot_toks c d f).1).trans (Entails.of_eq (bigSep_sep _ _ _))

/-- and back. -/
theorem others_join (c : Dev nD) (f : Buf (Elt F) ((c : Thread nD τ).loc cc0_scratch1)) :
    iprop(bigSep (Finset.univ.erase (0 : Fin 16)) (fun d => slotPts c d keep f)
          ∗ bigSep (Finset.univ.erase (0 : Fin 16)) fun d => bigSep Finset.univ fun i : Fin 16 => slotPts c d (tok i) f)
      ⊢ bigSep (Finset.univ.erase (0 : Fin 16)) (fun d => slotPts (F := F) c d fullShare f) :=
  (Entails.of_eq (bigSep_sep _ _ _).symm).trans (bigSep_mono fun d _ => (slot_toks c d f).2)

/-- Before the final load: slot 0 at the kept share and the fifteen received slots whole give the whole buffer at the
    kept share, and the received slots' read shares aside. -/
theorem gather_keep (c : Dev nD) (f : Buf (Elt F) ((c : Thread nD τ).loc cc0_scratch1)) :
    iprop(slotPts c 0 keep f ∗ bigSep (Finset.univ.erase (0 : Fin 16)) fun d => slotPts c d fullShare f)
      ⊢ iprop(((((c : Thread nD τ).loc cc0_scratch1) ↦{keep} f : sProp 𝕄)) ∗ bigSep (Finset.univ.erase (0 : Fin 16)) fun d => bigSep Finset.univ fun i : Fin 16 => slotPts c d (tok i) f) := by
  rw [comm_slots' c keep f]
  iintro ⟨H0, Hr⟩
  ihave Hr := (others_split c f) $$ Hr
  icases Hr with ⟨Hk, Ht⟩
  isplitl [H0 Hk]
  · isplitl [H0]; · iexact H0
    iexact Hk
  · iexact Ht

/-- At the end: the kept share of the whole, the received slots' read shares and slot 0's sixteen give the buffer whole. -/
theorem regather (c : Dev nD) (f : Buf (Elt F) ((c : Thread nD τ).loc cc0_scratch1)) :
    iprop(((((c : Thread nD τ).loc cc0_scratch1) ↦{keep} f : sProp 𝕄)) ∗ (bigSep (Finset.univ.erase (0 : Fin 16)) fun d => bigSep Finset.univ fun i : Fin 16 => slotPts c d (tok i) f)
        ∗ bigSep Finset.univ fun i : Fin 16 => slotPts c 0 (tok i) f)
      ⊢ commPts c f := by
  unfold commPts
  rw [comm_slots' c keep f, comm_slots' c fullShare f]
  iintro ⟨⟨Hk0, Hk⟩, Ht, Ht0⟩
  isplitl [Hk0 Ht0]
  · iapply (slot_toks c 0 f).2
    isplitl [Hk0]; · iexact Hk0
    iexact Ht0
  · iapply (others_join c f)
    isplitl [Hk]; · iexact Hk
    iexact Ht

/-- info: 'Cert.Kernel.Coll.wp_final' depends on axioms: [propext, Classical.choice, Quot.sound] -/
#guard_msgs in #print axioms wp_final
/-- info: 'Cert.Kernel.Coll.gather_keep' depends on axioms: [propext, Classical.choice, Quot.sound] -/
#guard_msgs in #print axioms gather_keep
/-- info: 'Cert.Kernel.Coll.regather' depends on axioms: [propext, Classical.choice, Quot.sound] -/
#guard_msgs in #print axioms regather
/-- info: 'Cert.Kernel.Coll.wp_local' depends on axioms: [propext, Classical.choice, Quot.sound] -/
#guard_msgs in #print axioms wp_local

end Cert.Kernel.Coll

end
-- ==== Proof.KBody.lean ====
/-
  The body of the kernel on one device, stretch by stretch: from what the launch hands it (its positions and tokens,
  its launch credit, the three buffers) to every own semaphore closed at zero, the buffers back, and the result's
  staging buffer holding the maximum over the sixteen slots.
-/
import proofs.«900905_g7700000000000906_dist_max_ax0_shard0_i_m1024_n512_v7x_i16_f32_1_alg».proof.Proof.KRegroup
import proofs.«900905_g7700000000000906_dist_max_ax0_shard0_i_m1024_n512_v7x_i16_f32_1_alg».proof.Proof.KSigs
import proofs.«900905_g7700000000000906_dist_max_ax0_shard0_i_m1024_n512_v7x_i16_f32_1_alg».proof.Proof.KXfers
import proofs.«900905_g7700000000000906_dist_max_ax0_shard0_i_m1024_n512_v7x_i16_f32_1_alg».proof.Proof.KLocal

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)
variable {α : Type}

abbrev S0 : Finset (Fin 16) := Finset.univ.erase 0

/-! ## Regrouping families over the nonzero offsets -/

theorem sep3 (A B C : Fin 16 → sProp 𝕄) :
    bigSep S0 (fun d => iprop(A d ∗ B d ∗ C d)) = iprop(bigSep S0 A ∗ bigSep S0 B ∗ bigSep S0 C) := by
  rw [bigSep_sep', bigSep_sep']
theorem sep4 (A B C D : Fin 16 → sProp 𝕄) :
    bigSep S0 (fun d => iprop(A d ∗ B d ∗ C d ∗ D d)) = iprop(bigSep S0 A ∗ bigSep S0 B ∗ bigSep S0 C ∗ bigSep S0 D) := by
  rw [bigSep_sep', bigSep_sep', bigSep_sep']

/-- A family of pairs over all sixteen offsets: offset 0's pair, and the two families over the others. -/
theorem pairs_split (A B : Fin 16 → sProp 𝕄) :
    bigSep Finset.univ (fun d => iprop(A d ∗ B d)) = iprop((A 0 ∗ B 0) ∗ bigSep S0 A ∗ bigSep S0 B) := by
  rw [bigSep_univ_at _ (0 : Fin 16), bigSep_sep']

/-- The buffer whole is slot 0 and the other fifteen slots. -/
theorem comm_split0 (c : Dev nD) (q : PosShare TreeShare) (f : Buf (Elt F) ((c : Thread nD τ).loc cc0_scratch1)) :
    ((((c : Thread nD τ).loc cc0_scratch1) ↦{q} f : sProp 𝕄)) ⊢ iprop(slotPts c 0 q f ∗ bigSep S0 fun d => slotPts c d q f) :=
  (comm_slots c q f).1.trans (Entails.of_eq (bigSep_univ_at _ (0 : Fin 16)))

/-- What the fifteen signals hand over: each barrier token with the slot of the opposite offset. -/
theorem sig_pack (c : Dev nD) (f : Buf (Elt F) ((c : Thread nD τ).loc cc0_scratch1)) :
    iprop((bigSep S0 fun d => dutyTok ER (barCell (rot c d)) 0 d) ∗ bigSep S0 fun d => slotPts (F := F) c d fullShare f)
      ⊢ bigSep S0 fun d => iprop(dutyTok ER (barCell (rot c d)) 0 d ∗ ∃ f, slotPts (F := F) c (neg d) fullShare f) := by
  rw [← bigSep_erase0_neg (fun d => slotPts (F := F) c d fullShare f), ← bigSep_sep']
  exact bigSep_mono fun d _ =>
    show iprop(dutyTok ER (barCell (rot c d)) 0 d ∗ slotPts (F := F) c (neg d) fullShare f)
      ⊢ (iprop(dutyTok ER (barCell (rot c d)) 0 d ∗ ∃ f, slotPts (F := F) c (neg d) fullShare f) : sProp 𝕄) from by
    iintro ⟨H1, H2⟩
    isplitl [H1]; · iexact H1
    iexists f; iexact H2

/-- What the barrier wait brings: for each offset, the slot of the device that many places on. -/
theorem bar_unpack (c : Dev nD) :
    (bigSep S0 fun dn => barPay (F := F) c dn) ⊢ bigSep S0 fun d => iprop(∃ f, slotPts (F := F) (rot c d) d fullShare f) := by
  rw [← bigSep_erase0_neg (fun d => iprop(∃ f, slotPts (F := F) (rot c d) d fullShare f))]
  exact bigSep_mono fun d _ =>
    show barPay (F := F) c d ⊢ (iprop(∃ f, slotPts (F := F) (rot c (neg d)) (neg d) fullShare f) : sProp 𝕄) from by
    unfold barPay
    iintro ⟨H, -⟩; iexact H

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

set_option maxRecDepth 4000 in
def bodyPost (c : Dev nD) : sProp 𝕄 :=
  iprop(Φ₁ m c ∗ (dats m ρ 0 c).owesAt () t₀.succ ∗ stg c cc0_stg0_0 (outAt m c))

set_option maxHeartbeats 1600000 in
theorem sound_body (c : Dev nD) : bodyPre m ρ c ⊢ WP c (bodyP (F := F) c) (fun _ => bodyPost m ρ c) := by
  unfold bodyPre Φ₀ start ghost linear commPts bodyP
  iintro ⟨⟨⟨⟨%K, #HR, HatB, HatC, HtC, Hats, Htoks⟩, HcB, HcR, #Hlev⟩, Hx, Hxv, ⟨%fc, Hcomm⟩⟩, Ho, ⟨%d0, %g0, %hg0, Hout⟩⟩
  unfold Dat.owesAt Pipeline.owesWithin
  icases Ho with ⟨%W, %hW, HO⟩
  rw [show (dats m ρ 0 c).owed t₀.castSucc = O₀ c from rfl]
  -- the families, one per kind
  ihave Ht := (Entails.of_eq (sep3 (fun d => dutyTok ER (barCell (rot c d)) 0 d) (fun d => dutyTok ER (sendCell c d) 0 0)
    (fun d => dutyTok ER (recvCell (rot c d) d) 0 0))) $$ Htoks
  icases Ht with ⟨HtB, HtS, HtR⟩
  ihave Ha := (Entails.of_eq (pairs_split (fun d => atPos ER (sendCell c d) 0 ∅ 0) (fun d => atPos ER (recvCell c d) 0 ∅ 0))) $$ Hats
  icases Ha with ⟨⟨HaS0, HaR0⟩, HaS, HaR⟩
  ihave Hs := (comm_split0 c fullShare fc) $$ Hcomm
  icases Hs with ⟨Hs0, Hsl⟩
  -- the fifteen signals: each hands the device that many places on the slot it will copy into
  iapply (wp_sigs m K c (fun _ => bodyPost m ρ c) offs offs_nodup offs_ne_zero (owedRecv c 0) _)
  rw [offs_toFinset]
  isplitr; · iexact HR
  isplitl [HO]
  · unfold owesE; iexists W; rw [← offs_toFinset, owedBar_offs]; iexact HO
  isplitl [HtB Hsl]
  · iapply (sig_pack c fc); isplitl [HtB]; · iexact HtB
    iexact Hsl
  iintro HO
  -- the local stretch: the block's column maxima into slot 0
  iapply (wp_local m K c (fun _ => bodyPost m ρ c) _ fc)
  isplitr; · iexact HR
  isplitl [Hx]; · iexact Hx
  isplitl [Hxv]; · iexact Hxv
  isplitl [Hs0]; · iexact Hs0
  isplitl [HtC]; · iexact HtC
  isplitl [HatC]; · iexact HatC
  isplitl [HO]; · iexact HO
  isplitr; · iexact Hlev
  iintro ⟨Hx, Hxv, Hs0, HatC, HO⟩
  -- the barrier wait: every other device is inside, and has handed over the slot to copy into
  iapply (wp_barWait m K c (fun _ => bodyPost m ρ c) _)
  isplitr; · iexact HR
  isplitl [HcB]; · iexact HcB
  isplitl [HO]; · iexact HO
  isplitr; · iexact Hlev
  isplitl [HatB]; · iexact HatB
  iintro ⟨HO, HatB, Hpay⟩
  ihave Hp := (bar_unpack (F := F) c) $$ Hpay
  -- slot 0's read shares: one per copy, the kept one for the final load
  ihave Hk0 := (slot0_toks c (commFinal m c)).1 $$ Hs0
  icases Hk0 with ⟨Hkeep, Htk⟩
  ihave Htk' := (Entails.of_eq (bigSep_univ_at (fun i : Fin 16 => slotPts c 0 (tok i) (commFinal m c)) (0 : Fin 16))) $$ Htk
  icases Htk' with ⟨Htk0, Htks⟩
  -- the fifteen copies
  rw [sendDev_eq]
  iapply (wp_sends m K c (fun _ => bodyPost m ρ c) offs offs_nodup offs_ne_zero 0 _)
  rw [zero_add, owedRecv_offs, offs_toFinset]
  isplitr; · iexact HR
  isplitl [HO]; · iexact HO
  isplitl [Htks Hp HtS HtR]
  · iapply (Entails.of_eq (sep4 (fun d => slotPts c 0 (tok d) (commFinal m c)) (fun d => iprop(∃ f, slotPts (F := F) (rot c d) d fullShare f))
      (fun d => dutyTok ER (sendCell c d) 0 0) (fun d => dutyTok ER (recvCell (rot c d) d) 0 0)).symm)
    isplitl [Htks]; · iexact Htks
    isplitl [Hp]; · iexact Hp
    isplitl [HtS]; · iexact HtS
    iexact HtR
  iintro ⟨HO, Hcs⟩
  -- the fifteen receive waits
  iapply (wp_recvWaits m K c (fun _ => bodyPost m ρ c) offs offs_nodup offs_ne_zero _)
  rw [offs_toFinset]
  isplitr; · iexact HR
  isplitl [HO]; · iexact HO
  isplitl [HcR HaR]
  · iapply (Entails.of_eq (bigSep_sep' S0 (fun d => cred (tallyAt (recvCell c d) () N)) (fun d => atPos ER (recvCell c d) 0 ∅ 0)).symm)
    isplitl [HcR]; · iexact HcR
    iexact HaR
  iintro ⟨HO, Hrw⟩
  ihave Hrw' := (Entails.of_eq (bigSep_sep' S0 (fun d => atPos ER (recvCell c d) 1 ∅ 0) (fun d => slotPts c d fullShare (commFinal m c)))) $$ Hrw
  icases Hrw' with ⟨HaR1, Hsl⟩
  -- all sixteen slots at the kept share; the maximum over them into the result
  ihave Hg := (gather_keep c (commFinal m c)) $$ [Hkeep Hsl]
  · isplitl [Hkeep]; · iexact Hkeep
    iexact Hsl
  icases Hg with ⟨Hwhole, Hrt⟩
  iapply (wp_final m c (fun _ => bodyPost m ρ c) _ g0)
  isplitl [Hwhole]; · iexact Hwhole
  isplitl [Hout]; · iexact Hout
  iintro ⟨Hwhole, Hout⟩
  -- the fifteen send waits: the read shares back
  iapply (wp_sendWaits m K c (fun _ => bodyPost m ρ c) offs offs_nodup offs_ne_zero _)
  rw [offs_toFinset]
  isplitr; · iexact HR
  isplitl [HO]; · iexact HO
  isplitl [Hcs HaS]
  · iapply (Entails.of_eq (bigSep_sep' S0 (fun d => cred (tallyAt (sendCell c d) () N)) (fun d => atPos ER (sendCell c d) 0 ∅ 0)).symm)
    isplitl [Hcs]; · iexact Hcs
    iexact HaS
  iintro ⟨HO, Hsw⟩
  ihave Hsw' := (Entails.of_eq (bigSep_sep' S0 (fun d => atPos ER (sendCell c d) 1 ∅ 0) (fun d => slotPts c 0 (tok d) (commFinal m c)))) $$ Hsw
  icases Hsw' with ⟨HaS1, Htks⟩
  -- the buffer whole again
  ihave Htk := (Entails.of_eq (bigSep_univ_at (fun i : Fin 16 => slotPts c 0 (tok i) (commFinal m c)) (0 : Fin 16)).symm) $$ [Htk0 Htks]
  · isplitl [Htk0]; · iexact Htk0
    iexact Htks
  ihave Hcomm := (regather c (commFinal m c)) $$ [Hwhole Hrt Htk]
  · isplitl [Hwhole]; · iexact Hwhole
    isplitl [Hrt]; · iexact Hrt
    iexact Htk
  -- every own cell closes
  imod (close_cells m K c) $$ [HatC HaS0 HaR0 HaS1 HaR1] with ⟨HzC, Hz⟩
  · isplitr; · iexact HR
    isplitl [HatC]; · iexact HatC
    isplitl [HaS0]; · iexact HaS0
    isplitl [HaR0]; · iexact HaR0
    isplitl [HaS1]; · iexact HaS1
    iexact HaR1
  unfold owesE
  icases HO with ⟨%W', HO⟩
  rw [wp_ret]; imodintro
  unfold bodyPost Φ₁ Dat.owesAt Pipeline.owesWithin
  rw [show (dats m ρ 0 c).owed t₀.succ = 0 from rfl]
  isplitl [Hx Hxv Hcomm HzC Hz]
  · isplitl [Hx]; · iexact Hx
    isplitl [Hxv]; · iexists _; iexact Hxv
    isplitl [Hcomm]; · iexists _; iexact Hcomm
    isplitl [HzC]; · iexact HzC
    iexact Hz
  isplitl [HO]
  · iexists W'
    isplitr; · ipureintro; exact fun _ _ => Or.inl trivial
    iexact HO
  iexists _; isplitr; · (ipureintro; rfl)
  iexact Hout

/-! ## The library's body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ (c : Thread nD τ) none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _) cc0_scratch2 cc0_scratch3 cc0_scratch4)
    (fun _ => bodyPost m ρ c)
  rw [body_eq]
  exact sound_body m ρ c

/-- info: 'Cert.Kernel.Coll.body_obligation' depends on axioms: [propext, Classical.choice, Quot.sound] -/
#guard_msgs in #print axioms body_obligation

end Cert.Kernel.Coll

end
-- ==== Proof.KRunStmt.lean ====
/-
  What the run of the kernel on the sixteen devices is proved to end in: on every device the result array at the
  proof data's final contents, and the argument array as launched.
-/
import proofs.«900905_g7700000000000906_dist_max_ax0_shard0_i_m1024_n512_v7x_i16_f32_1_alg».proof.Proof.KProtocol

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- Each windowed array's final contents, as the proof data computes them. -/
def finalA (c : Dev nD) (w : Fin cfg0.W) : Buf (Elt F) ((cfg0.win w).arr.view.loc (c : Thread nD τ)) := (dats m ρ 0 c).arrAt w cfg0.N

/-- The run's post: every device's result array at those contents, its argument array unchanged. -/
def QC : PUnit × MemSt nD τ sig (Elt F) → Prop := fun r => ∀ c : Dev nD,
  (∀ w : Fin cfg0.W, r.2.mem ((cfg0.win w).arr.view.loc (c : Thread nD τ)) = finalA m ρ c w)
  ∧ r.2.mem ((c : Thread nD τ).loc main_arg0) = m ((c : Thread nD τ).loc main_arg0)

end Cert.Kernel.Coll

end
-- ==== Proof.KLaunchGhost.lean ====
/-
  The ring's ghost state at launch. The element of the user algebra the launch starts from funds, for every
  device, the round state at counter zero of each of its thirty-four cells, the owner's position at the start
  of each, the fact that round 0 of each is reached, and the token of every duty of round 0. One global step
  puts every cell's counter and round state under an invariant, for all devices at once, and deals the tokens
  round the ring: the token of duty `d` of a barrier cell goes to the device `d` places before its owner, the
  token of the receive cell of offset `d` likewise, and the tokens of the local copy and of the send cells stay
  with their owner. Each device then holds what its body starts from.
-/
import proofs.«900905_g7700000000000906_dist_max_ax0_shard0_i_m1024_n512_v7x_i16_f32_1_alg».proof.Proof.KProtocol

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## The cells, and the tokens minted at launch -/

theorem ownSemFacts : Pipeline.OwnSemFacts cfg0.spec osem := by decide

theorem csem_injective : Function.Injective (csem : Fin 34 → SemLoc sig) := by
  intro k k' h
  by_cases hk : k = 0 <;> by_cases hk' : k' = 0
  · rw [hk, hk']
  · rw [show csem k = SemLoc.reg barS from if_pos hk, show csem k' = SemLoc.dma (show DmaSem sig from k') from if_neg hk'] at h
    cases h
  · rw [show csem k = SemLoc.dma (show DmaSem sig from k) from if_neg hk, show csem k' = SemLoc.reg barS from if_pos hk'] at h
    cases h
  · rw [show csem k = SemLoc.dma (show DmaSem sig from k) from if_neg hk, show csem k' = SemLoc.dma (show DmaSem sig from k') from if_neg hk'] at h
    exact SemLoc.dma.inj h

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The offsets other than 0. -/
abbrev NZ : Type := {d : Fin 16 // d ≠ 0}
/-- The duties of one device's cells at round 0: the local copy's one; and per offset `d ≠ 0` duty `d` of the barrier
    cell (0), the send cell's one (1), the receive cell's one (2). -/
abbrev TokIx : Type := Unit ⊕ (Fin 3 × NZ)

/-- The cell's index and the duty of each. -/
def tokKey : TokIx → Fin 34 × Fin 16
  | .inl _ => (1, 0)
  | .inr (0, d) => (0, d.1)
  | .inr (1, d) => (sendIx d.1, 0)
  | .inr (2, d) => (recvIx d.1, 0)

theorem tokKey_injective : Function.Injective tokKey := by decide +kernel

abbrev tokOf (cj : Dev nD × TokIx) : GSem nD τ sig × ℕ × Fin 16 := (kcell (cj.1, (tokKey cj.2).1), 0, (tokKey cj.2).2)

theorem tokOf_injective : Function.Injective (tokOf : Dev nD × TokIx → GSem nD τ sig × ℕ × Fin 16) := by
  rintro ⟨c, j⟩ ⟨c', j'⟩ h
  have h1 : kcell (c, (tokKey j).1) = kcell (c', (tokKey j').1) := congrArg (fun x : GSem nD τ sig × ℕ × Fin 16 => x.1) h
  have h2 : (tokKey j).2 = (tokKey j').2 := congrArg (fun x : GSem nD τ sig × ℕ × Fin 16 => x.2.2) h
  have h3 := kcell_injective h1
  have hc : c = c' := congrArg Prod.fst h3
  have hk : (tokKey j).1 = (tokKey j').1 := congrArg Prod.snd h3
  rw [hc, tokKey_injective (Prod.ext hk h2)]

def ringToks : Finset (GSem nD τ sig × ℕ × Fin 16) := Finset.univ.map ⟨tokOf, tokOf_injective⟩

def u₀ : UU := (initOf (Pipeline.cells cfgs Gen.cellOf_inj) (Pipeline.launchToks cfgs Gen.cellOf_inj), initOf ringCells ringToks)

/-- The duty tokens of device `c`'s own cells. -/
def toks (c : Dev nD) : sProp 𝕄 :=
  iprop(dutyTok ER (copyCell c) 0 0
    ∗ (bigSep (Finset.univ.erase (0 : Fin 16)) fun d => dutyTok ER (barCell c) 0 d)
    ∗ (bigSep (Finset.univ.erase (0 : Fin 16)) fun d => dutyTok ER (sendCell c d) 0 0)
    ∗ (bigSep (Finset.univ.erase (0 : Fin 16)) fun d => dutyTok ER (recvCell c d) 0 0))

/-- What the launch element deals device `c`: the round state at counter zero of each of its cells, its position at the
    start of each and that round 0 of each is reached, and the tokens of its own cells' duties. -/
def G (c : Dev nD) : sProp 𝕄 :=
  iprop((bigSep Finset.univ fun k : Fin 34 => roundState ER (Rd m) (kcell (c, k)) 0)
    ∗ (bigSep Finset.univ fun k : Fin 34 => iprop(atPos ER (kcell (c, k)) 0 ∅ 0 ∗ reached ER (kcell (c, k)) 0)) ∗ toks c)

/-- What the global step makes of it. -/
def G' (c : Dev nD) : sProp 𝕄 := iprop(∃ K, ghost m K c)

/-! ## Regrouping families of assertions -/

/-- A family over `Fin (n + 1)`: the member at 0 and the family of the successors. -/
theorem bigSep_fin_succ {n : ℕ} (Φ : Fin (n + 1) → sProp 𝕄) :
    bigSep Finset.univ Φ = iprop(Φ 0 ∗ bigSep Finset.univ fun k : Fin n => Φ k.succ) := by
  have hne : (0 : Fin (n + 1)) ∉ Finset.univ.map ⟨Fin.succ, Fin.succ_injective _⟩ := by
    intro h; obtain ⟨k, -, hk⟩ := Finset.mem_map.mp h; exact Fin.succ_ne_zero k hk
  rw [Fin.univ_succ, Finset.cons_eq_insert, bigSep_insert hne, bigSep_map]
  rfl

def sendEmb : Fin 16 ↪ Fin 34 := ⟨sendIx, by decide⟩
def recvEmb : Fin 16 ↪ Fin 34 := ⟨recvIx, by decide⟩

/-- A family over the thirty-four indices: the barrier's, the local copy's, the sixteen send and the sixteen receive
    indices. -/
theorem bigSep_fin34 (Φ : Fin 34 → sProp 𝕄) :
    bigSep Finset.univ Φ
      = iprop(Φ 0 ∗ Φ 1 ∗ (bigSep Finset.univ fun d : Fin 16 => Φ (sendIx d)) ∗ bigSep Finset.univ fun d : Fin 16 => Φ (recvIx d)) := by
  have hU : (Finset.univ : Finset (Fin 34)) = insert 0 (insert 1 (Finset.univ.map sendEmb ∪ Finset.univ.map recvEmb)) := by decide +kernel
  have h0 : (0 : Fin 34) ∉ insert 1 (Finset.univ.map sendEmb ∪ Finset.univ.map recvEmb) := by decide +kernel
  have h1 : (1 : Fin 34) ∉ Finset.univ.map sendEmb ∪ Finset.univ.map recvEmb := by decide +kernel
  have hd : Disjoint (Finset.univ.map sendEmb) (Finset.univ.map recvEmb) := by decide +kernel
  rw [hU, bigSep_insert h0, bigSep_insert h1, bigSep_union hd, bigSep_map, bigSep_map]
  rfl

/-- A family over the cells of one device, by their names. -/
theorem bigSep_cells (c : Dev nD) (Φ : GSem nD τ sig → sProp 𝕄) :
    (bigSep Finset.univ fun k : Fin 34 => Φ (kcell (c, k)))
      = iprop(Φ (barCell c) ∗ Φ (copyCell c) ∗ (bigSep Finset.univ fun d : Fin 16 => Φ (sendCell c d))
          ∗ bigSep Finset.univ fun d : Fin 16 => Φ (recvCell c d)) := by
  rw [bigSep_fin34, kcell_bar, kcell_copy,
    bigSep_congr (s := Finset.univ) (fun (d : Fin 16) _ => congrArg Φ (kcell_send c d)),
    bigSep_congr (s := Finset.univ) (fun (d : Fin 16) _ => congrArg Φ (kcell_recv c d))]

/-- Iterated families over a universe and over a set commute. -/
theorem bigSep_univ_set_comm {α β : Type} [Fintype α] [DecidableEq β] (t : Finset β) (Φ : α → β → sProp 𝕄) :
    bigSep Finset.univ (fun a => bigSep t (fun b => Φ a b)) = bigSep t (fun b => bigSep Finset.univ (fun a => Φ a b)) := by
  induction t using Finset.induction_on with
  | empty => simp only [bigSep_empty]; exact bigSep_emp_const _
  | insert b t hb ih =>
    rw [bigSep_insert hb, ← ih, ← bigSep_sep]
    exact bigSep_congr fun a _ => bigSep_insert hb

/-- A family over devices and offsets, each member moved to the device that many places before: shifting by one offset
    permutes the devices. -/
theorem bigSep_rot (s : Finset (Fin 16)) (Ψ : Dev nD → Fin 16 → sProp 𝕄) :
    bigSep Finset.univ (fun c => bigSep s (fun d => Ψ c d)) = bigSep Finset.univ (fun c => bigSep s (fun d => Ψ (rot c d) d)) := by
  rw [bigSep_univ_set_comm s Ψ, bigSep_univ_set_comm s (fun c d => Ψ (rot c d) d)]
  exact bigSep_congr fun d _ => bigSep_univ_equiv (rotEquiv d) (fun c => Ψ c d)

/-! ## Funding -/

theorem bigSep_ringCells (Φ : GSem nD τ sig → sProp 𝕄) :
    bigSep ringCells Φ = bigSep Finset.univ fun c : Dev nD => bigSep Finset.univ fun k : Fin 34 => Φ (kcell (c, k)) := by
  unfold ringCells; rw [bigSep_map, bigSep_univ_prod]; rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_ringToks :
    bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks
  rw [bigSep_univ_sum, bigSep_univ_of_subsingleton (), bigSep_univ_prod, bigSep_fin3,
    ← bigSep_subtype_ne (0 : Fin 16) (fun d => (dutyTok ER (barCell c) 0 d : sProp 𝕄)),
    ← bigSep_subtype_ne (0 : Fin 16) (fun d => (dutyTok ER (sendCell c d) 0 0 : sProp 𝕄)),
    ← bigSep_subtype_ne (0 : Fin 16) (fun d => (dutyTok ER (recvCell c d) 0 0 : sProp 𝕄))]
  show iprop(dutyTok ER (kcell (c, 1)) 0 0
      ∗ (bigSep Finset.univ fun d : NZ => dutyTok ER (kcell (c, 0)) 0 d.1)
      ∗ (bigSep Finset.univ fun d : NZ => dutyTok ER (kcell (c, sendIx d.1)) 0 0)
      ∗ (bigSep Finset.univ fun d : NZ => dutyTok ER (kcell (c, recvIx d.1)) 0 0)) = _
  rw [kcell_copy,
    bigSep_congr (s := Finset.univ) (fun (d : NZ) _ => congrArg (fun g => (dutyTok ER g 0 0 : sProp 𝕄)) (kcell_send c d.1)),
    bigSep_congr (s := Finset.univ) (fun (d : NZ) _ => congrArg (fun g => (dutyTok ER g 0 0 : sProp 𝕄)) (kcell_recv c d.1))]
  rfl

theorem fund_ring : BI.own (ER (initOf ringCells ringToks)) ⊢ (|==> bigSep Finset.univ (G (F := F) m) : sProp 𝕄) := by
  iintro HX
  imod (Rounds.fund ER (Rd m) ringCells ringToks) $$ HX with ⟨Hst, Hr, Hat, Htok⟩
  imodintro
  ihave Hst' := (Entails.of_eq (bigSep_ringCells fun g => roundState ER (Rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq (bigSep_ringToks (F := F))) $$ Htok
  unfold G; simp only [bigSep_sep']
  isplitl [Hst']; · iexact Hst'
  isplitl [Hat' Hr']
  · isplitl [Hat'] <;> iassumption
  iexact Htok'

/-! ## The counters at zero, cell by cell -/

theorem kcell_succ (c : Dev nD) (k : Fin 33) : kcell (c, k.succ) = ((c : Thread nD τ), osem k) := by
  show ((c : Thread nD τ), csem k.succ) = _
  rw [show csem k.succ = osem k from if_neg (Fin.succ_ne_zero k)]

/-- The barrier semaphore is the one semaphore of a core that no scope allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 34 => semVal (kcell (c, k)) 0 : sProp 𝕄) := by
  rw [unscopedSems0_eq, bigSep_fin_succ,
    bigSep_congr (s := Finset.univ) (fun (k : Fin 33) _ => congrArg (fun g => (semVal g 0 : sProp 𝕄)) (kcell_succ c k))]
  unfold Pipeline.ownSems0
  iintro ⟨HS, HB⟩
  isplitl [HB]; · iexact HB
  iexact HS

/-- Each cell's counter at zero and its round state at zero go under an invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 34 => semVal (kcell (c, k)) 0) ∗ bigSep Finset.univ fun k : Fin 34 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring -/

theorem ghost_intro (K : Dev nD × Fin 34 → ℕ) (c : Dev nD) : iprop(records m K ∗ linear c) ⊢ G' m c := by
  unfold G' ghost
  iintro H
  iexists K
  iexact H

/-- The tokens of the duties device `c` pays. -/
def payToks (c : Dev nD) : sProp 𝕄 :=
  iprop(dutyTok ER (copyCell c) 0 0
    ∗ bigSep (Finset.univ.erase (0 : Fin 16)) fun d =>
        iprop(dutyTok ER (barCell (rot c d)) 0 d ∗ dutyTok ER (sendCell c d) 0 0 ∗ dutyTok ER (recvCell (rot c d) d) 0 0))

/-- The token of duty `d` of a barrier cell, and of the receive cell of offset `d`, go to the device `d` places before the
    owner; the local copy's and the send cells' stay. -/
theorem toks_around : (bigSep Finset.univ fun c : Dev nD => (toks c : sProp 𝕄)) ⊢ bigSep Finset.univ fun c : Dev nD => payToks c := by
  unfold toks payToks
  simp only [bigSep_sep']
  iintro ⟨HC, HB, HS, HR⟩
  isplitl [HC]; · iexact HC
  isplitl [HB]
  · iapply (Entails.of_eq (bigSep_rot (Finset.univ.erase (0 : Fin 16)) (fun c d => (dutyTok ER (barCell c) 0 d : sProp 𝕄))))
    iexact HB
  isplitl [HS]; · iexact HS
  iapply (Entails.of_eq (bigSep_rot (Finset.univ.erase (0 : Fin 16)) (fun c d => (dutyTok ER (recvCell c d) 0 0 : sProp 𝕄))))
  iexact HR

/-- A device's positions at its cells and the tokens of the duties it pays are what it alone holds. -/
theorem linear_intro (c : Dev nD) :
    iprop((bigSep Finset.univ fun k : Fin 34 => atPos ER (kcell (c, k)) 0 ∅ 0) ∗ payToks c) ⊢ (linear c : sProp 𝕄) := by
  rw [bigSep_cells c (fun g => (atPos ER g 0 ∅ 0 : sProp 𝕄))]
  unfold payToks linear
  simp only [bigSep_sep']
  iintro ⟨⟨HaB, HaC, HaS, HaR⟩, HtC, Htk⟩
  isplitl [HaB]; · iexact HaB
  isplitl [HaC]; · iexact HaC
  isplitl [HtC]; · iexact HtC
  isplitl [HaS HaR]
  · isplitl [HaS] <;> iassumption
  iexact Htk

theorem regroup :
    (bigSep Finset.univ fun c : Dev nD => iprop((bigSep Finset.univ fun k => iprop(∃ κ : ℕ, cellInv ER (Rd m) κ (kcell (c, k))))
          ∗ (bigSep Finset.univ fun k : Fin 34 => iprop(atPos ER (kcell (c, k)) 0 ∅ 0 ∗ reached ER (kcell (c, k)) 0)) ∗ toks c) : sProp 𝕄)
      ⊢ bigSep Finset.univ (G' (F := F) m) := by
  rw [bigSep_sep', bigSep_sep', ← bigSep_univ_prod (fun ck : Dev nD × Fin 34 => iprop(∃ κ : ℕ, cellInv ER (Rd m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 34 => (atPos ER (kcell (c, k)) 0 ∅ 0 : sProp 𝕄)) payToks).symm).trans
      (bigSep_mono fun c _ => linear_intro (F := F) c))
    isplitl [Hat]; · iexact Hat
    iexact Htk

/-- The global step: every device's own and unscoped semaphores at zero and its share of the launch element become,
    for every device, what its body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Coll.glob' depends on axioms: [propext, Classical.choice, Quot.sound] -/
#guard_msgs in #print axioms glob

end Cert.Kernel.Coll

end
-- ==== Proof.KLaunch.lean ====
/-
  The launch of the sixteen kernels: from the body proved on every device to the run of @main. What each device is dealt at
  launch of the credit the others owe its cells (fifteen units on its barrier cell, one slot's credit on each receive
  cell), the argument array carried from the launch through the point and read back at the end, the kernel's own
  semaphores handed back at zero, and the level of the result's staging semaphore.
-/
import proofs.«900905_g7700000000000906_dist_max_ax0_shard0_i_m1024_n512_v7x_i16_f32_1_alg».proof.Proof.KProtocol
import proofs.«900905_g7700000000000906_dist_max_ax0_shard0_i_m1024_n512_v7x_i16_f32_1_alg».proof.Proof.KRunStmt
import proofs.«900905_g7700000000000906_dist_max_ax0_shard0_i_m1024_n512_v7x_i16_f32_1_alg».proof.Proof.KLaunchGhost

noncomputable section

namespace Cert.Kernel.Coll

open Cert.Kernel
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The whole-buffer holdings as plain points-tos -/

theorem xPts_eq (c : Dev nD) :
    xPts m c = (((c : Thread nD τ).loc main_arg0) ↦{fullShare} m ((c : Thread nD τ).loc main_arg0) : sProp 𝕄) := by
  unfold xPts; rw [View.set_whole]
theorem xvPts_eq (c : Dev nD) (f : Buf (Elt F) ((c : Thread nD τ).loc cc0_scratch0)) :
    xvPts c f = (((c : Thread nD τ).loc cc0_scratch0) ↦{fullShare} f : sProp 𝕄) := by
  unfold xvPts; rw [View.set_whole]

/-! ## The launch credit -/

/-- Equal tallies on one cell, summed over a finite set. -/
theorem sum_tallyAt_const {α : Type} [DecidableEq α] (s : Finset α) (g : GSem nD τ sig) (k : ℕ) :
    (∑ _a ∈ s, tallyAt g () k : CellTallies nD τ sig Unit) = tallyAt g () (s.card * k) := by
  induction s using Finset.induction_on with
  | empty => rw [Finset.sum_empty, Finset.card_empty, Nat.zero_mul, tallyAt_zero]
  | insert a s ha ih =>
    rw [Finset.sum_insert ha, ih, Finset.card_insert_of_notMem ha, tallyAt_add]
    congr 1; ring

theorem card_above_0 : (above 0).card = 15 := by decide

/-- Every device owes the receive cell of slot `d` of the device `d` places on one slot's credit, for each offset `d ≠ 0`:
    device `c` is dealt that credit on each of its own receive cells, its payer being the device `d` places before it. -/
theorem recvCred (c : Dev nD) :
    (Pipeline.launchCred (fun d => owedRecv d 0) c : sProp 𝕄)
      ⊢ bigSep (Finset.univ.erase (0 : Fin 16)) fun d => cred (tallyAt (recvCell c d) () N) := by
  rw [show (fun d : Dev nD => owedRecv d 0) = fun d => ∑ e ∈ above 0, tallyAt (recvCell (rot d e) e) () N from rfl,
    Pipeline.launchCred_sum (above 0) (fun e d => tallyAt (recvCell (rot d e) e) () N) c, above_0]
  exact bigSep_mono fun e _ =>
    Pipeline.launchCred_tallyAt (SemLoc.dma (recvS e).sem) (fun d => rot d e) (fun d => rot d (neg e))
      (fun d => rot_neg_rot d e) (fun d => rot_rot_neg d e) () N c

/-- Every device owes the barrier cell of each of the other fifteen one unit: device `c` is dealt fifteen units on its own. -/
theorem barCred (c : Dev nD) :
    (Pipeline.launchCred (fun d => owedBar d 0) c : sProp 𝕄) ⊢ cred (tallyAt (barCell c) () 15) := by
  rw [show (fun d : Dev nD => owedBar d 0) = fun d => ∑ e ∈ above 0, tallyAt (barCell (rot d e)) () 1 from rfl,
    Pipeline.launchCred_sum (above 0) (fun e d => tallyAt (barCell (rot d e)) () 1) c]
  rw [show (tallyAt (barCell c) () 15 : CellTallies nD τ sig Unit) = ∑ _e ∈ above 0, tallyAt (barCell c) () 1 from by
    rw [sum_tallyAt_const, card_above_0], Pipeline.cred_finsetSum]
  exact bigSep_mono fun e _ =>
    Pipeline.launchCred_tallyAt (SemLoc.reg barS) (fun d => rot d e) (fun d => rot d (neg e))
      (fun d => rot_neg_rot d e) (fun d => rot_rot_neg d e) () 1 c

end Launch

open Launch

theorem creds (c : Dev nD) :
    (Pipeline.launchCred O₀ c : sProp 𝕄)
      ⊢ iprop(cred (tallyAt (barCell c) () 15) ∗ bigSep (Finset.univ.erase (0 : Fin 16)) fun d => cred (tallyAt (recvCell c d) () N)) := by
  rw [show (O₀ : Dev nD → CellTallies nD τ sig Unit) = fun d => owedRecv d 0 + owedBar d 0 from rfl, Pipeline.launchCred_add]
  iintro ⟨HR, HB⟩
  isplitl [HB]
  · iapply (barCred (F := F) c); iexact HB
  · iapply (recvCred (F := F) c); iexact HR

/-! ## The theorem's side conditions -/

namespace Launch

theorem share_eq (c : Dev nD) (w : Fin cfg0.W) : (dats m ρ 0 c).share w = fullShare := by unfold Dat.share; split <;> rfl

/-- The kernel's own semaphores by role: the copy's, then the sixteen send and the sixteen receive semaphores. -/
def semIx : Fin 1 ⊕ (Fin 16 ⊕ Fin 16) ≃ Fin 33 := (Equiv.sumCongr (Equiv.refl (Fin 1)) finSumFinEquiv).trans finSumFinEquiv

theorem osem_copy : osem (semIx (.inl 0)) = SemLoc.dma copyS.sem := by decide
theorem osem_send (d : Fin 16) : osem (semIx (.inr (.inl d))) = SemLoc.dma (sendS d).sem := by revert d; decide
theorem osem_recv (d : Fin 16) : osem (semIx (.inr (.inr d))) = SemLoc.dma (recvS d).sem := by revert d; decide

theorem ownSems0_eq (c : Dev nD) :
    (Pipeline.ownSems0 (Ix := Unit) (Name := ℕ) (U := UU) (Lvl := ℕ) (Val := Elt F) (τ := τ) osem c : sProp 𝕄)
      = iprop(semVal (copyCell c) 0 ∗ bigSep Finset.univ fun d : Fin 16 => iprop(semVal (sendCell c d) 0 ∗ semVal (recvCell c d) 0)) := by
  unfold Pipeline.ownSems0
  rw [bigSep_univ_equiv semIx, bigSep_univ_sum, bigSep_univ_sum, bigSep_univ_of_subsingleton (0 : Fin 1), bigSep_sep']
  simp only [osem_copy, osem_send, osem_recv]
  rfl

end Launch

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c) ∗ emp) := by
  rw [Pipeline.unscopedRestP_none, Gen.unscopedRest0_eq, xPts_eq]
  iintro ⟨Hx, Hlev, Hcr, -, HG⟩
  ihave Hc := (creds (F := F) c) $$ Hcr
  icases Hc with ⟨H1, HN⟩
  imodintro
  unfold start G'
  isplitl
  · isplitr [Hx]
    · isplitl [HG]; · iexact HG
      isplitl [H1]; · iexact H1
      isplitl [HN]; · iexact HN
      iexact Hlev
    · iexact Hx
  · iempintro

theorem phi0_intro (c : Dev nD) :
    iprop((start m c ∗ xPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀
  iintro ⟨⟨Hs, Hx⟩, -, ⟨%f, Hv⟩, ⟨%g, Hc⟩⟩
  isplitl [Hs]; · iexact Hs
  isplitl [Hx]; · iexact Hx
  isplitl [Hv]
  · iexists f; rw [xvPts_eq]; iexact Hv
  · iexists g; unfold commPts; iexact Hc

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, Gen.scopedRest0_eq, ownSems0_eq]
  unfold Φ₁
  iintro ⟨Hx, ⟨%f, Hv⟩, ⟨%g, Hc⟩, Hcopy, Hsr⟩
  isplitl [Hx]; · iexact Hx
  isplitl [Hcopy Hsr]
  · isplitl [Hcopy]; · iexact Hcopy
    iexact Hsr
  · isplitl [Hv]
    · iexists f; rw [← xvPts_eq]; iexact Hv
    · iexists g; unfold commPts; iexact Hc

/-- The result's staging semaphore is none of the ring's: level 0. -/
theorem Launch.lv_stage (c : Dev nD) (w : Fin (cfgs 0).W) (s : Fin ((cfgs 0).win w).nbuf) :
    lv ((c : Thread nD τ), SemLoc.dma (((cfgs 0).win w).sem s)) () = 0 := by
  have h : ∀ (w : Fin (cfgs 0).W) (s : Fin ((cfgs 0).win w).nbuf),
      roleOf (SemLoc.dma (((cfgs 0).win w).sem s) : SemLoc sig) = Role.idle := by decide
  unfold lv; rw [h w s]

/-- The one staging semaphore sits below everything a device owes at launch; after the point it owes nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (lv_stage c w s)
    · rw [show (dats m ρ 0 c).owed ⟨_ + 1, ht⟩ = 0 from rfl, MayWait_zero]; iintro -; iempintro

/-! ## The run -/

set_option maxRecDepth 8000 in
/-- At the compiled mesh of sixteen devices, for any float values, from any memory with zero counters, given the body
    proved on every device: every weakly fair execution of @main terminates, and every final state has each device's
    result array at the computed contents and its argument array unchanged. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := hbody) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(start m c ∗ xPts m c)) (Y := fun c => xPts m c) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      show iprop(xPts m c ∗ emp ∗ SI s') ⊢ _
      rw [xPts_eq]
      iintro ⟨Hx, -, HSI⟩
      icombine HSI Hx gives %hx
      imodintro
      isplitr; · ipureintro; exact Buf.eq_of_forall_mem_univ hx
      iexact HSI)
    (hQ := fun _ h c => ⟨fun w => (h c).1 w, (h c).2.2⟩)

/-- info: 'Cert.Kernel.Coll.run_main' depends on axioms: [propext, Classical.choice, Quot.sound] -/
#guard_msgs in #print axioms run_main

end Cert.Kernel.Coll

end
-- ==== Proof.Value.lean ====
/-
  The value of the all-reduce, and the claims about the reference.

  Device `c` ends with the maximum over its sixteen slots. Slot `d` holds the column maxima of the block of the device
  `d` places before `c`; as `d` runs over the sixteen offsets those devices are all sixteen, and row `r` of block `c'`
  is row `1024 c' + r` of the whole [16384, 512] array. So the result at column `j` is the maximum of column `j` over all
  16384 rows, taken from the same starting value (the pattern of -∞) on both sides: what the reference computes by one
  reduction over axis 0 and a broadcast to one row. Both sides are folds of `max`, compared by the universal property
  of a maximum (it bounds every term from above, and is bounded by any bound of the terms and the starting value), so
  nothing is asked of the entries: they may be infinite.
-/
import proofs.«900905_g7700000000000906_dist_max_ax0_shard0_i_m1024_n512_v7x_i16_f32_1_alg».proof.Proof.Protocol
import proofs.«900905_g7700000000000906_dist_max_ax0_shard0_i_m1024_n512_v7x_i16_f32_1_alg».proof.Proof.RunStmt
import proofs.«900905_g7700000000000906_dist_max_ax0_shard0_i_m1024_n512_v7x_i16_f32_1_alg».proof.Proof.Gen.ReferenceIdeal.Run
import proofs.«900905_g7700000000000906_dist_max_ax0_shard0_i_m1024_n512_v7x_i16_f32_1_alg».proof.Proof.Gen.ReferenceIdeal.Read
import proofs.«900905_g7700000000000906_dist_max_ax0_shard0_i_m1024_n512_v7x_i16_f32_1_alg».proof.Defs
import proofs.«900905_g7700000000000906_dist_max_ax0_shard0_i_m1024_n512_v7x_i16_f32_1_alg».proof.Proof.Gen.Pre_finite_inputs_Kernel
import proofs.«900905_g7700000000000906_dist_max_ax0_shard0_i_m1024_n512_v7x_i16_f32_1_alg».proof.Proof.Gen.Pre_finite_inputs_ReferenceIdeal
import Idealize.ShloMosaic.PureOps.Ideal.Laws
import Idealize.ShloMosaic.PureOps.Reduce
import Idealize.ShloMosaic.Lib.Layout
import Idealize.ShloMosaic.Lib.ValueIdx
import Idealize.ShloMosaic.Lib.ValueLayout
import Idealize.ShloMosaic.Lib.Pipeline.Cells
import Mathlib.Data.Finset.Fold

noncomputable section

namespace Cert.KernelIdeal.CollValue

open Cert.KernelIdeal Cert.KernelIdeal.Coll
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-! ## Sixteen blocks of 1024 rows -/

/-- The maximum over sixteen blocks of each block's maximum is the maximum over all 16384 rows, from any starting value
    `b` and with the blocks taken in any order `σ` that reaches every block: each side bounds every term of the other. -/
theorem fold_blocks (b : EReal) (f : Fin 16384 → EReal) (g : Fin 16 → Fin 1024 → EReal)
    (σ : Fin 16 → Fin 16) (hσ : ∀ c' : Fin 16, ∃ d, σ d = c')
    (hg : ∀ (c : Fin 16) (r : Fin 1024), g c r = f ⟨c.val * 1024 + r.val, by have := c.isLt; have := r.isLt; omega⟩) :
    (Finset.univ : Finset (Fin 16)).fold max b (fun d => (Finset.univ : Finset (Fin 1024)).fold max b (g (σ d)))
      = (Finset.univ : Finset (Fin 16384)).fold max b f := by
  apply le_antisymm
  · rw [Finset.fold_max_le]
    refine ⟨(Finset.le_fold_max _).2 (Or.inl le_rfl), fun d _ => ?_⟩
    rw [Finset.fold_max_le]
    refine ⟨(Finset.le_fold_max _).2 (Or.inl le_rfl), fun r _ => ?_⟩
    rw [hg]
    exact (Finset.le_fold_max _).2 (Or.inr ⟨_, Finset.mem_univ _, le_rfl⟩)
  · rw [Finset.fold_max_le]
    refine ⟨(Finset.le_fold_max _).2 (Or.inl le_rfl), fun R _ => ?_⟩
    obtain ⟨d, hd⟩ := hσ ⟨R.val / 1024, by have := R.isLt; omega⟩
    refine (Finset.le_fold_max _).2 (Or.inr ⟨d, Finset.mem_univ _, ?_⟩)
    refine (Finset.le_fold_max _).2 (Or.inr ⟨⟨R.val % 1024, Nat.mod_lt _ (by decide)⟩, Finset.mem_univ _, ?_⟩)
    rw [hd, hg]
    exact le_of_eq (congrArg f (Fin.ext (by simp only; omega)))

/-! ## The three reductions at a column -/

/-- A block's column maxima, as stored into a slot, at column `j`: the maximum of the block's column over its 1024 rows. -/
theorem pay1_apply (x : Vec Ideal S1024x512 .f32) (j : Fin 512) :
    Gen.k0_pay1 (F := Ideal) x (ix3 (0 : Fin 1) (0 : Fin 1) j)
      = (Finset.univ : Finset (Fin 1024)).fold max (FloatOps.ofBits (F := Ideal) .f32 0xFF800000#32) (fun r => x (ix2 r j)) := by
  unfold Gen.k0_pay1
  refine (shapeCast_ab_1ab_apply _ _ _ _ _).trans ?_
  refine (shapeCast_a_1a_apply _ _ _ _).trans ?_
  refine (Ideal.multiReduction_maximumf_single _ _ _ _ _ _).trans ?_
  refine Finset.fold_congr fun r _ => ?_
  show x _ = x _
  congr 1
  funext a
  match a with
  | ⟨0, _⟩ => rfl
  | ⟨1, _⟩ => rfl

/-- The maximum over the sixteen slots, at column `j`. -/
theorem pay2_apply (y : Vec Ideal S16x1x512 .f32) (u : Fin 1) (j : Fin 512) :
    Gen.k0_pay2 (F := Ideal) y (ix2 u j)
      = (Finset.univ : Finset (Fin 16)).fold max (FloatOps.ofBits (F := Ideal) .f32 0xFF800000#32) (fun d => y (ix3 d u j)) := by
  unfold Gen.k0_pay2
  refine (Ideal.multiReduction_maximumf_single _ _ _ _ _ _).trans ?_
  refine Finset.fold_congr fun d _ => ?_
  show y _ = y _
  congr 1
  funext a
  match a with
  | ⟨0, _⟩ => rfl
  | ⟨1, _⟩ => rfl
  | ⟨2, _⟩ => rfl

/-- The reference's result at column `j`: the maximum of the whole array's column over its 16384 rows. -/
theorem ref_apply (X : (⟨Cert.ReferenceIdeal.S16384x512, .f32⟩ : BufTy).Contents (Elt Ideal)) (u : Fin 1) (j : Fin 512) :
    Cert.ReferenceIdeal.Read.val_main_v1 (F := Ideal) X (ix2 u j)
      = (Finset.univ : Finset (Fin 16384)).fold max (FloatOps.ofBits (F := Ideal) .f32 0xFF800000#32) (fun R => X (ix2 R j)) := by
  have h : Shape.Reduces Cert.ReferenceIdeal.S16384x512 [0] Cert.ReferenceIdeal.S512 := by decide
  rw [Cert.ReferenceIdeal.Read.val_main_v1_apply]
  unfold Cert.ReferenceIdeal.Read.val_main_v0
  refine (Host.reduce_eq_fold_single (FloatOps.maximumf (F := Ideal) (φ := .f32)) X _ _ h _ _).trans ?_
  refine Finset.fold_congr fun R _ => ?_
  show X _ = X _
  congr 1
  funext a
  match a with
  | ⟨0, _⟩ => rfl
  | ⟨1, _⟩ => rfl

/-! ## The kernel's result is the reference's -/

/-- Every device is some number of places before `c`. -/
theorem rot_neg_surj (c c' : Dev nD) : ∃ d : Fin 16, rot c (neg d) = c' := by revert c c'; decide +kernel

/-- The maximum over the sixteen slots of device `c` is the reference's result: slot `d` holds the column maxima of the
    block of the device `d` places before `c`, these sixteen devices are all of them, and row `r` of block `c'` is row
    `1024 c' + r` of the whole array. -/
theorem outAt_eq_ref (m : (ℓ : Loc nD τ sig) → Buf (Elt Ideal) ℓ) (X : (⟨Cert.ReferenceIdeal.S16384x512, .f32⟩ : BufTy).Contents (Elt Ideal))
    (hblk : ∀ c : Dev nD, m ((c : Thread nD τ).loc main_arg0) = Layout.block ⟨2, ![1024, 512]⟩ ⟨2, ![16384, 512]⟩ 0 16 c X) (c : Dev nD) :
    outAt (F := Ideal) m c = Cert.ReferenceIdeal.Read.val_main_v1 (F := Ideal) X := by
  funext i
  obtain ⟨u, j, rfl⟩ : ∃ (u : Fin 1) (j : Fin 512), i = ix2 u j := ⟨i 0, i 1, eq_ix2 i⟩
  refine (pay2_apply (commFinal m c) u j).trans ?_
  refine Eq.trans ?_ (ref_apply X u j).symm
  have hfb := fold_blocks (FloatOps.ofBits (F := Ideal) .f32 0xFF800000#32) (fun R => X (ix2 R j))
    (fun c' r => xin m c' (ix2 r j)) (fun d => rot c (neg d)) (rot_neg_surj c) (fun c' r => by
      unfold xin
      rw [hblk c']
      show X _ = X _
      congr 1
      funext a
      match a with
      | ⟨0, _⟩ => rfl
      | ⟨1, _⟩ => rfl)
  refine Eq.trans ?_ hfb
  refine Finset.fold_congr fun d _ => ?_
  exact pay1_apply (xin m (rot c (neg d))) j

/-! ## The result array after the run -/

/-- The result array after the run is what the one point wrote back, whole: the maximum over the sixteen slots. -/
theorem finalA_out (c : Dev nD) : finalA (F := F) m ρ c (0 : Fin 1) = outAt m c := by
  unfold finalA
  rw [show cfg0.N = (t₀ : Fin cfg0.N).val + 1 from rfl, (dats m ρ 0 c).arrAt_succ (0 : Fin 1) t₀, if_pos (Gen.flush0_0 t₀)]
  have hz : (fun a => (win0_0.index t₀) a * main_v1.ty.shape.size a) = fun _ => 0 := funext fun a => by fin_cases a <;> decide
  refine (Memref.write_access_unit_zero_univ (Elt F) main_v1 hz _ _ _).trans ?_
  dsimp only [dats]
  rfl

/-! ## The claims about the reference -/

/-- The reference runs and leaves its argument as launched: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both programs run; every device's result array ends as the reference's result, the column maxima of the whole array,
    and the arguments of both end as launched. -/
theorem algebraic (hrun : ∀ (m : (ℓ : Loc nD τ sig) → Buf (Elt Ideal) ℓ) (ρ : Dev nD → PrngReg),
      θ_run (Cert.KernelIdeal.defs (F := Ideal)) (onTc (τ := τ) (Cert.KernelIdeal.main (F := Ideal))) (Coll.s₀ m ρ) (QC m ρ)) :
    Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run _ _ _).mono ?_ (hrun m g)
    intro r h c
    exact ⟨((h c).1 (0 : Fin 1)).trans ((finalA_out m g c).trans (outAt_eq_ref m _ hblk c)), (h c).2⟩
  · refine (θ_run _ _ _).mono ?_ (Cert.ReferenceIdeal.Value.run (F := Ideal) m' g')
    intro r h
    exact ⟨((h 0).1).trans (Cert.ReferenceIdeal.Read.val_main_v1_eq _), (h 0).2⟩

/-- info: 'Cert.KernelIdeal.CollValue.finalA_out' depends on axioms: [propext, Classical.choice, Quot.sound] -/
#guard_msgs in #print axioms finalA_out

/-- info: 'Cert.KernelIdeal.CollValue.outAt_eq_ref' depends on axioms: [propext, Classical.choice, Quot.sound] -/
#guard_msgs in #print axioms outAt_eq_ref

/-- info: 'Cert.KernelIdeal.CollValue.frame_ri' depends on axioms: [propext, Classical.choice, Quot.sound] -/
#guard_msgs in #print axioms frame_ri

/-- info: 'Cert.KernelIdeal.CollValue.algebraic' depends on axioms: [propext, Classical.choice, Quot.sound] -/
#guard_msgs in #print axioms algebraic

end Cert.KernelIdeal.CollValue

end
-- ==== Proof.lean ====
/-
  The certificate of the sixteen-device all-reduce by maximum: `Cert.Claim`.

  Each device takes the column maxima of its own [1024, 512] block, copies them into a slot of every other device's
  sixteen-slot buffer (after a handshake on the barrier semaphore that tells it every other device is inside the kernel),
  and takes the maximum over the sixteen slots it ends up holding: the column maxima of the whole [16384, 512] array,
  which is what the reference computes on one device. Over the extended reals the maximum is a lattice operation, so
  the regrouping of the sixteen thousand rows into sixteen blocks needs no finiteness: the precondition is never opened.

  The three frames: the two kernel programs (the word-level one and the idealized one, one text read at either
  instance) run by the protocol's proof — every wait is below everything its device still owes, so every weakly fair
  execution terminates —, and the reference by its run read back. `preserves` is trivial (the ideal pass rewrote
  nothing). `algebraic` joins the kernel's run, with each device's result named, to the reference's.
-/
import proofs.«900905_g7700000000000906_dist_max_ax0_shard0_i_m1024_n512_v7x_i16_f32_1_alg».proof.Defs
import proofs.«900905_g7700000000000906_dist_max_ax0_shard0_i_m1024_n512_v7x_i16_f32_1_alg».proof.Proof.Gen.Kernel
import proofs.«900905_g7700000000000906_dist_max_ax0_shard0_i_m1024_n512_v7x_i16_f32_1_alg».proof.Proof.Gen.KernelIdeal
import proofs.«900905_g7700000000000906_dist_max_ax0_shard0_i_m1024_n512_v7x_i16_f32_1_alg».proof.Proof.Gen.ReferenceIdeal
import proofs.«900905_g7700000000000906_dist_max_ax0_shard0_i_m1024_n512_v7x_i16_f32_1_alg».proof.Proof.Gen.Pre_finite_inputs_Kernel
import proofs.«900905_g7700000000000906_dist_max_ax0_shard0_i_m1024_n512_v7x_i16_f32_1_alg».proof.Proof.Gen.Pre_finite_inputs_ReferenceIdeal
import proofs.«900905_g7700000000000906_dist_max_ax0_shard0_i_m1024_n512_v7x_i16_f32_1_alg».proof.Proof.Body
import proofs.«900905_g7700000000000906_dist_max_ax0_shard0_i_m1024_n512_v7x_i16_f32_1_alg».proof.Proof.Launch
import proofs.«900905_g7700000000000906_dist_max_ax0_shard0_i_m1024_n512_v7x_i16_f32_1_alg».proof.Proof.KBody
import proofs.«900905_g7700000000000906_dist_max_ax0_shard0_i_m1024_n512_v7x_i16_f32_1_alg».proof.Proof.KLaunch
import proofs.«900905_g7700000000000906_dist_max_ax0_shard0_i_m1024_n512_v7x_i16_f32_1_alg».proof.Proof.Value
import Idealize.ShloMosaic.Adequacy
import Idealize.ShloMosaic.Init

noncomputable section

namespace Cert.Proof

open Idealize.ShloMosaic Idealize.SL.Sem

/-- The word-level program runs to the end, faults nowhere and leaves each device's block unchanged. -/
theorem frame_p : Cert.frame_Kernel := fun m ρ _ =>
  (θ_run Cert.Kernel.defs _ _).mono (fun _ h c => (h c).2)
    (Cert.Kernel.Coll.run_main (F := Bits) m ρ (Cert.Kernel.Coll.body_obligation m ρ))

/-- So does the idealized program. -/
theorem frame_pi : Cert.frame_KernelIdeal := fun m ρ _ =>
  (θ_run Cert.KernelIdeal.defs _ _).mono (fun _ h c => (h c).2)
    (Cert.KernelIdeal.Coll.run_main (F := Ideal) m ρ (Cert.KernelIdeal.Coll.body_obligation m ρ))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_p, frame_pi, Cert.KernelIdeal.CollValue.frame_ri, trivial,
    Cert.KernelIdeal.CollValue.algebraic fun m ρ =>
      Cert.KernelIdeal.Coll.run_main (F := Ideal) m ρ (Cert.KernelIdeal.Coll.body_obligation m ρ)⟩

end Cert.Proof

end
